-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x56x56 : Shape := ⟨4, ![16, 256, 56, 56]⟩
abbrev S256x256 : Shape := ⟨2, ![256, 256]⟩
abbrev S256 : Shape := ⟨1, ![256]⟩
abbrev S_ : Shape := ⟨0, ![]⟩

class Facts : Prop where
  bcast_S_S16x256x56x56 : S_.BroadcastsInDim S16x256x56x56 (![] : Fin 0 → Fin S16x256x56x56.rank)
  reducesTo_S16x256x56x56_S_d0_1_2_3 : S16x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x256x56x56 .f32) (main_arg1 : FVec F S256x256 .f32) (main_arg2 : FVec F S256 .f32) (main_arg3 : FVec F S256 .f32) : IVec S_ 1 :=
  let main_v0 : FVec F S16x256x56x56 .f32 := Host.absf main_arg0
  let main_cst : FVec F S_ .f32 := constant S_ .f32 0x7F800000#32
  let main_v1 : FVec F S16x256x56x56 .f32 := broadcastInDim S16x256x56x56 ![] bcast_S_S16x256x56x56 main_cst
  let main_v2 : IVec S16x256x56x56 1 := cmpf .olt main_v0 main_v1
  let main_c : IVec S_ 1 := constantI S_ 1 1#1
  let main_v3 : IVec S_ 1 := (fun x v => Host.reduce IntOp.andi x v reducesTo_S16x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x256x56x56 : Shape := ⟨4, ![16, 256, 56, 56]⟩
abbrev S256x256 : Shape := ⟨2, ![256, 256]⟩
abbrev S256 : Shape := ⟨1, ![256]⟩
abbrev S16x256x3136 : Shape := ⟨3, ![16, 256, 3136]⟩
abbrev S256x1 : Shape := ⟨2, ![256, 1]⟩
abbrev S1x256x3136 : Shape := ⟨3, ![1, 256, 3136]⟩
abbrev S256x3136 : Shape := ⟨2, ![256, 3136]⟩

abbrev nBuf : Space → Nat
  | .hbm => 9
  | .vmem => 12
  | .smem => 0
  | _ => 0

abbrev bufTy : (tb : Table) → Fin (tcTables nBuf tb) → BufTy
  | .hbm, ⟨0, _⟩ => ⟨S16x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S16x256x3136, .f32⟩
  | .hbm, ⟨5, _⟩ => ⟨S256x1, .f32⟩
  | .hbm, ⟨6, _⟩ => ⟨S256x1, .f32⟩
  | .hbm, ⟨7, _⟩ => ⟨S16x256x3136, .f32⟩
  | .hbm, ⟨8, _⟩ => ⟨S16x256x56x56, .f32⟩
  | .local _ .vmem, ⟨0, _⟩ => ⟨S256x256, .f32⟩
  | .local _ .vmem, ⟨1, _⟩ => ⟨S256x1, .f32⟩
  | .local _ .vmem, ⟨2, _⟩ => ⟨S256x1, .f32⟩
  | .local _ .vmem, ⟨3, _⟩ => ⟨S1x256x3136, .f32⟩
  | .local _ .vmem, ⟨4, _⟩ => ⟨S1x256x3136, .f32⟩
  | .local _ .vmem, ⟨5, _⟩ => ⟨S1x256x3136, .f32⟩
  | .local _ .vmem, ⟨6, _⟩ => ⟨S1x256x3136, .f32⟩
  | .local _ .vmem, ⟨7, _⟩ => ⟨S16x256x3136, .bf16⟩
  | .local _ .vmem, ⟨8, _⟩ => ⟨S256x256, .f32⟩
  | .local _ .vmem, ⟨9, _⟩ => ⟨S256x1, .f32⟩
  | .local _ .vmem, ⟨10, _⟩ => ⟨S256x256, .bf16⟩
  | .local _ .vmem, ⟨11, _⟩ => ⟨S256x1, .f32⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v19 : Index := Scalar.indexCast arg1
  let c0_9 : Index := 0#32
  let c0_10 : Index := 0#32
  ![v19.toNat, 0, 0]
def k0_cond4 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_6 : BitVec 32 := 0#32
  let v15 : BitVec 1 := Scalar.cmpi .ne v14 c0_i32_6
  v15

def k0_off2 (i : grid0.Coords) : Fin 3 → Nat :=
  let arg1 : BitVec 32 := BitVec.ofNat 32 (i 1).val
  let v17 : Index := Scalar.indexCast arg1
  let c0_8 : Index := 0#32
  let c0_9 : Index := 0#32
  ![v17.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let v1 : BitVec 32 := Scalar.muli arg0 v0
  let v2 : BitVec 32 := Scalar.addi arg1 v1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3136 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x256x56x56_S16x256x3136 : S16x256x56x56.ShapeCasts S16x256x3136
  shapeCasts_S256_S256x1 : S256.ShapeCasts S256x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  bitsLt_bf16_f32 : FTy.bits .bf16 < FTy.bits .f32
  shapeCasts_S256x3136_S1x256x3136 : S256x3136.ShapeCasts S1x256x3136
  reduces_S256x3136_S256 : S256x3136.Reduces [1] S256
  broadcasts_S256x1_S256x256 : S256x1.Broadcasts S256x256
  slices_S256x256_o0_0_S256x1 : S256x256.Slices ![0, 0] S256x1
  reduces_S256x256_S256 : S256x256.Reduces [1] S256
  packedbf16_S256x256_S256x256_0_0 : (Rect.unit (s := S256x256) ![0, 0] S256x256.size inb_S256x256_S256x256_0_0).PackedRows (EltTy.packing .bf16)
  broadcasts_S256x1_S256x3136 : S256x1.Broadcasts S256x3136
  shapeCasts_S16x256x3136_S16x256x56x56 : S16x256x3136.ShapeCasts S16x256x56x56
  dot_S256x3136_S256x3136_S256x256_1_1_0_0_n_n_wf : DotDims.WF S256x3136 S256x3136 S256x256 [1] [1] [0] [0] [] []
  dot_S256x256_S256x256_S256x256_1_0_0_1_n_n_wf : DotDims.WF S256x256 S256x256 S256x256 [1] [0] [0] [1] [] []
  dot_S256x256_S256x3136_S256x3136_1_0_0_1_n_n_wf : DotDims.WF S256x256 S256x3136 S256x3136 [1] [0] [0] [1] [] []
  hrank0 : 0 < grid0.rank
  k0_off1_inb : ∀ i : grid0.Coords, ∀ (k0_h2 : k0_cond2 i = 1#1), ∀ a, (k0_off1 i) a + S1x256x3136.size a ≤ S16x256x3136.size a
  k0_off1_packedbf16 : ∀ i : grid0.Coords, ∀ (k0_h2 : k0_cond2 i = 1#1), (Rect.unit (s := S16x256x3136) (k0_off1 i) S1x256x3136.size (k0_off1_inb i k0_h2)).PackedRows (EltTy.packing .bf16)
  k0_off2_inb : ∀ i : grid0.Coords, ∀ (k0_h4 : k0_cond4 i = 1#1), ∀ a, (k0_off2 i) a + S1x256x3136.size a ≤ S16x256x3136.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x3136.size a ≤ S16x256x3136.size a
  hwx0_3 : ∀ i : grid0.Coords, EltTy.bits .f32 = 32 ∨ (Rect.block (s := S16x256x3136) S1x256x3136.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x3136.size a ≤ S16x256x3136.size a
  hwx0_4 : ∀ i : grid0.Coords, EltTy.bits .f32 = 32 ∨ (Rect.block (s := S16x256x3136) S1x256x3136.size (cc0_transform_4 i) (hinb0_4 i)).WholeWords (EltTy.packing .f32)

variable [Facts₀]

def dot_S256x3136_S256x3136_S256x256_1_1_0_0_n_n : DotDims S256x3136 S256x3136 S256x256 where
  lhsContracting := [1]
  rhsContracting := [1]
  lhsNonContracting := [0]
  rhsNonContracting := [0]
  lhsBatch := []
  rhsBatch := []
  wf := dot_S256x3136_S256x3136_S256x256_1_1_0_0_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x3136_S256x3136_1_0_0_1_n_n : DotDims S256x256 S256x3136 S256x3136 where
  lhsContracting := [1]
  rhsContracting := [0]
  lhsNonContracting := [0]
  rhsNonContracting := [1]
  lhsBatch := []
  rhsBatch := []
  wf := dot_S256x256_S256x3136_S256x3136_1_0_0_1_n_n_wf

abbrev win0_0 : Pipeline.Window sig grid0 :=
  Pipeline.Window.ofSpec (Memref.whole main_arg1) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x3136.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x3136.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S16x256x56x56 : Shape := ⟨4, ![16, 256, 56, 56]⟩
abbrev S256x256 : Shape := ⟨2, ![256, 256]⟩
abbrev S256 : Shape := ⟨1, ![256]⟩
abbrev S16x256x3136 : Shape := ⟨3, ![16, 256, 3136]⟩
abbrev S_ : Shape := ⟨0, ![]⟩
abbrev S16x256x3200 : Shape := ⟨3, ![16, 256, 3200]⟩
abbrev S2x256x256 : Shape := ⟨3, ![2, 256, 256]⟩
abbrev S2x256x1 : Shape := ⟨3, ![2, 256, 1]⟩
abbrev S1x256x640 : Shape := ⟨3, ![1, 256, 640]⟩
abbrev S1x256x256 : Shape := ⟨3, ![1, 256, 256]⟩
abbrev S1x256x1 : Shape := ⟨3, ![1, 256, 1]⟩
abbrev S256x1 : Shape := ⟨2, ![256, 1]⟩
abbrev S256x640 : Shape := ⟨2, ![256, 640]⟩

abbrev nBuf : Space → Nat
  | .hbm => 45
  | .vmem => 12
  | .smem => 0
  | _ => 0

abbrev bufTy : (tb : Table) → Fin (tcTables nBuf tb) → BufTy
  | .hbm, ⟨0, _⟩ => ⟨S16x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S16x256x3136, .f32⟩
  | .hbm, ⟨5, _⟩ => ⟨S_, .i32⟩
  | .hbm, ⟨6, _⟩ => ⟨S_, .f32⟩
  | .hbm, ⟨7, _⟩ => ⟨S16x256x3200, .f32⟩
  | .hbm, ⟨8, _⟩ => ⟨S2x256x256, .f32⟩
  | .hbm, ⟨9, _⟩ => ⟨S2x256x1, .f32⟩
  | .hbm, ⟨10, _⟩ => ⟨S_, .f32⟩
  | .hbm, ⟨11, _⟩ => ⟨S256x256, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x256, .f32⟩
  | .hbm, ⟨41, _⟩ => ⟨S256x256, .f32⟩
  | .hbm, ⟨42, _⟩ => ⟨S16x256x3200, .f32⟩
  | .hbm, ⟨43, _⟩ => ⟨S16x256x3136, .f32⟩
  | .hbm, ⟨44, _⟩ => ⟨S16x256x56x56, .f32⟩
  | .local _ .vmem, ⟨0, _⟩ => ⟨S1x256x640, .f32⟩
  | .local _ .vmem, ⟨1, _⟩ => ⟨S1x256x640, .f32⟩
  | .local _ .vmem, ⟨2, _⟩ => ⟨S1x256x256, .f32⟩
  | .local _ .vmem, ⟨3, _⟩ => ⟨S1x256x256, .f32⟩
  | .local _ .vmem, ⟨4, _⟩ => ⟨S1x256x1, .f32⟩
  | .local _ .vmem, ⟨5, _⟩ => ⟨S1x256x1, .f32⟩
  | .local _ .vmem, ⟨6, _⟩ => ⟨S256x256, .f32⟩
  | .local _ .vmem, ⟨7, _⟩ => ⟨S256x1, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![2, 8, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev grid1 : Pipeline.Grid := ⟨2, ![16, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x256x56x56_S16x256x3136 : S16x256x56x56.ShapeCasts S16x256x3136
  pads_S16x256x3136_S16x256x3200_000_000_0640 : S16x256x3136.Pads (![0, 0, 0] : Fin 3 → Nat) ![0, 0, 64] ![0, 0, 0] S16x256x3200
  h_S_ : 0 < S_.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  reduces_S256x640_S256 : S256x640.Reduces [1] S256
  shapeCasts_S256_S256x1 : S256.ShapeCasts S256x1
  reducesTo_S2x256x256_S256x256_d0 : S2x256x256.ReducesTo [0] S256x256
  reducesTo_S2x256x1_S256x1_d0 : S2x256x1.ReducesTo [0] S256x1
  bcast_S_S256x1 : S_.BroadcastsInDim S256x1 (![] : Fin 0 → Fin S256x1.rank)
  reducesTo_S256x256_S256_d1 : S256x256.ReducesTo [1] S256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x640 : S256x1.Broadcasts S256x640
  shapeCasts_S256x640_S1x256x640 : S256x640.ShapeCasts S1x256x640
  slices_S16x256x3200_S16x256x3136_0_0_0 : S16x256x3200.Slices ![0, 0, 0] S16x256x3136
  shapeCasts_S16x256x3136_S16x256x56x56 : S16x256x3136.ShapeCasts S16x256x56x56
  dot_S256x640_S256x640_S256x256_1_1_0_0_n_n_wf : DotDims.WF S256x640 S256x640 S256x256 [1] [1] [0] [0] [] []
  dot_S256x256_S256x1_S256x1_1_0_0_1_n_n_wf : DotDims.WF S256x256 S256x1 S256x1 [1] [0] [0] [1] [] []
  dot_S256x256_S256x256_S256x256_1_0_0_1_n_n_wf : DotDims.WF S256x256 S256x256 S256x256 [1] [0] [0] [1] [] []
  dot_S256x256_S256x640_S256x640_1_0_0_1_n_n_wf : DotDims.WF S256x256 S256x640 S256x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x640.size a ≤ S16x256x3200.size a
  hwx0_0 : ∀ i : grid0.Coords, EltTy.bits .f32 = 32 ∨ (Rect.block (s := S16x256x3200) S1x256x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S2x256x256.size a
  hwx0_1 : ∀ i : grid0.Coords, EltTy.bits .f32 = 32 ∨ (Rect.block (s := S2x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x256x1.size a
  hwx0_2 : ∀ i : grid0.Coords, EltTy.bits .f32 = 32 ∨ (Rect.block (s := S2x256x1) S1x256x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x640.size a ≤ S16x256x3200.size a
  hwx1_2 : ∀ i : grid1.Coords, EltTy.bits .f32 = 32 ∨ (Rect.block (s := S16x256x3200) S1x256x640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x640.size a ≤ S16x256x3200.size a
  hwx1_3 : ∀ i : grid1.Coords, EltTy.bits .f32 = 32 ∨ (Rect.block (s := S16x256x3200) S1x256x640.size (cc1_transform_3 i) (hinb1_3 i)).WholeWords (EltTy.packing .f32)

variable [Facts₀]

def dot_S256x640_S256x640_S256x256_1_1_0_0_n_n : DotDims S256x640 S256x640 S256x256 where
  lhsContracting := [1]
  rhsContracting := [1]
  lhsNonContracting := [0]
  rhsNonContracting := [0]
  lhsBatch := []
  rhsBatch := []
  wf := dot_S256x640_S256x640_S256x256_1_1_0_0_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x640_S256x640_1_0_0_1_n_n : DotDims S256x256 S256x640 S256x640 where
  lhsContracting := [1]
  rhsContracting := [0]
  lhsNonContracting := [0]
  rhsNonContracting := [1]
  lhsBatch := []
  rhsBatch := []
  wf := dot_S256x256_S256x640_S256x640_1_0_0_1_n_n_wf

abbrev win0_0 : Pipeline.Window sig grid0 :=
  Pipeline.Window.ofSpec (Memref.whole main_v1) S1x256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x256x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v25) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  The function both programs compute, as extended reals.

  Inputs: an activation array `x` of shape [16, 256, 3136] (batch, channel, pixel — the 4-d input with its two
  spatial axes flattened), a 1×1 convolution weight `w` of shape [256, 256] (output channel, input channel), and the
  batch-norm scale `gam` and offset `bet`, each of shape [256].

  With `y[b,i,j] = ∑ₖ w[i,k]·x[b,k,j]` the convolution's output, training-mode batch norm needs the per-channel mean and
  second moment of `y` over the `16·3136 = 50176` positions. Both are obtained from the statistics of `x` alone: with
  the per-channel sum `rsum k = ∑_{b,j} x[b,k,j]` and the Gram matrix `gram l k = ∑_{b,j} x[b,l,j]·x[b,k,j]`,
    mean i = (∑ₖ w[i,k]·rsum k) / 50176,    ey2 i = (∑ₖ (∑ₗ w[i,l]·gram l k)·w[i,k]) / 50176,
    var i = max (ey2 i − mean i²) 0,    inv i = 1/√(var i + ε),    scale i = gam i · inv i,
    shift i = bet i − mean i · scale i,    wfold i k = scale i · w[i,k],
  and the result is `out[b,i,j] = max (∑ₖ wfold i k · x[b,k,j] + shift i) 0`.
  The divisor `50176` and `ε` are kept as the binary32 words both programs print (`0x47440000`, `0x3727C5AC`).
-/
import Idealize.ShloMosaic.PureOps.Ideal
import Idealize.ShloMosaic.PureOps.ShapeOps
import Idealize.ShloMosaic.Lib.ValueIdx

noncomputable section

namespace Cert.Spec

open Idealize.ShloMosaic Idealize.ShloMosaic.ValueIdx
open scoped BigOperators

/-- [16, 256, 56, 56]: the activations as the programs receive and return them. -/
abbrev S4 : Shape := ⟨4, ![16, 256, 56, 56]⟩
/-- [16, 256, 3136]: the same with the spatial axes flattened. -/
abbrev S3 : Shape := ⟨3, ![16, 256, 3136]⟩
/-- [256, 256]: the weight. -/
abbrev SW : Shape := ⟨2, ![256, 256]⟩
/-- [256]: a per-channel vector. -/
abbrev SC : Shape := ⟨1, ![256]⟩

/-- The number of positions a channel's statistics average over, `50176 = 16·3136`, as the binary32 word. -/
def cnt : EReal := Ideal.ofBits .f32 0x47440000#32
/-- The variance's regulariser `ε` (binary32 nearest `1e-5`). -/
def eps : EReal := Ideal.ofBits .f32 0x3727C5AC#32

section
variable (x : S3.Idx → EReal) (w : SW.Idx → EReal) (gam bet : SC.Idx → EReal)

/-- Channel `k`'s sum over batch and pixels. -/
def rsum (k : Fin 256) : EReal := ∑ b : Fin 16, ∑ j : Fin 3136, x (ix3 b k j)
/-- The Gram matrix of the channels over batch and pixels. -/
def gram (l k : Fin 256) : EReal := ∑ b : Fin 16, ∑ j : Fin 3136, x (ix3 b l j) * x (ix3 b k j)
/-- The convolution output's per-channel mean. -/
def mean (i : Fin 256) : EReal := Ideal.div (∑ k : Fin 256, w (ix2 i k) * rsum x k) cnt
/-- The convolution output's per-channel second moment: the diagonal of `W G Wᵀ` over the count. -/
def ey2 (i : Fin 256) : EReal := Ideal.div (∑ k : Fin 256, (∑ l : Fin 256, w (ix2 i l) * gram x l k) * w (ix2 i k)) cnt
/-- The (biased, clamped) variance. -/
def var (i : Fin 256) : EReal := max (ey2 x w i - mean x w i * mean x w i) 0
/-- The batch-norm scale folded with the inverse standard deviation. -/
def scale (i : Fin 256) : EReal := gam (ix1 i) * Ideal.rsqrt (var x w i + eps)
/-- The per-channel additive term after folding. -/
def shift (i : Fin 256) : EReal := bet (ix1 i) - mean x w i * scale x w gam i
/-- The folded weight. -/
def wfold (i k : Fin 256) : EReal := scale x w gam i * w (ix2 i k)
/-- The result on the flattened layout. -/
def out3 : S3.Idx → EReal := fun q =>
  max ((∑ k : Fin 256, wfold x w gam (q 1) k * x (ix3 (q 0) k (q 2))) + shift x w gam bet (q 1)) 0
end

/-- The result as a function of the programs' own arguments: flatten, compute, restore the 4-d layout. -/
def out4 (x : S4.Idx → EReal) (w : SW.Idx → EReal) (gam bet : SC.Idx → EReal) : S4.Idx → EReal :=
  shapeCast S4 (out3 (shapeCast S3 x) w gam bet)

end Cert.Spec

end
-- ==== Proof.KDefs.lean ====
/-
  What the fused kernel's scratch buffers hold point by point, and the array it leaves, as pure functions of the
  arrays the region is launched on — stated through the body's own arithmetic (the payload terms), at any float instance.

  The grid is 2 × 16, walked phase-major. In phase 0, point `b` reads batch image `b`, stores its narrowed copy into
  row `b` of a resident copy of the input, and adds the image's Gram matrix and row sums into two accumulators that the
  first point resets. The last point of phase 0 also derives the folded weight and the additive term from the
  accumulated statistics. In phase 1, point `b` multiplies the folded weight with row `b` of the resident copy, adds
  the additive term, clamps at zero and writes output block `b`.
-/
import proofs.«147999_g2000502477920874_pallasbulk_293_3_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F] [Facts]

section
/- `x3`: the activations, flattened to [16, 256, 3136]; `w`: the weight; `g2`, `b2`: the batch-norm scale and
   offset as columns [256, 1]. -/
variable (x3 : Vec F S16x256x3136 .f32) (w : Vec F S256x256 .f32) (g2 b2 : Vec F S256x1 .f32)

/-- Batch image `n` (taken modulo 16) as a [1, 256, 3136] block. -/
def xblk (n : ℕ) : Vec F S1x256x3136 .f32 :=
  fun y => x3 (fun d => match d with
    | ⟨0, _⟩ => (⟨n % 16, Nat.mod_lt _ (by decide)⟩ : Fin 16)
    | ⟨1, _⟩ => y 1
    | ⟨2, _⟩ => y 2)

/-- The Gram accumulator after phase-0 point `n`: reset at the first point, then each image's contribution added. -/
def Gacc : ℕ → Vec F S256x256 .f32
  | 0 => k0_pay6 (xblk x3 0) k0_pay1
  | n + 1 => k0_pay6 (xblk x3 (n + 1)) (Gacc n)

/-- The row-sum accumulator after phase-0 point `n`. -/
def sacc : ℕ → Vec F S256x1 .f32
  | 0 => k0_pay7 (xblk x3 0) k0_pay2
  | n + 1 => k0_pay7 (xblk x3 (n + 1)) (sacc n)

/-- The folded weight the last phase-0 point stores. -/
def wfV : Vec F S256x256 .bf16 := k0_pay12 w (Gacc x3 15) (sacc x3 15) g2
/-- The additive term the last phase-0 point stores. -/
def shiftV : Vec F S256x1 .f32 := k0_pay11 w (Gacc x3 15) (sacc x3 15) g2 b2

/-- Output block `n` (what phase-1 point `n` writes): the folded weight times the narrowed image, plus the additive
    term, clamped at zero. -/
def oblk (n : ℕ) : Vec F S1x256x3136 .f32 := k0_pay8 (wfV x3 w g2) (k0_pay5 (xblk x3 n)) (shiftV x3 w g2 b2)

/-- The whole output array: index `(b, i, j)` is entry `(0, i, j)` of block `b`. -/
def outArr : Vec F S16x256x3136 .f32 :=
  fun q => oblk x3 w g2 b2 (q 0).val (fun d => match d with
    | ⟨0, _⟩ => (⟨0, by decide⟩ : Fin 1)
    | ⟨1, _⟩ => q 1
    | ⟨2, _⟩ => q 2)
end

end Cert.KernelIdeal.Hand

end
-- ==== Proof.KConds.lean ====
/-
  The four branch conditions of the fused kernel's body as propositions over the grid point `i = (phase, batch)`,
  and the two ways the body touches the resident narrowed copy of the input: overwriting one batch row, reading one
  batch row.
    cond0: phase = 0 and batch = 0    (the accumulators are reset)
    cond1: phase = 0                  (an image is narrowed, stored, and accumulated)
    cond2: phase = 0 and batch = 15   (the statistics are folded into the weight)
    cond3: phase = 1                  (an output block is produced)
-/
import proofs.«147999_g2000502477920874_pallasbulk_293_3_alg».proof.Proof.Gen.KernelIdeal.Frame
import proofs.«147999_g2000502477920874_pallasbulk_293_3_alg».proof.Proof.Gen.KernelIdeal.Skeleton

noncomputable section

namespace Cert.KernelIdeal.Hand

open Idealize.ShloMosaic Cert.KernelIdeal Cert.KernelIdeal.Gen

variable {F : FTy → Type} [FloatOps F]

abbrev cond0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev cond1 (i : grid0.Coords) : Prop := k0_cond2 i = 1#1
abbrev cond2 (i : grid0.Coords) : Prop :=
  Scalar.cmpi .ne (Scalar.extui (Scalar.andi (Scalar.cmpi .eq (BitVec.ofNat 32 (i 0).val) 0#32) (Scalar.cmpi .eq (BitVec.ofNat 32 (i 1).val) 15#32))) 0#32 = 1#1
abbrev cond3 (i : grid0.Coords) : Prop := k0_cond4 i = 1#1

/-- The resident copy with batch row `n` replaced by a [1, 256, 3136] block. -/
def rowset {e : EltTy} (X : S16x256x3136.Idx → Elt F e) (n : ℕ) (blk : S1x256x3136.Idx → Elt F e) : S16x256x3136.Idx → Elt F e :=
  fun q => if (q 0).val = n then blk (fun d => match d with
    | ⟨0, _⟩ => (⟨0, by decide⟩ : Fin 1)
    | ⟨1, _⟩ => q 1
    | ⟨2, _⟩ => q 2) else X q

/-- Batch row `n` (taken modulo 16) of the resident copy, as a [1, 256, 3136] block. -/
def rowget {e : EltTy} (X : S16x256x3136.Idx → Elt F e) (n : ℕ) : S1x256x3136.Idx → Elt F e :=
  fun y => X (fun d => match d with
    | ⟨0, _⟩ => (⟨n % 16, Nat.mod_lt _ (by decide)⟩ : Fin 16)
    | ⟨1, _⟩ => y 1
    | ⟨2, _⟩ => y 2)

end Cert.KernelIdeal.Hand

end
-- ==== Proof.KPoints.lean ====
/-
  The grid walked as one line of 32 points, phase-major: point t is (phase, batch) = (t / 16, t % 16). In closed
  form over t: where each of the body's four branch conditions holds, which image block the input window is on,
  which output block the output window is on, and where the output window is idle or written back.
-/
import proofs.«147999_g2000502477920874_pallasbulk_293_3_alg».proof.Proof.KConds
import proofs.«147999_g2000502477920874_pallasbulk_293_3_alg».proof.Proof.Gen.KernelIdeal.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulators are reset at the first point only. -/
theorem hcond0 : ∀ t : Fin cfg0.N, cond0 (grid0.coords t) ↔ t.val = 0 :=
  (by decide +kernel : ∀ t : Fin grid0.N, cond0 (grid0.coords t) ↔ t.val = 0)
/-- An image is accumulated at the points of phase 0. -/
theorem hcond1 : ∀ t : Fin cfg0.N, cond1 (grid0.coords t) ↔ t.val < 16 :=
  (by decide +kernel : ∀ t : Fin grid0.N, cond1 (grid0.coords t) ↔ t.val < 16)
/-- The statistics are folded at the last point of phase 0. -/
theorem hcond2 : ∀ t : Fin cfg0.N, cond2 (grid0.coords t) ↔ t.val = 15 :=
  (by decide +kernel : ∀ t : Fin grid0.N, cond2 (grid0.coords t) ↔ t.val = 15)
/-- An output block is produced at the points of phase 1. -/
theorem hcond3 : ∀ t : Fin cfg0.N, cond3 (grid0.coords t) ↔ 16 ≤ t.val :=
  (by decide +kernel : ∀ t : Fin grid0.N, cond3 (grid0.coords t) ↔ 16 ≤ t.val)

/-- The batch coordinate of point t. -/
theorem coord1 : ∀ t : Fin cfg0.N, (grid0.coords t 1).val = t.val % 16 :=
  (by decide +kernel : ∀ t : Fin grid0.N, (grid0.coords t 1).val = t.val % 16)

/-- The three resident operands sit on their one block throughout. -/
theorem idx0 : ∀ t : Fin cfg0.N, ∀ a, win0_0.index t a = 0 :=
  (by decide +kernel : ∀ t : Fin grid0.N, ∀ a, win0_0.index t a = 0)
theorem idx1 : ∀ t : Fin cfg0.N, ∀ a, win0_1.index t a = 0 :=
  (by decide +kernel : ∀ t : Fin grid0.N, ∀ a, win0_1.index t a = 0)
theorem idx2 : ∀ t : Fin cfg0.N, ∀ a, win0_2.index t a = 0 :=
  (by decide +kernel : ∀ t : Fin grid0.N, ∀ a, win0_2.index t a = 0)
/-- The image window walks the batch in phase 0 and stays on the last image in phase 1. -/
theorem idx3 : ∀ t : Fin cfg0.N, win0_3.index t = ![if t.val < 16 then t.val else 15, 0, 0] :=
  (by decide +kernel : ∀ t : Fin grid0.N, win0_3.index t = ![if t.val < 16 then t.val else 15, 0, 0])
/-- The output window stays on block 0 in phase 0 and walks the batch in phase 1. -/
theorem idx4 : ∀ t : Fin cfg0.N, win0_4.index t = ![t.val - 16, 0, 0] :=
  (by decide +kernel : ∀ t : Fin grid0.N, win0_4.index t = ![t.val - 16, 0, 0])

/-- The output window is idle exactly in phase 0, -/
theorem idle4 : ∀ t : Fin cfg0.N, cfg0.idle 4 (grid0.coords t) = decide (t.val < 16) :=
  (by decide +kernel : ∀ t : Fin grid0.N, idle0 4 (grid0.coords t) = decide (t.val < 16))
/-- and written back after each point of phase 1. -/
theorem flush4 : ∀ t : Fin cfg0.N, (cfg0.win 4).flush t = decide (16 ≤ t.val) :=
  (by decide +kernel : ∀ t : Fin grid0.N, win0_4.flush t = decide (16 ≤ t.val))

end Cert.KernelIdeal.Hand

end
-- ==== Proof.KDat.lean ====
/-
  The region's invariant and proof data.

  Between grid points the kernel carries five scratch buffers. After phase-0 point k (k < 16) the resident copy holds
  the narrowed images 0..k in its rows 0..k, and the two accumulators hold the Gram matrix and the row sums of
  images 0..k. The last phase-0 point also leaves the folded weight and the additive term, which phase 1 only reads
  (the accumulators are not read again and are forgotten). After every later point the resident copy still holds all
  sixteen narrowed images. Before the first point nothing is known of any scratch buffer.

  Each input window's staging buffer holds its block of the array as the region finds it. The output window is idle
  throughout phase 0 (its buffer is handed back as found and not written back) and after phase-1 point 16 + b holds
  output block b.
-/
import proofs.«147999_g2000502477920874_pallasbulk_293_3_alg».proof.Proof.KDefs
import proofs.«147999_g2000502477920874_pallasbulk_293_3_alg».proof.Proof.KConds
import proofs.«147999_g2000502477920874_pallasbulk_293_3_alg».proof.Proof.KPoints
import proofs.«147999_g2000502477920874_pallasbulk_293_3_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays the region is launched on, at their literal types -/

/-- The activations, flattened to [16, 256, 3136], as the region finds them. -/
abbrev xarr (c : Dev nD) : Vec F S16x256x3136 .f32 := V m c main_v0
/-- The weight. -/
abbrev warr (c : Dev nD) : Vec F S256x256 .f32 := V m c main_arg1
/-- The batch-norm scale and offset as columns. -/
abbrev garr (c : Dev nD) : Vec F S256x1 .f32 := V m c main_v1
abbrev barr (c : Dev nD) : Vec F S256x1 .f32 := V m c main_v2

/-! ## The scratch operands -/

abbrev sc0 : Memref sig .tc .vmem S16x256x3136 .bf16 := Memref.whole cc0_scratch0
abbrev sc1 : Memref sig .tc .vmem S256x256 .f32 := Memref.whole cc0_scratch1
abbrev sc2 : Memref sig .tc .vmem S256x1 .f32 := Memref.whole cc0_scratch2
abbrev sc3 : Memref sig .tc .vmem S256x256 .bf16 := Memref.whole cc0_scratch3
abbrev sc4 : Memref sig .tc .vmem S256x1 .f32 := Memref.whole cc0_scratch4

/-- The class's invariant with the five scratch operands as memrefs owned at some contents. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The invariant -/

/-- The invariant before point `n`: the class's before the first point; after point `k` the resident copy with its rows
    `0..min k 15` the narrowed images, the accumulators at images `0..k`'s statistics while `k < 15`, the folded weight
    and the additive term once `15 ≤ k`, every other scratch buffer at anything, and the generator register at some state. -/
def PhiK (c : Dev nD) : ℕ → sProp 𝕄
  | 0 => Pipeline.ΦA spec0 c
  | k + 1 => iprop((∃ X7 : Vec F S16x256x3136 .bf16, ⌜∀ b, b ≤ k → b < 16 → rowget X7 b = k0_pay5 (xblk (xarr m c) b)⌝ ∗ owns (c : Thread nD τ) sc0 fullShare X7)
      ∗ (if k < 15 then owns (c : Thread nD τ) sc1 fullShare (Gacc (xarr m c) k) else iprop(∃ d, owns (c : Thread nD τ) sc1 fullShare d))
      ∗ (if k < 15 then owns (c : Thread nD τ) sc2 fullShare (sacc (xarr m c) k) else iprop(∃ d, owns (c : Thread nD τ) sc2 fullShare d))
      ∗ (if 15 ≤ k then owns (c : Thread nD τ) sc3 fullShare (wfV (xarr m c) (warr m c) (garr m c)) else iprop(∃ d, owns (c : Thread nD τ) sc3 fullShare d))
      ∗ (if 15 ≤ k then owns (c : Thread nD τ) sc4 fullShare (shiftV (xarr m c) (warr m c) (garr m c) (barr m c)) else iprop(∃ d, owns (c : Thread nD τ) sc4 fullShare d))
      ∗ (∃ r, prngReg c r))

theorem PhiK_zero (c : Dev nD) : PhiK m c 0 = Pipeline.ΦA spec0 c := rfl

theorem PhiK_succ (c : Dev nD) (k : ℕ) :
    PhiK m c (k + 1) = iprop((∃ X7 : Vec F S16x256x3136 .bf16, ⌜∀ b, b ≤ k → b < 16 → rowget X7 b = k0_pay5 (xblk (xarr m c) b)⌝ ∗ owns (c : Thread nD τ) sc0 fullShare X7)
      ∗ (if k < 15 then owns (c : Thread nD τ) sc1 fullShare (Gacc (xarr m c) k) else iprop(∃ d, owns (c : Thread nD τ) sc1 fullShare d))
      ∗ (if k < 15 then owns (c : Thread nD τ) sc2 fullShare (sacc (xarr m c) k) else iprop(∃ d, owns (c : Thread nD τ) sc2 fullShare d))
      ∗ (if 15 ≤ k then owns (c : Thread nD τ) sc3 fullShare (wfV (xarr m c) (warr m c) (garr m c)) else iprop(∃ d, owns (c : Thread nD τ) sc3 fullShare d))
      ∗ (if 15 ≤ k then owns (c : Thread nD τ) sc4 fullShare (shiftV (xarr m c) (warr m c) (garr m c) (barr m c)) else iprop(∃ d, owns (c : Thread nD τ) sc4 fullShare d))
      ∗ (∃ r, prngReg c r)) := rfl

/-! ## The proof data -/

/-- Output block `b` at the output window's block type. -/
abbrev oblkW (c : Dev nD) (b : ℕ) : (cfg0.win 4).block.Idx → Elt F (cfg0.win 4).elt :=
  oblk (xarr m c) (warr m c) (garr m c) (barr m c) b

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblkW m c (t.val - 16)
  Φ t := PhiK m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oblkW m c (t.val - 16) := by dsimp only [dats]

theorem Phi_castSucc (c : Dev nD) (t : Fin cfg0.N) : (dats m 0 c).Φ t.castSucc = PhiK m c t.val := by
  dsimp only [dats]; simp only [Fin.coe_castSucc]
theorem Phi_succ (c : Dev nD) (t : Fin cfg0.N) : (dats m 0 c).Φ t.succ = PhiK m c (t.val + 1) := by
  dsimp only [dats]; simp only [Fin.val_succ]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The output's current staging buffer is handed to the body at whatever it held: through phase 0 the window is idle
    and nothing is written back, and in phase 1 every point follows a write-back (or the idle run). -/
theorem before0_4 (c : Dev nD) : ∀ (n : ℕ) (hn : n < cfg0.N) (d), (dats m 0 c).before 4 ⟨n, hn⟩ d = d
  | 0, hn, d => (dats m 0 c).before_out_reset 4 rfl ⟨0, hn⟩ (.inl rfl) d
  | n + 1, hn, d => by
    by_cases h : 16 ≤ n
    · exact (dats m 0 c).before_out_reset 4 rfl ⟨n + 1, hn⟩ (.inr ⟨Nat.succ_ne_zero n, by
        show (cfg0.win 4).flush ⟨n, _⟩ = true
        rw [flush4]; exact decide_eq_true h⟩) d
    · rw [(dats m 0 c).before_of_pos 4 ⟨n + 1, hn⟩ (Nat.succ_ne_zero n) ((cfg0.win 4).fetch_out rfl _) d]
      have hfl : (cfg0.win 4).flush ⟨n, Nat.lt_of_succ_lt hn⟩ = false := by
        rw [flush4]; exact decide_eq_false h
      have hid : cfg0.idle 4 (cfg0.grid.coords ⟨n, Nat.lt_of_succ_lt hn⟩) = true := by
        rw [idle4]; exact decide_eq_true (by show n < 16; omega)
      show (if (cfg0.win 4).flush ⟨n, Nat.lt_of_succ_lt hn⟩ = true then d else (dats m 0 c).left 4 ⟨n, Nat.lt_of_succ_lt hn⟩ d) = d
      rw [hfl, if_neg Bool.false_ne_true]
      unfold Dat.left; rw [hid]
      exact before0_4 c n (Nat.lt_of_succ_lt hn) d

end Cert.KernelIdeal.Hand

end
-- ==== Proof.KRows.lean ====
/-
  Reading a batch row of the resident copy back after one row was overwritten: the overwritten row reads as the
  block written, every other row as before.
-/
import proofs.«147999_g2000502477920874_pallasbulk_293_3_alg».proof.Proof.KConds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The row just written reads back as the block written. -/
theorem rowget_rowset_self {e : EltTy} (X : S16x256x3136.Idx → Elt F e) (n : ℕ) (hn : n < 16) (blk : S1x256x3136.Idx → Elt F e) :
    rowget (rowset X n blk) n = blk := by
  funext y
  unfold rowget rowset
  rw [if_pos (show ((⟨n % 16, Nat.mod_lt _ (by decide)⟩ : Fin 16)).val = n from Nat.mod_eq_of_lt hn)]
  congr 1
  funext d
  match d with
  | ⟨0, h0⟩ => exact Fin.ext (by
      have h1 : (y ⟨0, h0⟩).val < S1x256x3136.size ⟨0, h0⟩ := (y ⟨0, h0⟩).isLt
      have h2 : S1x256x3136.size ⟨0, h0⟩ = 1 := rfl
      show 0 = (y ⟨0, h0⟩).val; omega)
  | ⟨1, _⟩ => rfl
  | ⟨2, _⟩ => rfl

/-- Any other row reads back as it was. -/
theorem rowget_rowset_other {e : EltTy} (X : S16x256x3136.Idx → Elt F e) (n b : ℕ) (hb : b < 16) (hne : b ≠ n) (blk : S1x256x3136.Idx → Elt F e) :
    rowget (rowset X n blk) b = rowget X b := by
  funext y
  unfold rowget rowset
  rw [if_neg (show ¬((⟨b % 16, Nat.mod_lt _ (by decide)⟩ : Fin 16)).val = n from by show ¬ b % 16 = n; rw [Nat.mod_eq_of_lt hb]; exact hne)]

end Cert.KernelIdeal.Hand

end
-- ==== Proof.KBlocks.lean ====
/-
  Each input window's block, read off the array the region finds: the weight and the two batch-norm columns are
  their whole arrays at every point; the image window's block at point t is batch image t in phase 0 and stays on
  image 15 throughout phase 1.
-/
import proofs.«147999_g2000502477920874_pallasbulk_293_3_alg».proof.Proof.KDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The weight window's block is the whole weight. -/
theorem iblk0 (c : Dev nD) (t : Fin cfg0.N) : iblk m c 0 t = warr m c := by
  funext y
  unfold iblk
  rw [View.read_apply]
  show V m c main_arg1 _ = V m c main_arg1 y
  congr 1
  funext a
  apply Fin.ext
  match a with
  | ⟨0, _⟩ => show win0_0.index t 0 * 256 + 1 * (y 0).val = (y 0).val; rw [idx0 t 0]; omega
  | ⟨1, _⟩ => show win0_0.index t 1 * 256 + 1 * (y 1).val = (y 1).val; rw [idx0 t 1]; omega

/-- The scale window's block is the whole scale column. -/
theorem iblk1 (c : Dev nD) (t : Fin cfg0.N) : iblk m c 1 t = garr m c := by
  funext y
  unfold iblk
  rw [View.read_apply]
  show V m c main_v1 _ = V m c main_v1 y
  congr 1
  funext a
  apply Fin.ext
  match a with
  | ⟨0, _⟩ => show win0_1.index t 0 * 256 + 1 * (y 0).val = (y 0).val; rw [idx1 t 0]; omega
  | ⟨1, _⟩ => show win0_1.index t 1 * 1 + 1 * (y 1).val = (y 1).val; rw [idx1 t 1]; omega

/-- The offset window's block is the whole offset column. -/
theorem iblk2 (c : Dev nD) (t : Fin cfg0.N) : iblk m c 2 t = barr m c := by
  funext y
  unfold iblk
  rw [View.read_apply]
  show V m c main_v2 _ = V m c main_v2 y
  congr 1
  funext a
  apply Fin.ext
  match a with
  | ⟨0, _⟩ => show win0_2.index t 0 * 256 + 1 * (y 0).val = (y 0).val; rw [idx2 t 0]; omega
  | ⟨1, _⟩ => show win0_2.index t 1 * 1 + 1 * (y 1).val = (y 1).val; rw [idx2 t 1]; omega

/-- The image window's block: image t in phase 0, image 15 in phase 1. -/
theorem iblk3 (c : Dev nD) (t : Fin cfg0.N) : iblk m c 3 t = xblk (xarr m c) (if t.val < 16 then t.val else 15) := by
  have h0 : win0_3.index t 0 = if t.val < 16 then t.val else 15 := by rw [idx3 t]; rfl
  have h1 : win0_3.index t 1 = 0 := by rw [idx3 t]; rfl
  have h2 : win0_3.index t 2 = 0 := by rw [idx3 t]; rfl
  have hn : (if t.val < 16 then t.val else 15) % 16 = if t.val < 16 then t.val else 15 := by
    split_ifs <;> omega
  funext y
  unfold iblk xblk
  rw [View.read_apply]
  show V m c main_v0 _ = V m c main_v0 _
  congr 1
  funext a
  apply Fin.ext
  match a with
  | ⟨0, _⟩ =>
    show win0_3.index t 0 * 1 + 1 * (y 0).val = (if t.val < 16 then t.val else 15) % 16
    have hy : (y 0).val < 1 := (y 0).isLt
    rw [h0, hn]; omega
  | ⟨1, _⟩ => show win0_3.index t 1 * 256 + 1 * (y 1).val = (y 1).val; rw [h1]; omega
  | ⟨2, _⟩ => show win0_3.index t 2 * 3136 + 1 * (y 2).val = (y 2).val; rw [h2]; omega

end Cert.KernelIdeal.Hand

end
-- ==== Proof.KTripleA.lean ====
/-
  The body at the grid's first point (phase 0, batch 0): the accumulators are reset, then image 0 is narrowed into row 0 of the resident copy and its Gram matrix and row sums are added to the fresh accumulators.
-/
import proofs.«147999_g2000502477920874_pallasbulk_293_3_alg».proof.Proof.KConds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable [Facts]

/-- The zero offsets of a rank-2 access, however spelt. -/
private theorem hz2 : (![0, 0] : Fin 2 → ℕ) = fun _ => 0 := by
  funext a; fin_cases a <;> rfl

/-- The zero offsets of a rank-3 access, however spelt. -/
private theorem hz3 : (![0, 0, 0] : Fin 3 → ℕ) = fun _ => 0 := by
  funext a; fin_cases a <;> rfl

/-- A store through the whole-shape rectangle, made last, leaves its payload whatever was stored before. -/
private theorem read_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-- A load through the whole-shape rectangle of a whole buffer reads its contents. -/
private theorem readAt_whole {sg : RefSig} {κ : Kind} {sp : Space} {S : Shape} {e : EltTy} (m : Memref sg κ sp S e)
    (hm : m.IsWhole) {off : Fin S.rank → ℕ} (h : off = fun _ => 0) (inb : ∀ a, off a + S.size a ≤ S.size a)
    (X : S.Idx → Elt F e) :
    m.view.readAt (Elt F) (Rect.unit off S.size inb).toLoadRect (hm.unread X) = X := by
  rw [View.readAt_eq_ld, hm.read_unread, View.ld_unit_zero h]

/-- The batch coordinate of a grid point, as a 32-bit word read back as a number, is itself (it is below 16). -/
private theorem k0_off1_eq (i : grid0.Coords) : k0_off1 i = ![(i 1).val, 0, 0] := by
  have h : (i 1).val < 16 := (i 1).isLt
  unfold k0_off1
  simp only [Scalar.indexCast]
  congr 1
  rw [BitVec.toNat_ofNat]
  exact Nat.mod_eq_of_lt (by omega)

/-- After ONE store of a [1, 256, 3136] block at batch row `n` of a [16, 256, 3136] buffer whose contents read `X`, the
    buffer reads `X` with row `n` replaced by the block. -/
private theorem read_rowset {sg : RefSig} {κ : Kind} {sp : Space} {e : EltTy} (v : View sg κ sp S16x256x3136 e)
    (f : v.ty.Contents (Elt F)) (X : S16x256x3136.Idx → Elt F e) (hX : v.read (Elt F) f = X)
    (off : Fin 3 → ℕ) (n : ℕ) (hoff : off = ![n, 0, 0]) (inb : ∀ a, off a + S1x256x3136.size a ≤ S16x256x3136.size a)
    (w : S1x256x3136.Idx → Elt F e) :
    v.read (Elt F) (v.writes (Elt F) f [⟨Rect.unit (s := S16x256x3136) off S1x256x3136.size inb, w⟩]) = rowset X n w := by
  subst hoff
  funext q
  unfold rowset
  by_cases h : (q 0).val = n
  · rw [if_pos h]
    have hmem : q ∈ (Rect.unit (s := S16x256x3136) ![n, 0, 0] S1x256x3136.size inb).set := by
      rw [Rect.mem_set_unit]
      intro a
      match a with
      | ⟨0, _⟩ =>
        show n ≤ (q 0).val ∧ (q 0).val < n + 1
        omega
      | ⟨1, _⟩ =>
        have := (q 1).isLt
        show 0 ≤ (q 1).val ∧ (q 1).val < 0 + 256
        exact ⟨Nat.zero_le _, by simpa using this⟩
      | ⟨2, _⟩ =>
        have := (q 2).isLt
        show 0 ≤ (q 2).val ∧ (q 2).val < 0 + 3136
        exact ⟨Nat.zero_le _, by simpa using this⟩
    obtain ⟨x, hx⟩ : ∃ x, (Rect.unit (s := S16x256x3136) ![n, 0, 0] S1x256x3136.size inb).emb x = q :=
      (Rect.unit (s := S16x256x3136) ![n, 0, 0] S1x256x3136.size inb).exists_idx_of_mem hmem
    have key := View.read_writes_cons_emb v f (Rect.unit (s := S16x256x3136) ![n, 0, 0] S1x256x3136.size inb) w [] x
    rw [hx] at key
    rw [key]
    congr 1
    funext d
    apply Fin.ext
    match d with
    | ⟨0, _⟩ =>
      have h1 : (x 0).val < 1 := (x 0).isLt
      show (x 0).val = 0
      omega
    | ⟨1, _⟩ =>
      have := congrArg (fun y : S16x256x3136.Idx => (y 1).val) hx
      simp only [Rect.emb_apply] at this
      show (x 1).val = (q 1).val
      have h0 : (Rect.unit (s := S16x256x3136) ![n, 0, 0] S1x256x3136.size inb).off 1 = 0 := rfl
      have h1 : (Rect.unit (s := S16x256x3136) ![n, 0, 0] S1x256x3136.size inb).stride 1 = 1 := rfl
      rw [h0, h1] at this
      omega
    | ⟨2, _⟩ =>
      have := congrArg (fun y : S16x256x3136.Idx => (y 2).val) hx
      simp only [Rect.emb_apply] at this
      show (x 2).val = (q 2).val
      have h0 : (Rect.unit (s := S16x256x3136) ![n, 0, 0] S1x256x3136.size inb).off 2 = 0 := rfl
      have h1 : (Rect.unit (s := S16x256x3136) ![n, 0, 0] S1x256x3136.size inb).stride 2 = 1 := rfl
      rw [h0, h1] at this
      omega
  · rw [if_neg h]
    have hnot : ∀ p ∈ ([⟨Rect.unit (s := S16x256x3136) ![n, 0, 0] S1x256x3136.size inb, w⟩] : List (View.Piece (Elt F) S16x256x3136 e)), q ∉ p.1.set := by
      intro p hp
      rw [List.mem_singleton] at hp
      subst hp
      intro hm
      have hm' : q ∈ (Rect.unit (s := S16x256x3136) ![n, 0, 0] S1x256x3136.size inb).set := hm
      have h0 := (Rect.mem_set_unit.mp hm') 0
      have h1 : (![n, 0, 0] : Fin 3 → ℕ) 0 = n := rfl
      have h2 : S1x256x3136.size 0 = 1 := rfl
      rw [h1, h2] at h0
      exact h (by omega)
    rw [View.read_writes_apply_of_forall_not_mem v f q _ hnot, hX]

/-- The body at the grid's first point (phase 0, batch 0): the accumulators are reset, then image 0 is narrowed into row 0 of the resident copy and its Gram matrix and row sums are added to the fresh accumulators. -/
theorem tripleA (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : cond0 i) (hc1 : cond1 i) (hc2 : ¬cond2 i) (hc3 : ¬cond3 i)
    (x0 : Vec F S256x256 .f32) (x1 : Vec F S256x1 .f32) (x2 : Vec F S256x1 .f32) (x3 : Vec F S1x256x3136 .f32) (xs7 : Vec F S16x256x3136 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (rowset xs7 (i 1).val (k0_pay5 x3)) ∗ owns (c : Thread nD τ) arg8 fullShare (k0_pay6 x3 k0_pay1) ∗ owns (c : Thread nD τ) arg9 fullShare (k0_pay7 x3 k0_pay2) ∗ (∃ d, owns (c : Thread nD τ) arg10 fullShare d) ∗ (∃ d, owns (c : Thread nD τ) arg11 fullShare d)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]; unfold cc0__fused_body_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2
  obtain rfl := harg3.eq_unread hf3
  obtain rfl := harg4.eq_unread hf4
  obtain rfl := harg5.eq_unread hf5
  obtain rfl := harg7.eq_unread hf7
  sl_exec (disch := first | exact hc0 | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _; isplitr; swap; · iexact H7
    ipureintro
    rw [readAt_whole arg5 harg5 hz3]
    exact read_rowset arg7.view (harg7.unread xs7) xs7 (harg7.read_unread xs7) (k0_off1 i) (i 1).val (k0_off1_eq i) _ (k0_pay5 x3)
  isplitl [H8]
  · iexists _; isplitr; swap; · iexact H8
    ipureintro
    sl_unfold_words
    rw [read_store_whole (S := S256x256) arg8.view f8 hz2 inb_S256x256_S256x256_0_0,
      readAt_whole arg5 harg5 hz3, View.readCov_unit_zero (S := S256x256) arg8.view hz2]
  isplitl [H9]
  · iexists _; isplitr; swap; · iexact H9
    ipureintro
    sl_unfold_words
    rw [read_store_whole (S := S256x1) arg9.view f9 hz2 inb_S256x1_S256x1_0_0,
      readAt_whole arg5 harg5 hz3, View.readCov_unit_zero (S := S256x1) arg9.view hz2]
  isplitl [H10]
  · iexists _, _; isplitr; swap; · iexact H10
    ipureintro; rfl
  iexists _, _; isplitr; swap; · iexact H11
  ipureintro; rfl

end Cert.KernelIdeal.Hand

end
-- ==== Proof.KTripleB.lean ====
/-
  The body at a middle point of phase 0 (batch 1 to 14): the image is narrowed into its row of the resident copy and its Gram matrix and row sums are added to the accumulators.
-/
import proofs.«147999_g2000502477920874_pallasbulk_293_3_alg».proof.Proof.KConds
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable [Facts]

/-- The all-zero offsets of a whole-buffer access of rank 2, -/
private theorem hz2 : (![0, 0] : Fin 2 → ℕ) = fun _ => 0 := funext fun a => by fin_cases a <;> rfl

/-- and of rank 3. -/
private theorem hz3 : (![0, 0, 0] : Fin 3 → ℕ) = fun _ => 0 := funext fun a => by fin_cases a <;> rfl

/-- The batch coordinate survives the round trip through a 32-bit word: it is below 16. So the stored row of the
    resident copy starts at `(batch, 0, 0)`. -/
private theorem off1_eq (i : grid0.Coords) : k0_off1 i = ![(i 1).val, 0, 0] := by
  have h16 : (i 1).val < 16 := (i 1).isLt
  have h : (Scalar.indexCast (BitVec.ofNat 32 (i 1).val)).toNat = (i 1).val := by
    show (BitVec.ofNat 32 (i 1).val).toNat = (i 1).val
    rw [BitVec.toNat_ofNat]; exact Nat.mod_eq_of_lt (by omega)
  unfold k0_off1
  simp only [h]

/-- A store through the whole buffer, made last, leaves its payload: every index lies under it. -/
private theorem read_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- One batch row stored into the resident copy: an index of that row reads the stored block at its row and pixel, any
    other index reads what was there before. -/
private theorem read_row (arg7 : Memref sig .tc .vmem S16x256x3136 .bf16) (harg7 : arg7.IsWhole) (i : grid0.Coords)
    (inb : ∀ a, (k0_off1 i) a + S1x256x3136.size a ≤ S16x256x3136.size a) (xs7 : Vec F S16x256x3136 .bf16)
    (blk : Vec F S1x256x3136 .bf16) :
    arg7.view.read (Elt F) (arg7.view.writes (Elt F) (harg7.unread xs7)
      [(⟨Rect.unit (k0_off1 i) S1x256x3136.size inb, blk⟩ : View.Piece (Elt F) S16x256x3136 .bf16)])
      = rowset xs7 (i 1).val blk := by
  funext q
  unfold rowset
  by_cases h : (q 0).val = (i 1).val
  · rw [if_pos h]
    refine View.read_writes_cons_unit_of_mem arg7.view _ inb blk [] q _ (off1_eq i) ?_
    intro a
    fin_cases a
    · show (q 0).val = (i 1).val + 0
      omega
    · show (q 1).val = 0 + (q 1).val
      omega
    · show (q 2).val = 0 + (q 2).val
      omega
  · rw [if_neg h]
    refine (View.read_writes_cons_unit_of_not_mem arg7.view _ inb blk [] q (off1_eq i) 0 ?_).trans ?_
    · show (q 0).val < (i 1).val ∨ (i 1).val + 1 ≤ (q 0).val
      omega
    · rw [View.writes_nil]
      exact congrFun (harg7.read_unread xs7) q

/-- The body at a middle point of phase 0 (batch 1 to 14): the image is narrowed into its row of the resident copy and its Gram matrix and row sums are added to the accumulators. -/
theorem tripleB (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : ¬cond0 i) (hc1 : cond1 i) (hc2 : ¬cond2 i) (hc3 : ¬cond3 i)
    (x0 : Vec F S256x256 .f32) (x1 : Vec F S256x1 .f32) (x2 : Vec F S256x1 .f32) (x3 : Vec F S1x256x3136 .f32) (xs7 : Vec F S16x256x3136 .bf16) (xs8 : Vec F S256x256 .f32) (xs9 : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ owns (c : Thread nD τ) arg9 fullShare xs9 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (rowset xs7 (i 1).val (k0_pay5 x3)) ∗ owns (c : Thread nD τ) arg8 fullShare (k0_pay6 x3 xs8) ∗ owns (c : Thread nD τ) arg9 fullShare (k0_pay7 x3 xs9) ∗ (∃ d, owns (c : Thread nD τ) arg10 fullShare d) ∗ (∃ d, owns (c : Thread nD τ) arg11 fullShare d)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, ⟨%d10, %f10, -, H10⟩, ⟨%d11, %f11, -, H11⟩, Hk⟩
  obtain rfl := harg2.eq_unread hf0; obtain rfl := harg3.eq_unread hf1; obtain rfl := harg4.eq_unread hf2
  obtain rfl := harg5.eq_unread hf3; obtain rfl := harg7.eq_unread hf7; obtain rfl := harg8.eq_unread hf8
  obtain rfl := harg9.eq_unread hf9
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _, _; isplitr; swap; · iexact H6
    ipureintro; rfl
  isplitl [H7]
  · iexists _; isplitr; swap; · iexact H7
    ipureintro
    simp only [View.readAt_eq_ld, harg5.read_unread, View.ld_unit_zero (S := S1x256x3136) hz3]
    exact read_row arg7 harg7 i _ xs7 (k0_pay5 x3)
  isplitl [H8]
  · iexists _; isplitr; swap; · iexact H8
    ipureintro
    sl_unfold_words
    refine (read_whole _ _ hz2 _ _ _).trans ?_
    simp only [View.readAt_eq_ld, harg5.read_unread, harg8.read_unread, View.ld_unit_zero (S := S1x256x3136) hz3,
      View.ld_unit_zero (S := S256x256) hz2]
  isplitl [H9]
  · iexists _; isplitr; swap; · iexact H9
    ipureintro
    sl_unfold_words
    refine (read_whole _ _ hz2 _ _ _).trans ?_
    simp only [View.readAt_eq_ld, harg5.read_unread, harg9.read_unread, View.ld_unit_zero (S := S1x256x3136) hz3,
      View.ld_unit_zero (S := S256x1) hz2]
  isplitl [H10]
  · iexists _, _; isplitr; swap; · iexact H10
    ipureintro; rfl
  · iexists _, _; isplitr; swap; · iexact H11
    ipureintro; rfl

end Cert.KernelIdeal.Hand

end
-- ==== Proof.KTripleC.lean ====
/-
  The body at the last point of phase 0 (batch 15): the image is narrowed and accumulated as at a middle point, then the folded weight and the additive term are derived from the completed statistics and stored.
-/
import proofs.«147999_g2000502477920874_pallasbulk_293_3_alg».proof.Proof.KConds
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable [Facts]

/-- The all-zero offsets of a whole-buffer access of rank 2, -/
private theorem hz2 : (![0, 0] : Fin 2 → ℕ) = fun _ => 0 := funext fun a => by fin_cases a <;> rfl

/-- and of rank 3. -/
private theorem hz3 : (![0, 0, 0] : Fin 3 → ℕ) = fun _ => 0 := funext fun a => by fin_cases a <;> rfl

/-- The batch coordinate survives the round trip through a 32-bit word: it is below 16. So the stored row of the
    resident copy starts at `(batch, 0, 0)`. -/
private theorem off1_eq (i : grid0.Coords) : k0_off1 i = ![(i 1).val, 0, 0] := by
  have h16 : (i 1).val < 16 := (i 1).isLt
  have h : (Scalar.indexCast (BitVec.ofNat 32 (i 1).val)).toNat = (i 1).val := by
    show (BitVec.ofNat 32 (i 1).val).toNat = (i 1).val
    rw [BitVec.toNat_ofNat]; exact Nat.mod_eq_of_lt (by omega)
  unfold k0_off1
  simp only [h]

/-- A store through the whole buffer, made last, leaves its payload: every index lies under it. -/
private theorem read_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- One batch row stored into the resident copy: an index of that row reads the stored block at its row and pixel, any
    other index reads what was there before. -/
private theorem read_row (arg7 : Memref sig .tc .vmem S16x256x3136 .bf16) (harg7 : arg7.IsWhole) (i : grid0.Coords)
    (inb : ∀ a, (k0_off1 i) a + S1x256x3136.size a ≤ S16x256x3136.size a) (xs7 : Vec F S16x256x3136 .bf16)
    (blk : Vec F S1x256x3136 .bf16) :
    arg7.view.read (Elt F) (arg7.view.writes (Elt F) (harg7.unread xs7)
      [(⟨Rect.unit (k0_off1 i) S1x256x3136.size inb, blk⟩ : View.Piece (Elt F) S16x256x3136 .bf16)])
      = rowset xs7 (i 1).val blk := by
  funext q
  unfold rowset
  by_cases h : (q 0).val = (i 1).val
  · rw [if_pos h]
    refine View.read_writes_cons_unit_of_mem arg7.view _ inb blk [] q _ (off1_eq i) ?_
    intro a
    fin_cases a
    · show (q 0).val = (i 1).val + 0
      omega
    · show (q 1).val = 0 + (q 1).val
      omega
    · show (q 2).val = 0 + (q 2).val
      omega
  · rw [if_neg h]
    refine (View.read_writes_cons_unit_of_not_mem arg7.view _ inb blk [] q (off1_eq i) 0 ?_).trans ?_
    · show (q 0).val < (i 1).val ∨ (i 1).val + 1 ≤ (q 0).val
      omega
    · rw [View.writes_nil]
      exact congrFun (harg7.read_unread xs7) q

/-- The body at the last point of phase 0 (batch 15): the image is narrowed and accumulated as at a middle point, then the folded weight and the additive term are derived from the completed statistics and stored. -/
theorem tripleC (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : ¬cond0 i) (hc1 : cond1 i) (hc2 : cond2 i) (hc3 : ¬cond3 i)
    (x0 : Vec F S256x256 .f32) (x1 : Vec F S256x1 .f32) (x2 : Vec F S256x1 .f32) (x3 : Vec F S1x256x3136 .f32) (xs7 : Vec F S16x256x3136 .bf16) (xs8 : Vec F S256x256 .f32) (xs9 : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ owns (c : Thread nD τ) arg9 fullShare xs9 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (rowset xs7 (i 1).val (k0_pay5 x3)) ∗ owns (c : Thread nD τ) arg8 fullShare (k0_pay6 x3 xs8) ∗ owns (c : Thread nD τ) arg9 fullShare (k0_pay7 x3 xs9) ∗ owns (c : Thread nD τ) arg10 fullShare (k0_pay12 x0 (k0_pay6 x3 xs8) (k0_pay7 x3 xs9) x1) ∗ owns (c : Thread nD τ) arg11 fullShare (k0_pay11 x0 (k0_pay6 x3 xs8) (k0_pay7 x3 xs9) x1 x2)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, ⟨%d10, %f10, -, H10⟩, ⟨%d11, %f11, -, H11⟩, Hk⟩
  obtain rfl := harg2.eq_unread hf0; obtain rfl := harg3.eq_unread hf1; obtain rfl := harg4.eq_unread hf2
  obtain rfl := harg5.eq_unread hf3; obtain rfl := harg7.eq_unread hf7; obtain rfl := harg8.eq_unread hf8
  obtain rfl := harg9.eq_unread hf9
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _, _; isplitr; swap; · iexact H6
    ipureintro; rfl
  isplitl [H7]
  · iexists _; isplitr; swap; · iexact H7
    ipureintro
    simp only [View.readAt_eq_ld, harg5.read_unread, View.ld_unit_zero (S := S1x256x3136) hz3]
    exact read_row arg7 harg7 i _ xs7 (k0_pay5 x3)
  isplitl [H8]
  · iexists _; isplitr; swap; · iexact H8
    ipureintro
    sl_unfold_words
    refine (read_whole _ _ hz2 _ _ _).trans ?_
    simp only [View.readAt_eq_ld, harg5.read_unread, harg8.read_unread, View.ld_unit_zero (S := S1x256x3136) hz3,
      View.ld_unit_zero (S := S256x256) hz2]
  isplitl [H9]
  · iexists _; isplitr; swap; · iexact H9
    ipureintro
    sl_unfold_words
    refine (read_whole _ _ hz2 _ _ _).trans ?_
    simp only [View.readAt_eq_ld, harg5.read_unread, harg9.read_unread, View.ld_unit_zero (S := S1x256x3136) hz3,
      View.ld_unit_zero (S := S256x1) hz2]
  isplitl [H10]
  · iexists _; isplitr; swap; · iexact H10
    ipureintro
    sl_unfold_words
    refine (read_whole _ _ hz2 _ _ _).trans ?_
    simp only [View.readAt_eq_ld, View.readCov_unit_zero (S := S256x256) _ hz2, View.readCov_unit_zero (S := S256x1) _ hz2,
      harg2.read_unread, harg3.read_unread, harg5.read_unread, harg8.read_unread, harg9.read_unread,
      View.ld_unit_zero (S := S1x256x3136) hz3, View.ld_unit_zero (S := S256x256) hz2, View.ld_unit_zero (S := S256x1) hz2]
  · iexists _; isplitr; swap; · iexact H11
    ipureintro
    sl_unfold_words
    refine (read_whole _ _ hz2 _ _ _).trans ?_
    simp only [View.readAt_eq_ld, View.readCov_unit_zero (S := S256x256) _ hz2, View.readCov_unit_zero (S := S256x1) _ hz2,
      harg2.read_unread, harg3.read_unread, harg4.read_unread, harg5.read_unread, harg8.read_unread, harg9.read_unread,
      View.ld_unit_zero (S := S1x256x3136) hz3, View.ld_unit_zero (S := S256x256) hz2, View.ld_unit_zero (S := S256x1) hz2]

end Cert.KernelIdeal.Hand

end
-- ==== Proof.KTripleD.lean ====
/-
  The body at a point of phase 1: the folded weight is multiplied with the point's row of the resident copy, the additive term is added, the result is clamped at zero and stored as the output block; every scratch buffer is left as found.
-/
import proofs.«147999_g2000502477920874_pallasbulk_293_3_alg».proof.Proof.KConds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable [Facts]

/-- Reading the resident copy through the one-row rectangle at batch offset `(i 1)` gives that batch row. -/
private theorem ld_row {e : EltTy} (X : S16x256x3136.Idx → Elt F e) (i : grid0.Coords)
    (inb : ∀ a, (k0_off2 i) a + S1x256x3136.size a ≤ S16x256x3136.size a) :
    View.ld X (Rect.unit (s := S16x256x3136) (k0_off2 i) S1x256x3136.size inb) = rowget X (i 1).val := by
  have hoff := k0_off2_eq i
  have e0 : k0_off2 i 0 = (i 1).val := by rw [hoff]; rfl
  have e1 : k0_off2 i 1 = 0 := by rw [hoff]; rfl
  have e2 : k0_off2 i 2 = 0 := by rw [hoff]; rfl
  have hlt : (i 1).val % 16 = (i 1).val := Nat.mod_eq_of_lt (i 1).isLt
  funext y
  show X _ = X _
  congr 1
  funext d
  apply Fin.ext
  have h0 : (y 0).val = 0 := Nat.lt_one_iff.mp (y 0).isLt
  fin_cases d
  · show (k0_off2 i) 0 + 1 * (y 0).val = (i 1).val % 16
    rw [e0, hlt, h0]; omega
  · show (k0_off2 i) 1 + 1 * (y 1).val = (y 1).val
    rw [e1]; omega
  · show (k0_off2 i) 2 + 1 * (y 2).val = (y 2).val
    rw [e2]; omega

private theorem zeros2 : (![0, 0] : Fin 2 → ℕ) = fun _ => 0 := by funext a; fin_cases a <;> rfl
private theorem zeros3 : (![0, 0, 0] : Fin 3 → ℕ) = fun _ => 0 := by funext a; fin_cases a <;> rfl

/-- One store through the whole-shape rectangle at zero offsets leaves its payload, whatever was there. -/
private theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

/-- The body at a point of phase 1: the folded weight is multiplied with the point's row of the resident copy, the additive term is added, the result is clamped at zero and stored as the output block; every scratch buffer is left as found. -/
theorem tripleD (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : ¬cond0 i) (hc1 : ¬cond1 i) (hc2 : ¬cond2 i) (hc3 : cond3 i)
    (x0 : Vec F S256x256 .f32) (x1 : Vec F S256x1 .f32) (x2 : Vec F S256x1 .f32) (x3 : Vec F S1x256x3136 .f32) (xs7 : Vec F S16x256x3136 .bf16) (xs10 : Vec F S256x256 .bf16) (xs11 : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ (∃ d, owns (c : Thread nD τ) arg8 fullShare d) ∗ (∃ d, owns (c : Thread nD τ) arg9 fullShare d) ∗ owns (c : Thread nD τ) arg10 fullShare xs10 ∗ owns (c : Thread nD τ) arg11 fullShare xs11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay8 xs10 (rowget xs7 (i 1).val) xs11) ∗ owns (c : Thread nD τ) arg7 fullShare xs7 ∗ (∃ d, owns (c : Thread nD τ) arg8 fullShare d) ∗ (∃ d, owns (c : Thread nD τ) arg9 fullShare d) ∗ owns (c : Thread nD τ) arg10 fullShare xs10 ∗ owns (c : Thread nD τ) arg11 fullShare xs11) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]
  unfold cc0__fused_body_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf2
  obtain rfl := harg3.eq_unread hf3
  obtain rfl := harg4.eq_unread hf4
  obtain rfl := harg5.eq_unread hf5
  obtain rfl := harg7.eq_unread hf7
  obtain rfl := harg10.eq_unread hf10
  obtain rfl := harg11.eq_unread hf11
  sl_exec (disch := first | exact hc0 | exact hc1 | exact hc2 | exact hc3)
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr; swap
    · iexact H6
    · ipureintro
      rw [read_writes_whole arg6.view f6 zeros3]
      simp only [View.readAt_eq_ld, harg10.read_unread, harg7.read_unread, harg11.read_unread,
        View.ld_unit_zero (S := S256x256) zeros2, View.ld_unit_zero (S := S256x1) zeros2]
      exact congrArg (fun z => k0_pay8 xs10 z xs11) (ld_row xs7 i _)
  isplitl [H7]
  · iexists _; isplitr
    · ipureintro; exact harg7.read_unread _
    · iexact H7
  isplitl [H8]
  · iexists _, _; isplitr; swap
    · iexact H8
    · ipureintro; rfl
  isplitl [H9]
  · iexists _, _; isplitr; swap
    · iexact H9
    · ipureintro; rfl
  isplitl [H10]
  · iexists _; isplitr
    · ipureintro; exact harg10.read_unread _
    · iexact H10
  · iexists _; isplitr
    · ipureintro; exact harg11.read_unread _
    · iexact H11

end Cert.KernelIdeal.Hand

end
-- ==== Proof.KBody.lean ====
/-
  The body obligation: at every grid point, from the invariant and every window's staging buffer at what it then
  holds, the kernel's body runs to the invariant at the next point with every staging buffer at what the proof data
  says it leaves. Four cases by the point: the first (accumulators reset), a middle point of phase 0, the last point of
  phase 0 (statistics folded), a point of phase 1 (an output block produced).
-/
import proofs.«147999_g2000502477920874_pallasbulk_293_3_alg».proof.Proof.KDat
import proofs.«147999_g2000502477920874_pallasbulk_293_3_alg».proof.Proof.KRows
import proofs.«147999_g2000502477920874_pallasbulk_293_3_alg».proof.Proof.KBlocks
import proofs.«147999_g2000502477920874_pallasbulk_293_3_alg».proof.Proof.KTripleA
import proofs.«147999_g2000502477920874_pallasbulk_293_3_alg».proof.Proof.KTripleB
import proofs.«147999_g2000502477920874_pallasbulk_293_3_alg».proof.Proof.KTripleC
import proofs.«147999_g2000502477920874_pallasbulk_293_3_alg».proof.Proof.KTripleD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The accumulators, step by step -/

theorem Gacc_first (x : Vec F S16x256x3136 .f32) (n : ℕ) (h : n = 0) : Gacc x n = k0_pay6 (xblk x n) k0_pay1 := by
  subst h; rfl
theorem Gacc_step (x : Vec F S16x256x3136 .f32) (n : ℕ) (h : n ≠ 0) : Gacc x n = k0_pay6 (xblk x n) (Gacc x (n - 1)) := by
  cases n with
  | zero => exact absurd rfl h
  | succ k => rfl
theorem sacc_first (x : Vec F S16x256x3136 .f32) (n : ℕ) (h : n = 0) : sacc x n = k0_pay7 (xblk x n) k0_pay2 := by
  subst h; rfl
theorem sacc_step (x : Vec F S16x256x3136 .f32) (n : ℕ) (h : n ≠ 0) : sacc x n = k0_pay7 (xblk x n) (sacc x (n - 1)) := by
  cases n with
  | zero => exact absurd rfl h
  | succ k => rfl

/-- The invariant before a point that is not the first. -/
theorem PhiK_pos (c : Dev nD) (n : ℕ) (h : n ≠ 0) : PhiK m c n = PhiK m c ((n - 1) + 1) := by
  cases n with
  | zero => exact absurd rfl h
  | succ k => rfl

/-! ## The staging memrefs the body is called with -/

abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x3136 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x3136 .f32 := win0_4.stage (cfg0.slots t 4)
abbrev hs4 (t : Fin cfg0.N) : (ms4 t).IsWhole := hstage0_4 ((cfg0.slots t 4).cast nbuf0_4)

/-! ## What each window's buffer is left at -/

theorem before0_4' (c : Dev nD) (t : Fin cfg0.N) (d) : (dats m 0 c).before 4 t d = d := before0_4 m c t.val t.isLt d

theorem leaves0 (c : Dev nD) (t : Fin cfg0.N) : (dats m 0 c).leavesExact 0 t = owns (c : Thread nD τ) (ms0 t) fullShare (warr m c) := by
  unfold Dat.leavesExact; rw [show cfg0.idle 0 (cfg0.grid.coords t) = false from rfl, after0_0, iblk0]
theorem leaves1 (c : Dev nD) (t : Fin cfg0.N) : (dats m 0 c).leavesExact 1 t = owns (c : Thread nD τ) (ms1 t) fullShare (garr m c) := by
  unfold Dat.leavesExact; rw [show cfg0.idle 1 (cfg0.grid.coords t) = false from rfl, after0_1, iblk1]
theorem leaves2 (c : Dev nD) (t : Fin cfg0.N) : (dats m 0 c).leavesExact 2 t = owns (c : Thread nD τ) (ms2 t) fullShare (barr m c) := by
  unfold Dat.leavesExact; rw [show cfg0.idle 2 (cfg0.grid.coords t) = false from rfl, after0_2, iblk2]
theorem leaves3 (c : Dev nD) (t : Fin cfg0.N) : (dats m 0 c).leavesExact 3 t = owns (c : Thread nD τ) (ms3 t) fullShare (xblk (xarr m c) (if t.val < 16 then t.val else 15)) := by
  unfold Dat.leavesExact; rw [show cfg0.idle 3 (cfg0.grid.coords t) = false from rfl, after0_3, iblk3]
/-- In phase 0 the output's buffer is handed back as found. -/
theorem leaves4_idle (c : Dev nD) (t : Fin cfg0.N) (h : t.val < 16) :
    (dats m 0 c).leavesExact 4 t = iprop(∃ d, owns (c : Thread nD τ) (ms4 t) fullShare d) := by
  rw [Dat.leavesExact_idle (dats m 0 c) 4 t ((idle4 t).trans (decide_eq_true h)) ((flush4 t).trans (decide_eq_false (by omega)))]
  simp only [before0_4']
  rfl
/-- In phase 1 it is left at the point's output block. -/
theorem leaves4_live (c : Dev nD) (t : Fin cfg0.N) (h : 16 ≤ t.val) :
    (dats m 0 c).leavesExact 4 t = owns (c : Thread nD τ) (ms4 t) fullShare (oblkW m c (t.val - 16)) := by
  unfold Dat.leavesExact; rw [(idle4 t).trans (decide_eq_false (by omega)), after0_4]

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4', iblk0, iblk1, iblk2, iblk3]
  rw [show (dats m 0 c).owesAt () t.succ = (dats m 0 c).owesAt () t.castSucc from rfl]
  rw [Phi_castSucc, Phi_succ, PhiK_succ, leaves0, leaves1, leaves2, leaves3]
  have hN : t.val < 32 := lt_of_lt_of_eq t.isLt (show cfg0.N = 32 from N_0)
  have hco : (grid0.coords t 1).val = t.val % 16 := coord1 t
  by_cases h16 : t.val < 16
  · rw [leaves4_idle m c t h16, if_pos h16]
    have hc1 : cond1 (grid0.coords t) := (hcond1 t).mpr h16
    have hc3 : ¬cond3 (grid0.coords t) := fun h => absurd ((hcond3 t).mp h) (by omega)
    have hco' : (grid0.coords t 1).val = t.val := by rw [hco]; exact Nat.mod_eq_of_lt h16
    by_cases h0 : t.val = 0
    · -- the first point
      have hc0 : cond0 (grid0.coords t) := (hcond0 t).mpr h0
      have hc2 : ¬cond2 (grid0.coords t) := fun h => absurd ((hcond2 t).mp h) (by omega)
      rw [show PhiK m c t.val = Pipeline.ΦA spec0 c from by rw [h0, PhiK_zero], PhiA0_eq]
      rw [if_pos (show t.val < 15 by omega), if_pos (show t.val < 15 by omega), if_neg (show ¬15 ≤ t.val by omega), if_neg (show ¬15 ≤ t.val by omega)]
      rw [Gacc_first _ _ h0, sacc_first _ _ h0]
      iintro ⟨⟨⟨⟨%x7, HS0⟩, HS1, HS2, HS3, HS4⟩, Hg⟩, Ho, ⟨%d0, H0⟩, ⟨%d1, H1⟩, ⟨%d2, H2⟩, ⟨%d3, H3⟩, ⟨%d4, H4⟩⟩
      iapply (tripleA c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) t.val) x7 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitl [HS0]
        · iexists (rowset x7 (grid0.coords t 1).val (k0_pay5 (xblk (xarr m c) t.val))); isplitr
          · ipureintro
            intro b hb hb16
            have hbt : b = t.val := by omega
            subst hbt; rw [hco']; exact rowget_rowset_self x7 _ hb16 _
          iexact HS0
        isplitl [HS1]; · iexact HS1
        isplitl [HS2]; · iexact HS2
        isplitl [HS3]; · iexact HS3
        isplitl [HS4]; · iexact HS4
        iexact Hg
      isplitl [Ho]; · iexact Ho
      isplitl [H0]; · iexact H0
      isplitl [H1]; · iexact H1
      isplitl [H2]; · iexact H2
      isplitl [H3]; · iexact H3
      iexact H4
    · have hc0 : ¬cond0 (grid0.coords t) := fun h => h0 ((hcond0 t).mp h)
      rw [PhiK_pos m c t.val h0, PhiK_succ]
      rw [if_pos (show t.val - 1 < 15 by omega), if_pos (show t.val - 1 < 15 by omega), if_neg (show ¬15 ≤ t.val - 1 by omega), if_neg (show ¬15 ≤ t.val - 1 by omega)]
      by_cases h15 : t.val = 15
      · -- the last point of phase 0
        have hc2 : cond2 (grid0.coords t) := (hcond2 t).mpr h15
        rw [if_neg (show ¬t.val < 15 by omega), if_neg (show ¬t.val < 15 by omega), if_pos (show 15 ≤ t.val by omega), if_pos (show 15 ≤ t.val by omega)]
        have e8 : k0_pay6 (xblk (xarr m c) t.val) (Gacc (xarr m c) (t.val - 1)) = Gacc (xarr m c) 15 := by
          rw [← Gacc_step _ _ h0, h15]
        have e9 : k0_pay7 (xblk (xarr m c) t.val) (sacc (xarr m c) (t.val - 1)) = sacc (xarr m c) 15 := by
          rw [← sacc_step _ _ h0, h15]
        iintro ⟨⟨⟨%x7, %hx7, HS0⟩, HS1, HS2, HS3, HS4, Hg⟩, Ho, ⟨%d0, H0⟩, ⟨%d1, H1⟩, ⟨%d2, H2⟩, ⟨%d3, H3⟩, ⟨%d4, H4⟩⟩
        iapply (tripleC c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) t.val) x7 (Gacc (xarr m c) (t.val - 1)) (sacc (xarr m c) (t.val - 1)) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        rw [e8, e9]
        isplitl [HS0 HS1 HS2 HS3 HS4 Hg]
        · isplitl [HS0]
          · iexists (rowset x7 (grid0.coords t 1).val (k0_pay5 (xblk (xarr m c) t.val))); isplitr
            · ipureintro
              intro b hb hb16
              by_cases hbt : b = t.val
              · subst hbt; rw [hco']; exact rowget_rowset_self x7 _ hb16 _
              · rw [hco', rowget_rowset_other x7 t.val b hb16 hbt]; exact hx7 b (by omega) hb16
            iexact HS0
          isplitl [HS1]; · iexists _; iexact HS1
          isplitl [HS2]; · iexists _; iexact HS2
          isplitl [HS3]; · iexact HS3
          isplitl [HS4]; · iexact HS4
          iexact Hg
        isplitl [Ho]; · iexact Ho
        isplitl [H0]; · iexact H0
        isplitl [H1]; · iexact H1
        isplitl [H2]; · iexact H2
        isplitl [H3]; · iexact H3
        iexact H4
      · -- a middle point of phase 0
        have hc2 : ¬cond2 (grid0.coords t) := fun h => h15 ((hcond2 t).mp h)
        rw [if_pos (show t.val < 15 by omega), if_pos (show t.val < 15 by omega), if_neg (show ¬15 ≤ t.val by omega), if_neg (show ¬15 ≤ t.val by omega)]
        rw [Gacc_step _ t.val h0, sacc_step _ t.val h0]
        iintro ⟨⟨⟨%x7, %hx7, HS0⟩, HS1, HS2, HS3, HS4, Hg⟩, Ho, ⟨%d0, H0⟩, ⟨%d1, H1⟩, ⟨%d2, H2⟩, ⟨%d3, H3⟩, ⟨%d4, H4⟩⟩
        iapply (tripleB c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) t.val) x7 (Gacc (xarr m c) (t.val - 1)) (sacc (xarr m c) (t.val - 1)) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        isplitl [HS0 HS1 HS2 HS3 HS4 Hg]
        · isplitl [HS0]
          · iexists (rowset x7 (grid0.coords t 1).val (k0_pay5 (xblk (xarr m c) t.val))); isplitr
            · ipureintro
              intro b hb hb16
              by_cases hbt : b = t.val
              · subst hbt; rw [hco']; exact rowget_rowset_self x7 _ hb16 _
              · rw [hco', rowget_rowset_other x7 t.val b hb16 hbt]; exact hx7 b (by omega) hb16
            iexact HS0
          isplitl [HS1]; · iexact HS1
          isplitl [HS2]; · iexact HS2
          isplitl [HS3]; · iexact HS3
          isplitl [HS4]; · iexact HS4
          iexact Hg
        isplitl [Ho]; · iexact Ho
        isplitl [H0]; · iexact H0
        isplitl [H1]; · iexact H1
        isplitl [H2]; · iexact H2
        isplitl [H3]; · iexact H3
        iexact H4
  · -- a point of phase 1
    have h16' : 16 ≤ t.val := by omega
    have h0 : t.val ≠ 0 := by omega
    rw [leaves4_live m c t h16', if_neg h16]
    have hc0 : ¬cond0 (grid0.coords t) := fun h => h0 ((hcond0 t).mp h)
    have hc1 : ¬cond1 (grid0.coords t) := fun h => h16 ((hcond1 t).mp h)
    have hc2 : ¬cond2 (grid0.coords t) := fun h => absurd ((hcond2 t).mp h) (by omega)
    have hc3 : cond3 (grid0.coords t) := (hcond3 t).mpr h16'
    have hco' : (grid0.coords t 1).val = t.val - 16 := by rw [hco]; omega
    rw [PhiK_pos m c t.val h0, PhiK_succ]
    rw [if_neg (show ¬t.val - 1 < 15 by omega), if_neg (show ¬t.val - 1 < 15 by omega), if_pos (show 15 ≤ t.val - 1 by omega), if_pos (show 15 ≤ t.val - 1 by omega)]
    rw [if_neg (show ¬t.val < 15 by omega), if_neg (show ¬t.val < 15 by omega), if_pos (show 15 ≤ t.val by omega), if_pos (show 15 ≤ t.val by omega)]
    iintro ⟨⟨⟨%x7, %hx7, HS0⟩, HS1, HS2, HS3, HS4, Hg⟩, Ho, ⟨%d0, H0⟩, ⟨%d1, H1⟩, ⟨%d2, H2⟩, ⟨%d3, H3⟩, ⟨%d4, H4⟩⟩
    iapply (tripleD c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) 15) x7 (wfV (xarr m c) (warr m c) (garr m c)) (shiftV (xarr m c) (warr m c) (garr m c) (barr m c)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    have e4 : k0_pay8 (wfV (xarr m c) (warr m c) (garr m c)) (rowget x7 (grid0.coords t 1).val) (shiftV (xarr m c) (warr m c) (garr m c) (barr m c))
        = oblk (xarr m c) (warr m c) (garr m c) (barr m c) (t.val - 16) := by
      rw [hco', hx7 (t.val - 16) (by omega) (by omega)]; rfl
    isplitl [HS0 HS1 HS2 HS3 HS4 Hg]
    · isplitl [HS0]
      · iexists x7; isplitr
        · ipureintro
          intro b hb hb16
          exact hx7 b (by omega) hb16
        iexact HS0
      isplitl [HS1]; · iexact HS1
      isplitl [HS2]; · iexact HS2
      isplitl [HS3]; · iexact HS3
      isplitl [HS4]; · iexact HS4
      iexact Hg
    isplitl [Ho]; · iexact Ho
    isplitl [H0]; · iexact H0
    isplitl [H1]; · iexact H1
    isplitl [H2]; · iexact H2
    isplitl [H3]; · iexact H3
    rw [e4]; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KFinal.lean ====
/-
  The output array after the run: every phase-1 point writes its output block back over batch row (t - 16), these
  sixteen blocks tile the array, so the array ends as the array of output blocks.
-/
import proofs.«147999_g2000502477920874_pallasbulk_293_3_alg».proof.Proof.KDat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- An entry of the array of output blocks is the matching entry of the block its batch row names. -/
theorem outArr_emb (x3 : Vec F S16x256x3136 .f32) (w : Vec F S256x256 .f32) (g2 b2 : Vec F S256x1 .f32)
    (b : ℕ) (q : S16x256x3136.Idx) (y : S1x256x3136.Idx)
    (h0 : (q 0).val = b) (h1 : (q 1).val = (y 1).val) (h2 : (q 2).val = (y 2).val) :
    outArr x3 w g2 b2 q = oblk x3 w g2 b2 b y := by
  unfold outArr
  rw [h0]
  congr 1
  funext d
  match d with
  | ⟨0, _⟩ => exact Fin.ext (by have h : (y 0).val < 1 := (y 0).isLt; show 0 = (y 0).val; omega)
  | ⟨1, _⟩ => exact Fin.ext h1
  | ⟨2, _⟩ => exact Fin.ext h2

variable (m : (ℓ : Loc nD τ sig) → Buf (Elt F) ℓ)

/-- The array of output blocks, at the output window's array type. -/
abbrev outArrW (c : Dev nD) : Buf (Elt F) ((cfg0.win 4).arr.view.loc (c.tc : Thread nD τ)) :=
  outArr (xarr m c) (warr m c) (garr m c) (barr m c)

/-- What a write-back writes is its block of the array of output blocks. -/
theorem flushed_eq (c : Dev nD) (t : Fin cfg0.N) (hf : (cfg0.win 4).flush t = true) :
    (dats m 0 c).flushed 4 t = ((cfg0.win 4).blk t).view.read (Elt F) (outArrW m c) := by
  have h16 : 16 ≤ t.val := by rw [flush4] at hf; exact of_decide_eq_true hf
  have i0 : win0_4.index t 0 = t.val - 16 := by rw [idx4]; rfl
  have i1 : win0_4.index t 1 = 0 := by rw [idx4]; rfl
  have i2 : win0_4.index t 2 = 0 := by rw [idx4]; rfl
  show (cfg0.win 4).cut (grid0.coords t) ((dats m 0 c).after 4 t) = _
  rw [after0_4]
  funext y
  rw [View.read_apply]
  refine (outArr_emb (xarr m c) (warr m c) (garr m c) (barr m c) (t.val - 16)
    (((cfg0.win 4).blk t).view.emb y) ((cfg0.win 4).xinj (grid0.coords t) y) ?_ ?_ ?_).symm
  · show win0_4.index t 0 * 1 + 1 * (y 0).val = t.val - 16
    have h : (y 0).val < 1 := (y 0).isLt
    rw [i0]; omega
  · show win0_4.index t 1 * 256 + 1 * (y 1).val = (y 1).val
    rw [i1]; omega
  · show win0_4.index t 2 * 3136 + 1 * (y 2).val = (y 2).val
    rw [i2]; omega

/-- The output array ends as the array of output blocks. -/
theorem final (c : Dev nD) : (dats m 0 c).arrAt 4 cfg0.N = outArrW m c := by
  refine (dats m 0 c).arrAt_eq_of_cover 4 (outArrW m c) (flushed_eq m c) fun i => ?_
  have hN : cfg0.N = 32 := N_0
  have h0 : (i 0 : Nat) < 16 := (i 0).isLt
  have h1 : (i 1 : Nat) < 256 := (i 1).isLt
  have h2 : (i 2 : Nat) < 3136 := (i 2).isLt
  let t : Fin cfg0.N := ⟨16 + (i 0 : Nat), by rw [hN]; omega⟩
  have ht : t.val = 16 + (i 0 : Nat) := rfl
  have i0 : win0_4.index t 0 = t.val - 16 := by rw [idx4]; rfl
  have i1 : win0_4.index t 1 = 0 := by rw [idx4]; rfl
  have i2 : win0_4.index t 2 = 0 := by rw [idx4]; rfl
  refine ⟨t, by rw [flush4]; exact decide_eq_true (by omega), ?_⟩
  show i ∈ ((View.whole main_v3).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [i0]; omega
  | ⟨1, _⟩ =>
    show win0_4.index t 1 * 256 ≤ (i 1 : Nat) ∧ (i 1 : Nat) < win0_4.index t 1 * 256 + 256
    rw [i1]; omega
  | ⟨2, _⟩ =>
    show win0_4.index t 2 * 3136 ≤ (i 2 : Nat) ∧ (i 2 : Nat) < win0_4.index t 2 * 3136 + 3136
    rw [i2]; omega

end Cert.KernelIdeal.Hand

end
-- ==== Proof.KHost.lean ====
/-
  The host lines around the region: three reshapes before it (the activations flattened to [16, 256, 3136], the
  scale and the offset made columns) and one after it (the output array reshaped to [16, 256, 56, 56]).
-/
import proofs.«147999_g2000502477920874_pallasbulk_293_3_alg».proof.Proof.KDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The region finds the activations flattened. -/
theorem xarr_eq (c : Dev nD) : xarr m c = shapeCast S16x256x3136 (m ((c.tc : Thread nD τ).loc main_arg0)) Facts₀.shapeCasts_S16x256x56x56_S16x256x3136 := by
  show StableHlo.after (List.flatten [hostOps0]) (fun b => m (c, b)) (Proc.devRef .tc main_v0) = _
  simp only [hostOps0, List.flatten_cons, List.flatten_nil, List.append_nil]
  after_results
  rfl
/-- The region finds the weight as launched. -/
theorem warr_eq (c : Dev nD) : warr m c = m ((c.tc : Thread nD τ).loc main_arg1) := V_main_arg1 m c
/-- The region finds the scale as a column. -/
theorem garr_eq (c : Dev nD) : garr m c = shapeCast S256x1 (m ((c.tc : Thread nD τ).loc main_arg2)) Facts₀.shapeCasts_S256_S256x1 := by
  show StableHlo.after (List.flatten [hostOps0]) (fun b => m (c, b)) (Proc.devRef .tc main_v1) = _
  simp only [hostOps0, List.flatten_cons, List.flatten_nil, List.append_nil]
  after_results
  rfl
/-- The region finds the offset as a column. -/
theorem barr_eq (c : Dev nD) : barr m c = shapeCast S256x1 (m ((c.tc : Thread nD τ).loc main_arg3)) Facts₀.shapeCasts_S256_S256x1 := by
  show StableHlo.after (List.flatten [hostOps0]) (fun b => m (c, b)) (Proc.devRef .tc main_v2) = _
  simp only [hostOps0, List.flatten_cons, List.flatten_nil, List.append_nil]
  after_results
  rfl

/-- The result after the line that follows the region: the output array reshaped. -/
theorem tail_v4 (c : Dev nD) :
    Pipeline.afterTail₀ cfgs (dats m) 0 (V0 m) [hostOps1] c main_v4
      = shapeCast S16x256x56x56 ((dats m 0 c).arrAt 4 cfg0.N) Facts₀.shapeCasts_S16x256x3136_S16x256x56x56 := by
  unfold Pipeline.afterTail₀
  show StableHlo.after hostOps1 _ (Proc.devRef .tc main_v4) = _
  after_results
  exact congrArg (fun X => shapeCast S16x256x56x56 X Facts₀.shapeCasts_S16x256x3136_S16x256x56x56)
    (Pipeline.withArrays_arr spec0 launch0.win.arr_inj c _ _ 4)

end Cert.KernelIdeal.Hand

end
-- ==== Proof.KRun.lean ====
/-
  The fused kernel's whole run, named: at any float instance, @main terminates, its result array is the
  array of output blocks (each the folded weight times the narrowed image plus the additive term, clamped at zero)
  reshaped to [16, 256, 56, 56], and the four argument arrays end as launched.
-/
import proofs.«147999_g2000502477920874_pallasbulk_293_3_alg».proof.Proof.KBody
import proofs.«147999_g2000502477920874_pallasbulk_293_3_alg».proof.Proof.KFinal
import proofs.«147999_g2000502477920874_pallasbulk_293_3_alg».proof.Proof.KHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiK m c 0 from rfl, PhiK_zero]

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiK m c cfg0.N from rfl, show cfg0.N = 31 + 1 from N_0, PhiK_succ, PhiA0_eq]
  rw [if_neg (show ¬31 < 15 by decide), if_neg (show ¬31 < 15 by decide), if_pos (show 15 ≤ 31 by decide), if_pos (show 15 ≤ 31 by decide)]
  iintro ⟨⟨%x7, %hx7, HS0⟩, HS1, HS2, HS3, HS4, Hg⟩
  isplitl [HS0 HS1 HS2 HS3 HS4]
  · isplitl [HS0]; · iexists _; iexact HS0
    isplitl [HS1]; · iexact HS1
    isplitl [HS2]; · iexact HS2
    isplitl [HS3]; · iexists _; iexact HS3
    iexists _; iexact HS4
  iexact Hg

/-! ## The run -/

set_option backward.isDefEq.respectTransparency.types false in
/-- Every weakly fair execution of @main terminates, and every final state has every array of the pipeline at what the
    proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The array of output blocks over the arguments as launched. -/
theorem outArr_launched (c : Dev nD) :
    outArrW m c = outArr (shapeCast S16x256x3136 (m ((c.tc : Thread nD τ).loc main_arg0)) Facts₀.shapeCasts_S16x256x56x56_S16x256x3136) (m ((c.tc : Thread nD τ).loc main_arg1)) (shapeCast S256x1 (m ((c.tc : Thread nD τ).loc main_arg2)) Facts₀.shapeCasts_S256_S256x1) (shapeCast S256x1 (m ((c.tc : Thread nD τ).loc main_arg3)) Facts₀.shapeCasts_S256_S256x1) := by
  show outArr (xarr m c) (warr m c) (garr m c) (barr m c) = _
  rw [xarr_eq, warr_eq, garr_eq, barr_eq]

/-- The run with its result named and its arguments unchanged, at the program's own side conditions. -/
theorem run_named_at (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = shapeCast S16x256x56x56 (outArr (shapeCast S16x256x3136 (m ((c.tc : Thread nD τ).loc main_arg0)) Facts₀.shapeCasts_S16x256x56x56_S16x256x3136) (m ((c.tc : Thread nD τ).loc main_arg1)) (shapeCast S256x1 (m ((c.tc : Thread nD τ).loc main_arg2)) Facts₀.shapeCasts_S256_S256x1) (shapeCast S256x1 (m ((c.tc : Thread nD τ).loc main_arg3)) Facts₀.shapeCasts_S256_S256x1)) Facts₀.shapeCasts_S16x256x3136_S16x256x56x56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans
        ((tail_v4 m c).trans (by rw [final m c, outArr_launched m c])),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

/-- The run of @main with its result named and its arguments unchanged. -/
theorem run_named [Facts] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = shapeCast S16x256x56x56 (outArr (shapeCast S16x256x3136 (m ((c.tc : Thread nD τ).loc main_arg0)) Facts₀.shapeCasts_S16x256x56x56_S16x256x3136) (m ((c.tc : Thread nD τ).loc main_arg1)) (shapeCast S256x1 (m ((c.tc : Thread nD τ).loc main_arg2)) Facts₀.shapeCasts_S256_S256x1) (shapeCast S256x1 (m ((c.tc : Thread nD τ).loc main_arg3)) Facts₀.shapeCasts_S256_S256x1)) Facts₀.shapeCasts_S16x256x3136_S16x256x56x56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_named_at m ρ

end Cert.KernelIdeal.Hand

end
-- ==== Proof.KValueLayout.lean ====
/-
  Layout operations met by the fused kernel's arithmetic, read at an index given by coordinates: a vector viewed as a
  column and back, a column spread along the lanes, the first column cut out of a matrix, a matrix's lane sum, and the
  operand indices of the two kinds of matrix product (rows by rows, rows by columns).
-/
import Idealize.ShloMosaic.PureOps.Ideal.Laws
import Idealize.ShloMosaic.Lib.Pipeline.Value
import Idealize.ShloMosaic.Lib.ValueLayout

namespace Cert.KernelIdeal.Hand

open Idealize.ShloMosaic Idealize.ShloMosaic.ValueIdx
open scoped BigOperators

section Layout
variable {α : Type}

/-- An `[a]` vector viewed as the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread along `b` lanes reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- The first column cut out of an `[a, b]` matrix reads, at `(i, u)`, the matrix at `(i, 0)`. -/
theorem slice_ab_a1_apply {a b : ℕ} (X : (⟨2, ![a, b]⟩ : Shape).Idx → α)
    (h : (⟨2, ![a, b]⟩ : Shape).Slices ![0, 0] ⟨2, ![a, 1]⟩) (i : Fin a) (u : Fin 1) (z : Fin b) (hz : z.val = 0) :
    extractStridedSlice ⟨2, ![a, 1]⟩ ![0, 0] X h (ix2 i u) = X (ix2 i z) :=
  slice2_axis1_apply 0 X h i u z (by omega)

end Layout

/-- A matrix's sum along its lanes reads, at `i`, the sum over the lane coordinate of row `i`. -/
theorem rowsum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext c
  match c with
  | ⟨0, _⟩ => rfl
  | ⟨1, _⟩ => rfl

end Cert.KernelIdeal.Hand
-- ==== Proof.KValuePay.lean ====
/-
  The fused kernel's payload terms read at an index, at the ideal instance: each is a few vector operations, and at
  explicit coordinates it is the extended-real expression the specification writes — a matrix product into a zero
  accumulator is the sum over the contracted coordinate of the operands' products, a lane reduction the sum over the
  lane coordinate, a change of format the identity, and the elementwise operations the extended reals' own.
-/
import proofs.«147999_g2000502477920874_pallasbulk_293_3_alg».proof.Proof.KDefs
import proofs.«147999_g2000502477920874_pallasbulk_293_3_alg».proof.Proof.KValueLayout

noncomputable section

namespace Cert.KernelIdeal.Hand

open Idealize.ShloMosaic Idealize.ShloMosaic.ValueIdx Cert.KernelIdeal Cert.KernelIdeal.Gen
open scoped BigOperators

variable [Facts]

/-! ## The operand indices of the three matrix products

For each product and each operand axis, the coordinate the operand is read at, as a natural number: a free axis reads
the result index's coordinate, the contracted axis reads the contraction index's one coordinate. -/

/-- Rows by rows (`A Bᵀ`), left operand, axis 0: the result's row. -/
theorem lhs_rr_0 (i : S256x256.Idx) (q : dot_S256x3136_S256x3136_S256x256_1_1_0_0_n_n.contr.Idx) :
    (dot_S256x3136_S256x3136_S256x256_1_1_0_0_n_n.lhsIdx i q 0).val = (i 0).val := by
  unfold DotDims.lhsIdx
  rw [dif_neg (show ¬(0 : Fin S256x3136.rank) ∈ dot_S256x3136_S256x3136_S256x256_1_1_0_0_n_n.lhsBatch by decide),
    dif_pos (show (0 : Fin S256x3136.rank) ∈ dot_S256x3136_S256x3136_S256x256_1_1_0_0_n_n.lhsNonContracting by decide)]
  rfl
/-- Rows by rows, left operand, axis 1: the contracted coordinate. -/
theorem lhs_rr_1 (i : S256x256.Idx) (q : dot_S256x3136_S256x3136_S256x256_1_1_0_0_n_n.contr.Idx) :
    (dot_S256x3136_S256x3136_S256x256_1_1_0_0_n_n.lhsIdx i q 1).val = (q ⟨0, by decide⟩).val :=
  dot_S256x3136_S256x3136_S256x256_1_1_0_0_n_n.lhsIdx_val_of_single rfl i q
/-- Rows by rows, right operand, axis 0: the result's column. -/
theorem rhs_rr_0 (i : S256x256.Idx) (q : dot_S256x3136_S256x3136_S256x256_1_1_0_0_n_n.contr.Idx) :
    (dot_S256x3136_S256x3136_S256x256_1_1_0_0_n_n.rhsIdx i q 0).val = (i 1).val := by
  unfold DotDims.rhsIdx
  rw [dif_neg (show ¬(0 : Fin S256x3136.rank) ∈ dot_S256x3136_S256x3136_S256x256_1_1_0_0_n_n.rhsBatch by decide),
    dif_pos (show (0 : Fin S256x3136.rank) ∈ dot_S256x3136_S256x3136_S256x256_1_1_0_0_n_n.rhsNonContracting by decide)]
  rfl
/-- Rows by rows, right operand, axis 1: the contracted coordinate. -/
theorem rhs_rr_1 (i : S256x256.Idx) (q : dot_S256x3136_S256x3136_S256x256_1_1_0_0_n_n.contr.Idx) :
    (dot_S256x3136_S256x3136_S256x256_1_1_0_0_n_n.rhsIdx i q 1).val = (q ⟨0, by decide⟩).val :=
  dot_S256x3136_S256x3136_S256x256_1_1_0_0_n_n.rhsIdx_val_of_single rfl i q

/-- The product of a `[256, 3136]` matrix with the transpose of another, into a zero accumulator, at `(i, k)`: the sum
    over the lanes of row `i` of the first times row `k` of the second. -/
theorem matmul_rr_apply {φ₁ φ₂ : FTy} (A : FVec Ideal S256x3136 φ₁) (B : FVec Ideal S256x3136 φ₂) (i k : Fin 256) :
    matmul dot_S256x3136_S256x3136_S256x256_1_1_0_0_n_n none A B (constant (F := Ideal) S256x256 .f32 0x00000000#32) (ix2 i k)
      = ∑ j : Fin 3136, A (ix2 i j) * B (ix2 k j) := by
  simp only [matmul]
  rw [Ideal.matmul_constant_zero_apply,
    ← Equiv.sum_comp (contrEquiv1 dot_S256x3136_S256x3136_S256x256_1_1_0_0_n_n 3136 rfl rfl).symm]
  refine Finset.sum_congr rfl fun j _ => ?_
  have hk := contrEquiv1_symm_val dot_S256x3136_S256x3136_S256x256_1_1_0_0_n_n 3136 rfl rfl j
  have el : dot_S256x3136_S256x3136_S256x256_1_1_0_0_n_n.lhsIdx (ix2 i k)
      ((contrEquiv1 dot_S256x3136_S256x3136_S256x256_1_1_0_0_n_n 3136 rfl rfl).symm j) = ix2 i j :=
    funext fun a => Fin.ext (by
      match a with
      | ⟨0, _⟩ => exact lhs_rr_0 _ _
      | ⟨1, _⟩ => exact (lhs_rr_1 _ _).trans hk)
  have er : dot_S256x3136_S256x3136_S256x256_1_1_0_0_n_n.rhsIdx (ix2 i k)
      ((contrEquiv1 dot_S256x3136_S256x3136_S256x256_1_1_0_0_n_n 3136 rfl rfl).symm j) = ix2 k j :=
    funext fun a => Fin.ext (by
      match a with
      | ⟨0, _⟩ => exact rhs_rr_0 _ _
      | ⟨1, _⟩ => exact (rhs_rr_1 _ _).trans hk)
  rw [el, er]

/-- Square by square (`A B`), left operand, axis 0: the result's row. -/
theorem lhs_ww_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl
/-- Square by square (`A B`), left operand, axis 1: the contracted coordinate. -/
theorem lhs_ww_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
/-- Square by square (`A B`), right operand, axis 0: the contracted coordinate. -/
theorem rhs_ww_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
/-- Square by square (`A B`), right operand, axis 1: the result's column. -/
theorem rhs_ww_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- The product of two `[256, 256]` matrices, into a zero accumulator, at `(i, c)`: the sum over `k` of row `i` of the first
    times column `c` of the second. -/
theorem matmul_ww_apply {φ₁ φ₂ : FTy} (A : FVec Ideal S256x256 φ₁) (B : FVec Ideal S256x256 φ₂) (i : Fin 256) (c : Fin 256) :
    matmul dot_S256x256_S256x256_S256x256_1_0_0_1_n_n none A B (constant (F := Ideal) S256x256 .f32 0x00000000#32) (ix2 i c)
      = ∑ k : Fin 256, A (ix2 i k) * B (ix2 k c) := by
  simp only [matmul]
  rw [Ideal.matmul_constant_zero_apply,
    ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 i c)
      ((contrEquiv1 dot_S256x256_S256x256_S256x256_1_0_0_1_n_n 256 rfl rfl).symm k) = ix2 i k :=
    funext fun a => Fin.ext (by
      match a with
      | ⟨0, _⟩ => exact lhs_ww_0 _ _
      | ⟨1, _⟩ => exact (lhs_ww_1 _ _).trans hk)
  have er : dot_S256x256_S256x256_S256x256_1_0_0_1_n_n.rhsIdx (ix2 i c)
      ((contrEquiv1 dot_S256x256_S256x256_S256x256_1_0_0_1_n_n 256 rfl rfl).symm k) = ix2 k c :=
    funext fun a => Fin.ext (by
      match a with
      | ⟨0, _⟩ => exact (rhs_ww_0 _ _).trans hk
      | ⟨1, _⟩ => exact rhs_ww_1 _ _)
  rw [el, er]

/-- Square by wide (`A X`), left operand, axis 0: the result's row. -/
theorem lhs_wx_0 (i : S256x3136.Idx) (q : dot_S256x256_S256x3136_S256x3136_1_0_0_1_n_n.contr.Idx) :
    (dot_S256x256_S256x3136_S256x3136_1_0_0_1_n_n.lhsIdx i q 0).val = (i 0).val := by
  unfold DotDims.lhsIdx
  rw [dif_neg (show ¬(0 : Fin S256x256.rank) ∈ dot_S256x256_S256x3136_S256x3136_1_0_0_1_n_n.lhsBatch by decide),
    dif_pos (show (0 : Fin S256x256.rank) ∈ dot_S256x256_S256x3136_S256x3136_1_0_0_1_n_n.lhsNonContracting by decide)]
  rfl
/-- Square by wide (`A X`), left operand, axis 1: the contracted coordinate. -/
theorem lhs_wx_1 (i : S256x3136.Idx) (q : dot_S256x256_S256x3136_S256x3136_1_0_0_1_n_n.contr.Idx) :
    (dot_S256x256_S256x3136_S256x3136_1_0_0_1_n_n.lhsIdx i q 1).val = (q ⟨0, by decide⟩).val :=
  dot_S256x256_S256x3136_S256x3136_1_0_0_1_n_n.lhsIdx_val_of_single rfl i q
/-- Square by wide (`A X`), right operand, axis 0: the contracted coordinate. -/
theorem rhs_wx_0 (i : S256x3136.Idx) (q : dot_S256x256_S256x3136_S256x3136_1_0_0_1_n_n.contr.Idx) :
    (dot_S256x256_S256x3136_S256x3136_1_0_0_1_n_n.rhsIdx i q 0).val = (q ⟨0, by decide⟩).val :=
  dot_S256x256_S256x3136_S256x3136_1_0_0_1_n_n.rhsIdx_val_of_single rfl i q
/-- Square by wide (`A X`), right operand, axis 1: the result's column. -/
theorem rhs_wx_1 (i : S256x3136.Idx) (q : dot_S256x256_S256x3136_S256x3136_1_0_0_1_n_n.contr.Idx) :
    (dot_S256x256_S256x3136_S256x3136_1_0_0_1_n_n.rhsIdx i q 1).val = (i 1).val := by
  unfold DotDims.rhsIdx
  rw [dif_neg (show ¬(1 : Fin S256x3136.rank) ∈ dot_S256x256_S256x3136_S256x3136_1_0_0_1_n_n.rhsBatch by decide),
    dif_pos (show (1 : Fin S256x3136.rank) ∈ dot_S256x256_S256x3136_S256x3136_1_0_0_1_n_n.rhsNonContracting by decide)]
  rfl

/-- The product of a `[256, 256]` matrix with a `[256, 3136]` one, into a zero accumulator, at `(i, c)`: the sum over `k` of
    row `i` of the first times column `c` of the second. -/
theorem matmul_wx_apply {φ₁ φ₂ : FTy} (A : FVec Ideal S256x256 φ₁) (B : FVec Ideal S256x3136 φ₂) (i : Fin 256) (c : Fin 3136) :
    matmul dot_S256x256_S256x3136_S256x3136_1_0_0_1_n_n none A B (constant (F := Ideal) S256x3136 .f32 0x00000000#32) (ix2 i c)
      = ∑ k : Fin 256, A (ix2 i k) * B (ix2 k c) := by
  simp only [matmul]
  rw [Ideal.matmul_constant_zero_apply,
    ← Equiv.sum_comp (contrEquiv1 dot_S256x256_S256x3136_S256x3136_1_0_0_1_n_n 256 rfl rfl).symm]
  refine Finset.sum_congr rfl fun k _ => ?_
  have hk := contrEquiv1_symm_val dot_S256x256_S256x3136_S256x3136_1_0_0_1_n_n 256 rfl rfl k
  have el : dot_S256x256_S256x3136_S256x3136_1_0_0_1_n_n.lhsIdx (ix2 i c)
      ((contrEquiv1 dot_S256x256_S256x3136_S256x3136_1_0_0_1_n_n 256 rfl rfl).symm k) = ix2 i k :=
    funext fun a => Fin.ext (by
      match a with
      | ⟨0, _⟩ => exact lhs_wx_0 _ _
      | ⟨1, _⟩ => exact (lhs_wx_1 _ _).trans hk)
  have er : dot_S256x256_S256x3136_S256x3136_1_0_0_1_n_n.rhsIdx (ix2 i c)
      ((contrEquiv1 dot_S256x256_S256x3136_S256x3136_1_0_0_1_n_n 256 rfl rfl).symm k) = ix2 k c :=
    funext fun a => Fin.ext (by
      match a with
      | ⟨0, _⟩ => exact (rhs_wx_0 _ _).trans hk
      | ⟨1, _⟩ => exact rhs_wx_1 _ _)
  rw [el, er]

/-! ## The payloads at an index -/

/-- A splat of the binary32 zero word reads `0`. -/
theorem scalar_zero : (Scalar.ofBits (F := Ideal) .f32 0x00000000#32 : Ideal .f32) = (0 : EReal) := Ideal.ofBits_zero_f32

/-- The Gram accumulator's reset value is zero everywhere. -/
theorem pay1_apply (q : S256x256.Idx) : k0_pay1 (F := Ideal) q = (0 : EReal) := by
  unfold k0_pay1
  rw [shapeCast_self]
  exact scalar_zero

/-- The row-sum accumulator's reset value is zero everywhere. -/
theorem pay2_apply (q : S256x1.Idx) : k0_pay2 (F := Ideal) q = (0 : EReal) := by
  unfold k0_pay2
  rw [shapeCast_self]
  exact scalar_zero

/-- The image block with its unit axis dropped. -/
theorem pay3_apply (xb : FVec Ideal S1x256x3136 .f32) (i : Fin 256) (j : Fin 3136) :
    k0_pay3 (F := Ideal) xb (ix2 i j) = xb (ix3 (0 : Fin 1) i j) := by
  unfold k0_pay3
  exact shapeCast_1ab_ab_apply xb _ i j

/-- Narrowing is the identity on extended reals. -/
theorem pay4_apply (xb : FVec Ideal S1x256x3136 .f32) (i : Fin 256) (j : Fin 3136) :
    k0_pay4 (F := Ideal) xb (ix2 i j) = xb (ix3 (0 : Fin 1) i j) := by
  unfold k0_pay4
  show k0_pay3 (F := Ideal) xb (ix2 i j) = _
  exact pay3_apply xb i j

/-- The narrowed image stored as a `[1, 256, 3136]` row is the image. -/
theorem pay5_apply (xb : FVec Ideal S1x256x3136 .f32) (u : Fin 1) (i : Fin 256) (j : Fin 3136) :
    k0_pay5 (F := Ideal) xb (ix3 u i j) = xb (ix3 (0 : Fin 1) i j) := by
  unfold k0_pay5
  exact (shapeCast_ab_1ab_apply _ _ u i j).trans (pay4_apply xb i j)

/-- One step of the Gram accumulation: the accumulator plus the image's Gram matrix. -/
theorem pay6_apply (xb : FVec Ideal S1x256x3136 .f32) (g : FVec Ideal S256x256 .f32) (i k : Fin 256) :
    k0_pay6 (F := Ideal) xb g (ix2 i k)
      = g (ix2 i k) + ∑ j : Fin 3136, xb (ix3 (0 : Fin 1) i j) * xb (ix3 (0 : Fin 1) k j) := by
  unfold k0_pay6
  rw [shapeCast_self]
  refine (addf_apply _ _ _).trans (congrArg (g (ix2 i k) + ·) ?_)
  refine (matmul_rr_apply _ _ i k).trans ?_
  exact Finset.sum_congr rfl fun j _ => by rw [pay4_apply, pay4_apply]

/-- One step of the row-sum accumulation: the accumulator plus the image's row sums. -/
theorem pay7_apply (xb : FVec Ideal S1x256x3136 .f32) (s : FVec Ideal S256x1 .f32) (i : Fin 256) (u : Fin 1) :
    k0_pay7 (F := Ideal) xb s (ix2 i u) = s (ix2 i u) + ∑ j : Fin 3136, xb (ix3 (0 : Fin 1) i j) := by
  unfold k0_pay7
  rw [shapeCast_self]
  refine (addf_apply _ _ _).trans (congrArg (s (ix2 i u) + ·) ?_)
  refine (shapeCast_a_a1_apply _ _ i u).trans ?_
  refine (rowsum_apply _ _ _ _ _ i).trans ?_
  exact Finset.sum_congr rfl fun j _ => pay3_apply xb i j

/-- The count `50176` as the payloads spell it. -/
theorem scalar_cnt : (Scalar.ofBits (F := Ideal) .f32 0x47440000#32 : Ideal .f32) = Ideal.ofBits .f32 0x47440000#32 := rfl
/-- The regulariser as the payloads spell it. -/
theorem scalar_eps : (Scalar.ofBits (F := Ideal) .f32 0x3727C5AC#32 : Ideal .f32) = Ideal.ofBits .f32 0x3727C5AC#32 := rfl

/-- The mean: the weight applied to the row sums (spread along the lanes, multiplied, first column cut out) over the count. -/
theorem pay9_apply (w : FVec Ideal S256x256 .f32) (s : FVec Ideal S256x1 .f32) (i : Fin 256) (u : Fin 1) :
    k0_pay9 (F := Ideal) w s (ix2 i u)
      = Ideal.div (∑ k : Fin 256, w (ix2 i k) * s (ix2 k (0 : Fin 1))) (Ideal.ofBits .f32 0x47440000#32) := by
  unfold k0_pay9
  rw [shapeCast_self]
  refine (divf_apply _ _ _).trans (congrArg (Ideal.div · (Ideal.ofBits .f32 0x47440000#32)) ?_)
  refine (slice_ab_a1_apply _ _ i u (0 : Fin 256) rfl).trans ?_
  refine (matmul_ww_apply _ _ i (0 : Fin 256)).trans ?_
  exact Finset.sum_congr rfl fun k _ => congrArg (w (ix2 i k) * ·) (broadcastTo_a1_ab_apply s _ k (0 : Fin 256) (0 : Fin 1))

/-- The scale: the batch-norm gain times the inverse square root of the clamped variance plus the regulariser, the
    variance from the second moment (the diagonal of `W G Wᵀ` over the count) and the mean. -/
theorem pay10_apply (w g : FVec Ideal S256x256 .f32) (s gm : FVec Ideal S256x1 .f32) (i : Fin 256) (u : Fin 1) :
    k0_pay10 (F := Ideal) w g s gm (ix2 i u)
      = gm (ix2 i u) * Ideal.rsqrt (max
          (Ideal.div (∑ k : Fin 256, (∑ l : Fin 256, w (ix2 i l) * g (ix2 l k)) * w (ix2 i k)) (Ideal.ofBits .f32 0x47440000#32)
            - k0_pay9 (F := Ideal) w s (ix2 i u) * k0_pay9 (F := Ideal) w s (ix2 i u)) 0
          + Ideal.ofBits .f32 0x3727C5AC#32) := by
  unfold k0_pay10
  rw [shapeCast_self]
  refine (mulf_apply _ _ _).trans (congrArg (gm (ix2 i u) * ·) ?_)
  show Ideal.rsqrt (max (Ideal.div (shapeCast S256x1 _ _ (ix2 i u)) (Ideal.ofBits .f32 0x47440000#32)
      - k0_pay9 (F := Ideal) w s (ix2 i u) * k0_pay9 (F := Ideal) w s (ix2 i u)) (Ideal.ofBits .f32 0x00000000#32)
      + Ideal.ofBits .f32 0x3727C5AC#32) = _
  rw [Ideal.ofBits_zero_f32]
  refine congrArg (fun t => Ideal.rsqrt (max (Ideal.div t (Ideal.ofBits .f32 0x47440000#32)
      - k0_pay9 (F := Ideal) w s (ix2 i u) * k0_pay9 (F := Ideal) w s (ix2 i u)) 0 + Ideal.ofBits .f32 0x3727C5AC#32)) ?_
  refine (shapeCast_a_a1_apply _ _ i u).trans ?_
  refine (rowsum_apply _ _ _ _ _ i).trans ?_
  refine Finset.sum_congr rfl fun k _ => ?_
  refine (mulf_apply _ _ _).trans (congrArg (· * w (ix2 i k)) ?_)
  exact matmul_ww_apply w g i k

/-- The additive term: the batch-norm offset minus the mean times the scale. -/
theorem pay11_apply (w g : FVec Ideal S256x256 .f32) (s gm bt : FVec Ideal S256x1 .f32) (i : Fin 256) (u : Fin 1) :
    k0_pay11 (F := Ideal) w g s gm bt (ix2 i u)
      = bt (ix2 i u) - k0_pay9 (F := Ideal) w s (ix2 i u) * k0_pay10 (F := Ideal) w g s gm (ix2 i u) := by
  unfold k0_pay11
  rw [shapeCast_self, shapeCast_self]
  rfl

/-- The folded weight: the scale, spread along the lanes, times the weight. -/
theorem pay12_apply (w g : FVec Ideal S256x256 .f32) (s gm : FVec Ideal S256x1 .f32) (i k : Fin 256) :
    k0_pay12 (F := Ideal) w g s gm (ix2 i k)
      = k0_pay10 (F := Ideal) w g s gm (ix2 i (0 : Fin 1)) * w (ix2 i k) := by
  unfold k0_pay12
  rw [shapeCast_self]
  show broadcastTo S256x256 (k0_pay10 (F := Ideal) w g s gm) _ (ix2 i k) * w (ix2 i k) = _
  exact congrArg (· * w (ix2 i k)) (broadcastTo_a1_ab_apply _ _ i k (0 : Fin 1))

/-- An output block: the folded weight times the resident image, plus the additive term spread along the lanes,
    clamped at zero. -/
theorem pay8_apply (wf : FVec Ideal S256x256 .bf16) (xr : FVec Ideal S1x256x3136 .bf16) (sh : FVec Ideal S256x1 .f32)
    (u : Fin 1) (i : Fin 256) (j : Fin 3136) :
    k0_pay8 (F := Ideal) wf xr sh (ix3 u i j)
      = max ((∑ k : Fin 256, wf (ix2 i k) * xr (ix3 (0 : Fin 1) k j)) + sh (ix2 i (0 : Fin 1))) 0 := by
  unfold k0_pay8
  refine (shapeCast_ab_1ab_apply _ _ u i j).trans ?_
  show max (matmul dot_S256x256_S256x3136_S256x3136_1_0_0_1_n_n none wf (shapeCast S256x3136 xr _)
        (constant (F := Ideal) S256x3136 .f32 0x00000000#32) (ix2 i j)
      + broadcastTo S256x3136 sh _ (ix2 i j)) (Ideal.ofBits .f32 0x00000000#32) = _
  rw [Ideal.ofBits_zero_f32, matmul_wx_apply, broadcastTo_a1_ab_apply sh _ i j (0 : Fin 1)]
  refine congrArg (fun t => max (t + sh (ix2 i (0 : Fin 1))) 0) ?_
  exact Finset.sum_congr rfl fun k _ => congrArg (wf (ix2 i k) * ·) (shapeCast_1ab_ab_apply xr _ k j)

end Cert.KernelIdeal.Hand

end
-- ==== Proof.KValueAcc.lean ====
/-
  The fused kernel's two accumulators are the Gram matrix and the channel sums over batch and pixels — a sum over the
  batch taken image by image, the first image added to zero —, so the folded weight and the additive term the last
  first-phase point derives from them are the specification's, and every output block is the clamped affine image of
  its batch image.
-/
import proofs.«147999_g2000502477920874_pallasbulk_293_3_alg».proof.Proof.KValuePay
import proofs.«147999_g2000502477920874_pallasbulk_293_3_alg».proof.Proof.Spec

noncomputable section

namespace Cert.KernelIdeal.Hand

open Idealize.ShloMosaic Idealize.ShloMosaic.ValueIdx Cert.KernelIdeal Cert.KernelIdeal.Gen
open scoped BigOperators

variable [Facts]

/-! ## The accumulators: a sum over the batch taken image by image -/

/-- The batch coordinate point `b` reads. -/
abbrev bi (b : ℕ) : Fin 16 := ⟨b % 16, Nat.mod_lt _ (by decide)⟩

/-- For a batch coordinate itself nothing is reduced. -/
theorem bi_val (b : Fin 16) : bi b.val = b := Fin.ext (Nat.mod_eq_of_lt b.isLt)

/-- Batch image `n` at `(u, i, j)` is the array at `(n mod 16, i, j)`. -/
theorem xblk_apply (x3 : FVec Ideal S16x256x3136 .f32) (n : ℕ) (u : Fin 1) (i : Fin 256) (j : Fin 3136) :
    xblk (F := Ideal) x3 n (ix3 u i j) = x3 (ix3 (bi n) i j) := by
  unfold xblk
  refine congrArg x3 (funext fun d => ?_)
  match d with
  | ⟨0, _⟩ => rfl
  | ⟨1, _⟩ => rfl
  | ⟨2, _⟩ => rfl

/-- After point `n` the Gram accumulator holds the sum of the first `n + 1` images' Gram matrices. -/
theorem Gacc_apply (x3 : FVec Ideal S16x256x3136 .f32) (n : ℕ) (l k : Fin 256) :
    Gacc (F := Ideal) x3 n (ix2 l k)
      = ∑ b ∈ Finset.range (n + 1), ∑ j : Fin 3136, x3 (ix3 (bi b) l j) * x3 (ix3 (bi b) k j) := by
  induction n with
  | zero =>
    show k0_pay6 (F := Ideal) (xblk x3 0) (k0_pay1 (F := Ideal)) (ix2 l k) = _
    refine (pay6_apply _ _ l k).trans ?_
    rw [pay1_apply, zero_add, Finset.sum_range_one]
    exact Finset.sum_congr rfl fun j _ => by rw [xblk_apply, xblk_apply]
  | succ n ih =>
    show k0_pay6 (F := Ideal) (xblk x3 (n + 1)) (Gacc x3 n) (ix2 l k) = _
    refine (pay6_apply _ _ l k).trans ?_
    rw [ih, Finset.sum_range_succ _ (n + 1)]
    refine congrArg (_ + ·) ?_
    exact Finset.sum_congr rfl fun j _ => by rw [xblk_apply, xblk_apply]

/-- After point `n` the row-sum accumulator holds the sum of the first `n + 1` images' row sums. -/
theorem sacc_apply (x3 : FVec Ideal S16x256x3136 .f32) (n : ℕ) (i : Fin 256) (u : Fin 1) :
    sacc (F := Ideal) x3 n (ix2 i u) = ∑ b ∈ Finset.range (n + 1), ∑ j : Fin 3136, x3 (ix3 (bi b) i j) := by
  induction n with
  | zero =>
    show k0_pay7 (F := Ideal) (xblk x3 0) (k0_pay2 (F := Ideal)) (ix2 i u) = _
    refine (pay7_apply _ _ i u).trans ?_
    rw [pay2_apply, zero_add, Finset.sum_range_one]
    exact Finset.sum_congr rfl fun j _ => by rw [xblk_apply]
  | succ n ih =>
    show k0_pay7 (F := Ideal) (xblk x3 (n + 1)) (sacc x3 n) (ix2 i u) = _
    refine (pay7_apply _ _ i u).trans ?_
    rw [ih, Finset.sum_range_succ _ (n + 1)]
    refine congrArg (_ + ·) ?_
    exact Finset.sum_congr rfl fun j _ => by rw [xblk_apply]

/-- After the last point of the first phase the Gram accumulator is the Gram matrix over batch and pixels. -/
theorem Gacc_last (x3 : FVec Ideal S16x256x3136 .f32) (l k : Fin 256) :
    Gacc (F := Ideal) x3 15 (ix2 l k) = Cert.Spec.gram x3 l k := by
  refine (Gacc_apply x3 15 l k).trans ?_
  unfold Cert.Spec.gram
  rw [show (15 : ℕ) + 1 = 16 from rfl, Finset.sum_range]
  exact Finset.sum_congr rfl fun b _ => by rw [bi_val]

/-- After the last point of the first phase the row-sum accumulator is the channel sums over batch and pixels. -/
theorem sacc_last (x3 : FVec Ideal S16x256x3136 .f32) (i : Fin 256) (u : Fin 1) :
    sacc (F := Ideal) x3 15 (ix2 i u) = Cert.Spec.rsum x3 i := by
  refine (sacc_apply x3 15 i u).trans ?_
  unfold Cert.Spec.rsum
  rw [show (15 : ℕ) + 1 = 16 from rfl, Finset.sum_range]
  exact Finset.sum_congr rfl fun b _ => by rw [bi_val]

/-! ## The folded batch norm -/

section Fold
variable (x3 : FVec Ideal S16x256x3136 .f32) (w : FVec Ideal S256x256 .f32) (gam bet : FVec Ideal S256 .f32)
  (hc : S256.ShapeCasts S256x1)

/-- The mean the last first-phase point derives is the specification's. -/
theorem mean_eq (i : Fin 256) (u : Fin 1) :
    k0_pay9 (F := Ideal) w (sacc x3 15) (ix2 i u) = Cert.Spec.mean x3 w i := by
  refine (pay9_apply _ _ i u).trans ?_
  unfold Cert.Spec.mean Cert.Spec.cnt
  refine congrArg (Ideal.div · (Ideal.ofBits .f32 0x47440000#32)) ?_
  exact Finset.sum_congr rfl fun k _ => by rw [sacc_last]

/-- The scale it derives is the specification's. -/
theorem scale_eq (i : Fin 256) (u : Fin 1) :
    k0_pay10 (F := Ideal) w (Gacc x3 15) (sacc x3 15) (shapeCast S256x1 gam hc) (ix2 i u) = Cert.Spec.scale x3 w gam i := by
  refine (pay10_apply _ _ _ _ i u).trans ?_
  unfold Cert.Spec.scale Cert.Spec.var Cert.Spec.ey2 Cert.Spec.cnt Cert.Spec.eps
  rw [mean_eq, shapeCast_a_a1_apply gam hc i u]
  refine congrArg (fun t => gam (ix1 i) * Ideal.rsqrt (max (Ideal.div t (Ideal.ofBits .f32 0x47440000#32)
      - Cert.Spec.mean x3 w i * Cert.Spec.mean x3 w i) 0 + Ideal.ofBits .f32 0x3727C5AC#32)) ?_
  refine Finset.sum_congr rfl fun k _ => congrArg (· * w (ix2 i k)) ?_
  exact Finset.sum_congr rfl fun l _ => by rw [Gacc_last]

/-- The additive term it stores is the specification's. -/
theorem shiftV_apply (i : Fin 256) (u : Fin 1) :
    shiftV (F := Ideal) x3 w (shapeCast S256x1 gam hc) (shapeCast S256x1 bet hc) (ix2 i u)
      = Cert.Spec.shift x3 w gam bet i := by
  unfold shiftV
  refine (pay11_apply _ _ _ _ _ i u).trans ?_
  unfold Cert.Spec.shift
  rw [mean_eq, scale_eq, shapeCast_a_a1_apply bet hc i u]

/-- The folded weight it stores is the specification's. -/
theorem wfV_apply (i k : Fin 256) :
    wfV (F := Ideal) x3 w (shapeCast S256x1 gam hc) (ix2 i k) = Cert.Spec.wfold x3 w gam i k := by
  unfold wfV
  refine (pay12_apply _ _ _ _ i k).trans ?_
  unfold Cert.Spec.wfold
  rw [scale_eq]

/-- Output block `n` is the clamped affine image of batch image `n`. -/
theorem oblk_apply (n : ℕ) (u : Fin 1) (i : Fin 256) (j : Fin 3136) :
    oblk (F := Ideal) x3 w (shapeCast S256x1 gam hc) (shapeCast S256x1 bet hc) n (ix3 u i j)
      = max ((∑ k : Fin 256, Cert.Spec.wfold x3 w gam i k * x3 (ix3 (bi n) k j)) + Cert.Spec.shift x3 w gam bet i) 0 := by
  unfold oblk
  refine (pay8_apply _ _ _ u i j).trans ?_
  rw [shiftV_apply]
  refine congrArg (fun t => max (t + Cert.Spec.shift x3 w gam bet i) 0) ?_
  exact Finset.sum_congr rfl fun k _ => by rw [wfV_apply, pay5_apply, xblk_apply]

/-- The whole output array is the specification's result on the flattened layout. -/
theorem outArr_eq_out3 :
    outArr (F := Ideal) x3 w (shapeCast S256x1 gam hc) (shapeCast S256x1 bet hc) = Cert.Spec.out3 x3 w gam bet := by
  funext q
  obtain ⟨b, i, j, rfl⟩ : ∃ (b : Fin 16) (i : Fin 256) (j : Fin 3136), q = ix3 b i j := ⟨q 0, q 1, q 2, eq_ix3 q⟩
  show oblk (F := Ideal) x3 w (shapeCast S256x1 gam hc) (shapeCast S256x1 bet hc) b.val
      (fun d => match d with
        | ⟨0, _⟩ => (⟨0, by decide⟩ : Fin 1)
        | ⟨1, _⟩ => i
        | ⟨2, _⟩ => j) = _
  have hidx : (fun d => match d with
        | ⟨0, _⟩ => (⟨0, by decide⟩ : Fin 1)
        | ⟨1, _⟩ => i
        | ⟨2, _⟩ => j : S1x256x3136.Idx) = ix3 (0 : Fin 1) i j := by
    funext d
    match d with
    | ⟨0, _⟩ => rfl
    | ⟨1, _⟩ => rfl
    | ⟨2, _⟩ => rfl
  rw [hidx, oblk_apply, bi_val]
  rfl

end Fold

end Cert.KernelIdeal.Hand

end
-- ==== Proof.KValue.lean ====
/-
  At the ideal instance the array the fused kernel leaves is the specification's function of the arguments.
-/
import proofs.«147999_g2000502477920874_pallasbulk_293_3_alg».proof.Proof.KDefs
import proofs.«147999_g2000502477920874_pallasbulk_293_3_alg».proof.Proof.Spec
import proofs.«147999_g2000502477920874_pallasbulk_293_3_alg».proof.Proof.KValueAcc
import Idealize.ShloMosaic.PureOps.Ideal.Laws
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen
open scoped BigOperators

variable [Facts]

/-- The kernel's output array, restored to the 4-d layout, is the specification `Cert.Spec.out4`: the accumulators are the
    Gram matrix and the row sums (a sum over the batch taken image by image), the folded weight and additive term are
    the specification's, and each output block is the clamped affine image of its batch image. -/
theorem outArr_eq (x : Vec Ideal S16x256x56x56 .f32) (w : Vec Ideal S256x256 .f32) (gam bet : Vec Ideal S256 .f32) :
    shapeCast S16x256x56x56 (outArr (F := Ideal) (shapeCast S16x256x3136 x Facts₀.shapeCasts_S16x256x56x56_S16x256x3136) w
        (shapeCast S256x1 gam Facts₀.shapeCasts_S256_S256x1) (shapeCast S256x1 bet Facts₀.shapeCasts_S256_S256x1))
      Facts₀.shapeCasts_S16x256x3136_S16x256x56x56
    = Cert.Spec.out4 x w gam bet := by
  unfold Cert.Spec.out4
  exact congrArg (fun v => shapeCast S16x256x56x56 v Facts₀.shapeCasts_S16x256x3136_S16x256x56x56)
    (outArr_eq_out3 (shapeCast S16x256x3136 x Facts₀.shapeCasts_S16x256x56x56_S16x256x3136) w gam bet
      Facts₀.shapeCasts_S256_S256x1)

end Cert.KernelIdeal.Hand

end
-- ==== Proof.Bits.KDefs.lean ====
/-
  What the fused kernel's scratch buffers hold point by point, and the array it leaves, as pure functions of the
  arrays the region is launched on — stated through the body's own arithmetic (the payload terms), at any float instance.

  The grid is 2 × 16, walked phase-major. In phase 0, point `b` reads batch image `b`, stores its narrowed copy into
  row `b` of a resident copy of the input, and adds the image's Gram matrix and row sums into two accumulators that the
  first point resets. The last point of phase 0 also derives the folded weight and the additive term from the
  accumulated statistics. In phase 1, point `b` multiplies the folded weight with row `b` of the resident copy, adds
  the additive term, clamps at zero and writes output block `b`.
-/
import proofs.«147999_g2000502477920874_pallasbulk_293_3_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F] [Facts]

section
/- `x3`: the activations, flattened to [16, 256, 3136]; `w`: the weight; `g2`, `b2`: the batch-norm scale and
   offset as columns [256, 1]. -/
variable (x3 : Vec F S16x256x3136 .f32) (w : Vec F S256x256 .f32) (g2 b2 : Vec F S256x1 .f32)

/-- Batch image `n` (taken modulo 16) as a [1, 256, 3136] block. -/
def xblk (n : ℕ) : Vec F S1x256x3136 .f32 :=
  fun y => x3 (fun d => match d with
    | ⟨0, _⟩ => (⟨n % 16, Nat.mod_lt _ (by decide)⟩ : Fin 16)
    | ⟨1, _⟩ => y 1
    | ⟨2, _⟩ => y 2)

/-- The Gram accumulator after phase-0 point `n`: reset at the first point, then each image's contribution added. -/
def Gacc : ℕ → Vec F S256x256 .f32
  | 0 => k0_pay6 (xblk x3 0) k0_pay1
  | n + 1 => k0_pay6 (xblk x3 (n + 1)) (Gacc n)

/-- The row-sum accumulator after phase-0 point `n`. -/
def sacc : ℕ → Vec F S256x1 .f32
  | 0 => k0_pay7 (xblk x3 0) k0_pay2
  | n + 1 => k0_pay7 (xblk x3 (n + 1)) (sacc n)

/-- The folded weight the last phase-0 point stores. -/
def wfV : Vec F S256x256 .bf16 := k0_pay12 w (Gacc x3 15) (sacc x3 15) g2
/-- The additive term the last phase-0 point stores. -/
def shiftV : Vec F S256x1 .f32 := k0_pay11 w (Gacc x3 15) (sacc x3 15) g2 b2

/-- Output block `n` (what phase-1 point `n` writes): the folded weight times the narrowed image, plus the additive
    term, clamped at zero. -/
def oblk (n : ℕ) : Vec F S1x256x3136 .f32 := k0_pay8 (wfV x3 w g2) (k0_pay5 (xblk x3 n)) (shiftV x3 w g2 b2)

/-- The whole output array: index `(b, i, j)` is entry `(0, i, j)` of block `b`. -/
def outArr : Vec F S16x256x3136 .f32 :=
  fun q => oblk x3 w g2 b2 (q 0).val (fun d => match d with
    | ⟨0, _⟩ => (⟨0, by decide⟩ : Fin 1)
    | ⟨1, _⟩ => q 1
    | ⟨2, _⟩ => q 2)
end

end Cert.Kernel.Hand

end
-- ==== Proof.Bits.KConds.lean ====
/-
  The four branch conditions of the fused kernel's body as propositions over the grid point `i = (phase, batch)`,
  and the two ways the body touches the resident narrowed copy of the input: overwriting one batch row, reading one
  batch row.
    cond0: phase = 0 and batch = 0    (the accumulators are reset)
    cond1: phase = 0                  (an image is narrowed, stored, and accumulated)
    cond2: phase = 0 and batch = 15   (the statistics are folded into the weight)
    cond3: phase = 1                  (an output block is produced)
-/
import proofs.«147999_g2000502477920874_pallasbulk_293_3_alg».proof.Proof.Gen.Kernel.Frame
import proofs.«147999_g2000502477920874_pallasbulk_293_3_alg».proof.Proof.Gen.Kernel.Skeleton

noncomputable section

namespace Cert.Kernel.Hand

open Idealize.ShloMosaic Cert.Kernel Cert.Kernel.Gen

variable {F : FTy → Type} [FloatOps F]

abbrev cond0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
abbrev cond1 (i : grid0.Coords) : Prop := k0_cond2 i = 1#1
abbrev cond2 (i : grid0.Coords) : Prop :=
  Scalar.cmpi .ne (Scalar.extui (Scalar.andi (Scalar.cmpi .eq (BitVec.ofNat 32 (i 0).val) 0#32) (Scalar.cmpi .eq (BitVec.ofNat 32 (i 1).val) 15#32))) 0#32 = 1#1
abbrev cond3 (i : grid0.Coords) : Prop := k0_cond4 i = 1#1

/-- The resident copy with batch row `n` replaced by a [1, 256, 3136] block. -/
def rowset {e : EltTy} (X : S16x256x3136.Idx → Elt F e) (n : ℕ) (blk : S1x256x3136.Idx → Elt F e) : S16x256x3136.Idx → Elt F e :=
  fun q => if (q 0).val = n then blk (fun d => match d with
    | ⟨0, _⟩ => (⟨0, by decide⟩ : Fin 1)
    | ⟨1, _⟩ => q 1
    | ⟨2, _⟩ => q 2) else X q

/-- Batch row `n` (taken modulo 16) of the resident copy, as a [1, 256, 3136] block. -/
def rowget {e : EltTy} (X : S16x256x3136.Idx → Elt F e) (n : ℕ) : S1x256x3136.Idx → Elt F e :=
  fun y => X (fun d => match d with
    | ⟨0, _⟩ => (⟨n % 16, Nat.mod_lt _ (by decide)⟩ : Fin 16)
    | ⟨1, _⟩ => y 1
    | ⟨2, _⟩ => y 2)

end Cert.Kernel.Hand

end
-- ==== Proof.Bits.KPoints.lean ====
/-
  The grid walked as one line of 32 points, phase-major: point t is (phase, batch) = (t / 16, t % 16). In closed
  form over t: where each of the body's four branch conditions holds, which image block the input window is on,
  which output block the output window is on, and where the output window is idle or written back.
-/
import proofs.«147999_g2000502477920874_pallasbulk_293_3_alg».proof.Proof.Bits.KConds
import proofs.«147999_g2000502477920874_pallasbulk_293_3_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulators are reset at the first point only. -/
theorem hcond0 : ∀ t : Fin cfg0.N, cond0 (grid0.coords t) ↔ t.val = 0 :=
  (by decide +kernel : ∀ t : Fin grid0.N, cond0 (grid0.coords t) ↔ t.val = 0)
/-- An image is accumulated at the points of phase 0. -/
theorem hcond1 : ∀ t : Fin cfg0.N, cond1 (grid0.coords t) ↔ t.val < 16 :=
  (by decide +kernel : ∀ t : Fin grid0.N, cond1 (grid0.coords t) ↔ t.val < 16)
/-- The statistics are folded at the last point of phase 0. -/
theorem hcond2 : ∀ t : Fin cfg0.N, cond2 (grid0.coords t) ↔ t.val = 15 :=
  (by decide +kernel : ∀ t : Fin grid0.N, cond2 (grid0.coords t) ↔ t.val = 15)
/-- An output block is produced at the points of phase 1. -/
theorem hcond3 : ∀ t : Fin cfg0.N, cond3 (grid0.coords t) ↔ 16 ≤ t.val :=
  (by decide +kernel : ∀ t : Fin grid0.N, cond3 (grid0.coords t) ↔ 16 ≤ t.val)

/-- The batch coordinate of point t. -/
theorem coord1 : ∀ t : Fin cfg0.N, (grid0.coords t 1).val = t.val % 16 :=
  (by decide +kernel : ∀ t : Fin grid0.N, (grid0.coords t 1).val = t.val % 16)

/-- The three resident operands sit on their one block throughout. -/
theorem idx0 : ∀ t : Fin cfg0.N, ∀ a, win0_0.index t a = 0 :=
  (by decide +kernel : ∀ t : Fin grid0.N, ∀ a, win0_0.index t a = 0)
theorem idx1 : ∀ t : Fin cfg0.N, ∀ a, win0_1.index t a = 0 :=
  (by decide +kernel : ∀ t : Fin grid0.N, ∀ a, win0_1.index t a = 0)
theorem idx2 : ∀ t : Fin cfg0.N, ∀ a, win0_2.index t a = 0 :=
  (by decide +kernel : ∀ t : Fin grid0.N, ∀ a, win0_2.index t a = 0)
/-- The image window walks the batch in phase 0 and stays on the last image in phase 1. -/
theorem idx3 : ∀ t : Fin cfg0.N, win0_3.index t = ![if t.val < 16 then t.val else 15, 0, 0] :=
  (by decide +kernel : ∀ t : Fin grid0.N, win0_3.index t = ![if t.val < 16 then t.val else 15, 0, 0])
/-- The output window stays on block 0 in phase 0 and walks the batch in phase 1. -/
theorem idx4 : ∀ t : Fin cfg0.N, win0_4.index t = ![t.val - 16, 0, 0] :=
  (by decide +kernel : ∀ t : Fin grid0.N, win0_4.index t = ![t.val - 16, 0, 0])

/-- The output window is idle exactly in phase 0, -/
theorem idle4 : ∀ t : Fin cfg0.N, cfg0.idle 4 (grid0.coords t) = decide (t.val < 16) :=
  (by decide +kernel : ∀ t : Fin grid0.N, idle0 4 (grid0.coords t) = decide (t.val < 16))
/-- and written back after each point of phase 1. -/
theorem flush4 : ∀ t : Fin cfg0.N, (cfg0.win 4).flush t = decide (16 ≤ t.val) :=
  (by decide +kernel : ∀ t : Fin grid0.N, win0_4.flush t = decide (16 ≤ t.val))

end Cert.Kernel.Hand

end
-- ==== Proof.Bits.KDat.lean ====
/-
  The region's invariant and proof data.

  Between grid points the kernel carries five scratch buffers. After phase-0 point k (k < 16) the resident copy holds
  the narrowed images 0..k in its rows 0..k, and the two accumulators hold the Gram matrix and the row sums of
  images 0..k. The last phase-0 point also leaves the folded weight and the additive term, which phase 1 only reads
  (the accumulators are not read again and are forgotten). After every later point the resident copy still holds all
  sixteen narrowed images. Before the first point nothing is known of any scratch buffer.

  Each input window's staging buffer holds its block of the array as the region finds it. The output window is idle
  throughout phase 0 (its buffer is handed back as found and not written back) and after phase-1 point 16 + b holds
  output block b.
-/
import proofs.«147999_g2000502477920874_pallasbulk_293_3_alg».proof.Proof.Bits.KDefs
import proofs.«147999_g2000502477920874_pallasbulk_293_3_alg».proof.Proof.Bits.KConds
import proofs.«147999_g2000502477920874_pallasbulk_293_3_alg».proof.Proof.Bits.KPoints
import proofs.«147999_g2000502477920874_pallasbulk_293_3_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays the region is launched on, at their literal types -/

/-- The activations, flattened to [16, 256, 3136], as the region finds them. -/
abbrev xarr (c : Dev nD) : Vec F S16x256x3136 .f32 := V m c main_v0
/-- The weight. -/
abbrev warr (c : Dev nD) : Vec F S256x256 .f32 := V m c main_arg1
/-- The batch-norm scale and offset as columns. -/
abbrev garr (c : Dev nD) : Vec F S256x1 .f32 := V m c main_v1
abbrev barr (c : Dev nD) : Vec F S256x1 .f32 := V m c main_v2

/-! ## The scratch operands -/

abbrev sc0 : Memref sig .tc .vmem S16x256x3136 .bf16 := Memref.whole cc0_scratch0
abbrev sc1 : Memref sig .tc .vmem S256x256 .f32 := Memref.whole cc0_scratch1
abbrev sc2 : Memref sig .tc .vmem S256x1 .f32 := Memref.whole cc0_scratch2
abbrev sc3 : Memref sig .tc .vmem S256x256 .bf16 := Memref.whole cc0_scratch3
abbrev sc4 : Memref sig .tc .vmem S256x1 .f32 := Memref.whole cc0_scratch4

/-- The class's invariant with the five scratch operands as memrefs owned at some contents. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The invariant -/

/-- The invariant before point `n`: the class's before the first point; after point `k` the resident copy with its rows
    `0..min k 15` the narrowed images, the accumulators at images `0..k`'s statistics while `k < 15`, the folded weight
    and the additive term once `15 ≤ k`, every other scratch buffer at anything, and the generator register at some state. -/
def PhiK (c : Dev nD) : ℕ → sProp 𝕄
  | 0 => Pipeline.ΦA spec0 c
  | k + 1 => iprop((∃ X7 : Vec F S16x256x3136 .bf16, ⌜∀ b, b ≤ k → b < 16 → rowget X7 b = k0_pay5 (xblk (xarr m c) b)⌝ ∗ owns (c : Thread nD τ) sc0 fullShare X7)
      ∗ (if k < 15 then owns (c : Thread nD τ) sc1 fullShare (Gacc (xarr m c) k) else iprop(∃ d, owns (c : Thread nD τ) sc1 fullShare d))
      ∗ (if k < 15 then owns (c : Thread nD τ) sc2 fullShare (sacc (xarr m c) k) else iprop(∃ d, owns (c : Thread nD τ) sc2 fullShare d))
      ∗ (if 15 ≤ k then owns (c : Thread nD τ) sc3 fullShare (wfV (xarr m c) (warr m c) (garr m c)) else iprop(∃ d, owns (c : Thread nD τ) sc3 fullShare d))
      ∗ (if 15 ≤ k then owns (c : Thread nD τ) sc4 fullShare (shiftV (xarr m c) (warr m c) (garr m c) (barr m c)) else iprop(∃ d, owns (c : Thread nD τ) sc4 fullShare d))
      ∗ (∃ r, prngReg c r))

theorem PhiK_zero (c : Dev nD) : PhiK m c 0 = Pipeline.ΦA spec0 c := rfl

theorem PhiK_succ (c : Dev nD) (k : ℕ) :
    PhiK m c (k + 1) = iprop((∃ X7 : Vec F S16x256x3136 .bf16, ⌜∀ b, b ≤ k → b < 16 → rowget X7 b = k0_pay5 (xblk (xarr m c) b)⌝ ∗ owns (c : Thread nD τ) sc0 fullShare X7)
      ∗ (if k < 15 then owns (c : Thread nD τ) sc1 fullShare (Gacc (xarr m c) k) else iprop(∃ d, owns (c : Thread nD τ) sc1 fullShare d))
      ∗ (if k < 15 then owns (c : Thread nD τ) sc2 fullShare (sacc (xarr m c) k) else iprop(∃ d, owns (c : Thread nD τ) sc2 fullShare d))
      ∗ (if 15 ≤ k then owns (c : Thread nD τ) sc3 fullShare (wfV (xarr m c) (warr m c) (garr m c)) else iprop(∃ d, owns (c : Thread nD τ) sc3 fullShare d))
      ∗ (if 15 ≤ k then owns (c : Thread nD τ) sc4 fullShare (shiftV (xarr m c) (warr m c) (garr m c) (barr m c)) else iprop(∃ d, owns (c : Thread nD τ) sc4 fullShare d))
      ∗ (∃ r, prngReg c r)) := rfl

/-! ## The proof data -/

/-- Output block `b` at the output window's block type. -/
abbrev oblkW (c : Dev nD) (b : ℕ) : (cfg0.win 4).block.Idx → Elt F (cfg0.win 4).elt :=
  oblk (xarr m c) (warr m c) (garr m c) (barr m c) b

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblkW m c (t.val - 16)
  Φ t := PhiK m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oblkW m c (t.val - 16) := by dsimp only [dats]

theorem Phi_castSucc (c : Dev nD) (t : Fin cfg0.N) : (dats m 0 c).Φ t.castSucc = PhiK m c t.val := by
  dsimp only [dats]; simp only [Fin.coe_castSucc]
theorem Phi_succ (c : Dev nD) (t : Fin cfg0.N) : (dats m 0 c).Φ t.succ = PhiK m c (t.val + 1) := by
  dsimp only [dats]; simp only [Fin.val_succ]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The output's current staging buffer is handed to the body at whatever it held: through phase 0 the window is idle
    and nothing is written back, and in phase 1 every point follows a write-back (or the idle run). -/
theorem before0_4 (c : Dev nD) : ∀ (n : ℕ) (hn : n < cfg0.N) (d), (dats m 0 c).before 4 ⟨n, hn⟩ d = d
  | 0, hn, d => (dats m 0 c).before_out_reset 4 rfl ⟨0, hn⟩ (.inl rfl) d
  | n + 1, hn, d => by
    by_cases h : 16 ≤ n
    · exact (dats m 0 c).before_out_reset 4 rfl ⟨n + 1, hn⟩ (.inr ⟨Nat.succ_ne_zero n, by
        show (cfg0.win 4).flush ⟨n, _⟩ = true
        rw [flush4]; exact decide_eq_true h⟩) d
    · rw [(dats m 0 c).before_of_pos 4 ⟨n + 1, hn⟩ (Nat.succ_ne_zero n) ((cfg0.win 4).fetch_out rfl _) d]
      have hfl : (cfg0.win 4).flush ⟨n, Nat.lt_of_succ_lt hn⟩ = false := by
        rw [flush4]; exact decide_eq_false h
      have hid : cfg0.idle 4 (cfg0.grid.coords ⟨n, Nat.lt_of_succ_lt hn⟩) = true := by
        rw [idle4]; exact decide_eq_true (by show n < 16; omega)
      show (if (cfg0.win 4).flush ⟨n, Nat.lt_of_succ_lt hn⟩ = true then d else (dats m 0 c).left 4 ⟨n, Nat.lt_of_succ_lt hn⟩ d) = d
      rw [hfl, if_neg Bool.false_ne_true]
      unfold Dat.left; rw [hid]
      exact before0_4 c n (Nat.lt_of_succ_lt hn) d

end Cert.Kernel.Hand

end
-- ==== Proof.Bits.KRows.lean ====
/-
  Reading a batch row of the resident copy back after one row was overwritten: the overwritten row reads as the
  block written, every other row as before.
-/
import proofs.«147999_g2000502477920874_pallasbulk_293_3_alg».proof.Proof.Bits.KConds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The row just written reads back as the block written. -/
theorem rowget_rowset_self {e : EltTy} (X : S16x256x3136.Idx → Elt F e) (n : ℕ) (hn : n < 16) (blk : S1x256x3136.Idx → Elt F e) :
    rowget (rowset X n blk) n = blk := by
  funext y
  unfold rowget rowset
  rw [if_pos (show ((⟨n % 16, Nat.mod_lt _ (by decide)⟩ : Fin 16)).val = n from Nat.mod_eq_of_lt hn)]
  congr 1
  funext d
  match d with
  | ⟨0, h0⟩ => exact Fin.ext (by
      have h1 : (y ⟨0, h0⟩).val < S1x256x3136.size ⟨0, h0⟩ := (y ⟨0, h0⟩).isLt
      have h2 : S1x256x3136.size ⟨0, h0⟩ = 1 := rfl
      show 0 = (y ⟨0, h0⟩).val; omega)
  | ⟨1, _⟩ => rfl
  | ⟨2, _⟩ => rfl

/-- Any other row reads back as it was. -/
theorem rowget_rowset_other {e : EltTy} (X : S16x256x3136.Idx → Elt F e) (n b : ℕ) (hb : b < 16) (hne : b ≠ n) (blk : S1x256x3136.Idx → Elt F e) :
    rowget (rowset X n blk) b = rowget X b := by
  funext y
  unfold rowget rowset
  rw [if_neg (show ¬((⟨b % 16, Nat.mod_lt _ (by decide)⟩ : Fin 16)).val = n from by show ¬ b % 16 = n; rw [Nat.mod_eq_of_lt hb]; exact hne)]

end Cert.Kernel.Hand

end
-- ==== Proof.Bits.KBlocks.lean ====
/-
  Each input window's block, read off the array the region finds: the weight and the two batch-norm columns are
  their whole arrays at every point; the image window's block at point t is batch image t in phase 0 and stays on
  image 15 throughout phase 1.
-/
import proofs.«147999_g2000502477920874_pallasbulk_293_3_alg».proof.Proof.Bits.KDat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The weight window's block is the whole weight. -/
theorem iblk0 (c : Dev nD) (t : Fin cfg0.N) : iblk m c 0 t = warr m c := by
  funext y
  unfold iblk
  rw [View.read_apply]
  show V m c main_arg1 _ = V m c main_arg1 y
  congr 1
  funext a
  apply Fin.ext
  match a with
  | ⟨0, _⟩ => show win0_0.index t 0 * 256 + 1 * (y 0).val = (y 0).val; rw [idx0 t 0]; omega
  | ⟨1, _⟩ => show win0_0.index t 1 * 256 + 1 * (y 1).val = (y 1).val; rw [idx0 t 1]; omega

/-- The scale window's block is the whole scale column. -/
theorem iblk1 (c : Dev nD) (t : Fin cfg0.N) : iblk m c 1 t = garr m c := by
  funext y
  unfold iblk
  rw [View.read_apply]
  show V m c main_v1 _ = V m c main_v1 y
  congr 1
  funext a
  apply Fin.ext
  match a with
  | ⟨0, _⟩ => show win0_1.index t 0 * 256 + 1 * (y 0).val = (y 0).val; rw [idx1 t 0]; omega
  | ⟨1, _⟩ => show win0_1.index t 1 * 1 + 1 * (y 1).val = (y 1).val; rw [idx1 t 1]; omega

/-- The offset window's block is the whole offset column. -/
theorem iblk2 (c : Dev nD) (t : Fin cfg0.N) : iblk m c 2 t = barr m c := by
  funext y
  unfold iblk
  rw [View.read_apply]
  show V m c main_v2 _ = V m c main_v2 y
  congr 1
  funext a
  apply Fin.ext
  match a with
  | ⟨0, _⟩ => show win0_2.index t 0 * 256 + 1 * (y 0).val = (y 0).val; rw [idx2 t 0]; omega
  | ⟨1, _⟩ => show win0_2.index t 1 * 1 + 1 * (y 1).val = (y 1).val; rw [idx2 t 1]; omega

/-- The image window's block: image t in phase 0, image 15 in phase 1. -/
theorem iblk3 (c : Dev nD) (t : Fin cfg0.N) : iblk m c 3 t = xblk (xarr m c) (if t.val < 16 then t.val else 15) := by
  have h0 : win0_3.index t 0 = if t.val < 16 then t.val else 15 := by rw [idx3 t]; rfl
  have h1 : win0_3.index t 1 = 0 := by rw [idx3 t]; rfl
  have h2 : win0_3.index t 2 = 0 := by rw [idx3 t]; rfl
  have hn : (if t.val < 16 then t.val else 15) % 16 = if t.val < 16 then t.val else 15 := by
    split_ifs <;> omega
  funext y
  unfold iblk xblk
  rw [View.read_apply]
  show V m c main_v0 _ = V m c main_v0 _
  congr 1
  funext a
  apply Fin.ext
  match a with
  | ⟨0, _⟩ =>
    show win0_3.index t 0 * 1 + 1 * (y 0).val = (if t.val < 16 then t.val else 15) % 16
    have hy : (y 0).val < 1 := (y 0).isLt
    rw [h0, hn]; omega
  | ⟨1, _⟩ => show win0_3.index t 1 * 256 + 1 * (y 1).val = (y 1).val; rw [h1]; omega
  | ⟨2, _⟩ => show win0_3.index t 2 * 3136 + 1 * (y 2).val = (y 2).val; rw [h2]; omega

end Cert.Kernel.Hand

end
-- ==== Proof.Bits.KTripleA.lean ====
/-
  The body at the grid's first point (phase 0, batch 0): the accumulators are reset, then image 0 is narrowed into row 0 of the resident copy and its Gram matrix and row sums are added to the fresh accumulators.
-/
import proofs.«147999_g2000502477920874_pallasbulk_293_3_alg».proof.Proof.Bits.KConds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable [Facts]

/-- The zero offsets of a rank-2 access, however spelt. -/
private theorem hz2 : (![0, 0] : Fin 2 → ℕ) = fun _ => 0 := by
  funext a; fin_cases a <;> rfl

/-- The zero offsets of a rank-3 access, however spelt. -/
private theorem hz3 : (![0, 0, 0] : Fin 3 → ℕ) = fun _ => 0 := by
  funext a; fin_cases a <;> rfl

/-- A store through the whole-shape rectangle, made last, leaves its payload whatever was stored before. -/
private theorem read_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-- A load through the whole-shape rectangle of a whole buffer reads its contents. -/
private theorem readAt_whole {sg : RefSig} {κ : Kind} {sp : Space} {S : Shape} {e : EltTy} (m : Memref sg κ sp S e)
    (hm : m.IsWhole) {off : Fin S.rank → ℕ} (h : off = fun _ => 0) (inb : ∀ a, off a + S.size a ≤ S.size a)
    (X : S.Idx → Elt F e) :
    m.view.readAt (Elt F) (Rect.unit off S.size inb).toLoadRect (hm.unread X) = X := by
  rw [View.readAt_eq_ld, hm.read_unread, View.ld_unit_zero h]

/-- The batch coordinate of a grid point, as a 32-bit word read back as a number, is itself (it is below 16). -/
private theorem k0_off1_eq (i : grid0.Coords) : k0_off1 i = ![(i 1).val, 0, 0] := by
  have h : (i 1).val < 16 := (i 1).isLt
  unfold k0_off1
  simp only [Scalar.indexCast]
  congr 1
  rw [BitVec.toNat_ofNat]
  exact Nat.mod_eq_of_lt (by omega)

/-- After ONE store of a [1, 256, 3136] block at batch row `n` of a [16, 256, 3136] buffer whose contents read `X`, the
    buffer reads `X` with row `n` replaced by the block. -/
private theorem read_rowset {sg : RefSig} {κ : Kind} {sp : Space} {e : EltTy} (v : View sg κ sp S16x256x3136 e)
    (f : v.ty.Contents (Elt F)) (X : S16x256x3136.Idx → Elt F e) (hX : v.read (Elt F) f = X)
    (off : Fin 3 → ℕ) (n : ℕ) (hoff : off = ![n, 0, 0]) (inb : ∀ a, off a + S1x256x3136.size a ≤ S16x256x3136.size a)
    (w : S1x256x3136.Idx → Elt F e) :
    v.read (Elt F) (v.writes (Elt F) f [⟨Rect.unit (s := S16x256x3136) off S1x256x3136.size inb, w⟩]) = rowset X n w := by
  subst hoff
  funext q
  unfold rowset
  by_cases h : (q 0).val = n
  · rw [if_pos h]
    have hmem : q ∈ (Rect.unit (s := S16x256x3136) ![n, 0, 0] S1x256x3136.size inb).set := by
      rw [Rect.mem_set_unit]
      intro a
      match a with
      | ⟨0, _⟩ =>
        show n ≤ (q 0).val ∧ (q 0).val < n + 1
        omega
      | ⟨1, _⟩ =>
        have := (q 1).isLt
        show 0 ≤ (q 1).val ∧ (q 1).val < 0 + 256
        exact ⟨Nat.zero_le _, by simpa using this⟩
      | ⟨2, _⟩ =>
        have := (q 2).isLt
        show 0 ≤ (q 2).val ∧ (q 2).val < 0 + 3136
        exact ⟨Nat.zero_le _, by simpa using this⟩
    obtain ⟨x, hx⟩ : ∃ x, (Rect.unit (s := S16x256x3136) ![n, 0, 0] S1x256x3136.size inb).emb x = q :=
      (Rect.unit (s := S16x256x3136) ![n, 0, 0] S1x256x3136.size inb).exists_idx_of_mem hmem
    have key := View.read_writes_cons_emb v f (Rect.unit (s := S16x256x3136) ![n, 0, 0] S1x256x3136.size inb) w [] x
    rw [hx] at key
    rw [key]
    congr 1
    funext d
    apply Fin.ext
    match d with
    | ⟨0, _⟩ =>
      have h1 : (x 0).val < 1 := (x 0).isLt
      show (x 0).val = 0
      omega
    | ⟨1, _⟩ =>
      have := congrArg (fun y : S16x256x3136.Idx => (y 1).val) hx
      simp only [Rect.emb_apply] at this
      show (x 1).val = (q 1).val
      have h0 : (Rect.unit (s := S16x256x3136) ![n, 0, 0] S1x256x3136.size inb).off 1 = 0 := rfl
      have h1 : (Rect.unit (s := S16x256x3136) ![n, 0, 0] S1x256x3136.size inb).stride 1 = 1 := rfl
      rw [h0, h1] at this
      omega
    | ⟨2, _⟩ =>
      have := congrArg (fun y : S16x256x3136.Idx => (y 2).val) hx
      simp only [Rect.emb_apply] at this
      show (x 2).val = (q 2).val
      have h0 : (Rect.unit (s := S16x256x3136) ![n, 0, 0] S1x256x3136.size inb).off 2 = 0 := rfl
      have h1 : (Rect.unit (s := S16x256x3136) ![n, 0, 0] S1x256x3136.size inb).stride 2 = 1 := rfl
      rw [h0, h1] at this
      omega
  · rw [if_neg h]
    have hnot : ∀ p ∈ ([⟨Rect.unit (s := S16x256x3136) ![n, 0, 0] S1x256x3136.size inb, w⟩] : List (View.Piece (Elt F) S16x256x3136 e)), q ∉ p.1.set := by
      intro p hp
      rw [List.mem_singleton] at hp
      subst hp
      intro hm
      have hm' : q ∈ (Rect.unit (s := S16x256x3136) ![n, 0, 0] S1x256x3136.size inb).set := hm
      have h0 := (Rect.mem_set_unit.mp hm') 0
      have h1 : (![n, 0, 0] : Fin 3 → ℕ) 0 = n := rfl
      have h2 : S1x256x3136.size 0 = 1 := rfl
      rw [h1, h2] at h0
      exact h (by omega)
    rw [View.read_writes_apply_of_forall_not_mem v f q _ hnot, hX]

/-- The body at the grid's first point (phase 0, batch 0): the accumulators are reset, then image 0 is narrowed into row 0 of the resident copy and its Gram matrix and row sums are added to the fresh accumulators. -/
theorem tripleA (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : cond0 i) (hc1 : cond1 i) (hc2 : ¬cond2 i) (hc3 : ¬cond3 i)
    (x0 : Vec F S256x256 .f32) (x1 : Vec F S256x1 .f32) (x2 : Vec F S256x1 .f32) (x3 : Vec F S1x256x3136 .f32) (xs7 : Vec F S16x256x3136 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (rowset xs7 (i 1).val (k0_pay5 x3)) ∗ owns (c : Thread nD τ) arg8 fullShare (k0_pay6 x3 k0_pay1) ∗ owns (c : Thread nD τ) arg9 fullShare (k0_pay7 x3 k0_pay2) ∗ (∃ d, owns (c : Thread nD τ) arg10 fullShare d) ∗ (∃ d, owns (c : Thread nD τ) arg11 fullShare d)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]; unfold cc0__fused_body_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2
  obtain rfl := harg3.eq_unread hf3
  obtain rfl := harg4.eq_unread hf4
  obtain rfl := harg5.eq_unread hf5
  obtain rfl := harg7.eq_unread hf7
  sl_exec (disch := first | exact hc0 | exact hc1 | exact hc2 | exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _, _; isplitr; swap; · iexact H6
    ipureintro; rfl
  isplitl [H7]
  · iexists _; isplitr; swap; · iexact H7
    ipureintro
    rw [readAt_whole arg5 harg5 hz3]
    exact read_rowset arg7.view (harg7.unread xs7) xs7 (harg7.read_unread xs7) (k0_off1 i) (i 1).val (k0_off1_eq i) _ (k0_pay5 x3)
  isplitl [H8]
  · iexists _; isplitr; swap; · iexact H8
    ipureintro
    sl_unfold_words
    rw [read_store_whole (S := S256x256) arg8.view f8 hz2 inb_S256x256_S256x256_0_0,
      readAt_whole arg5 harg5 hz3, View.readCov_unit_zero (S := S256x256) arg8.view hz2]
  isplitl [H9]
  · iexists _; isplitr; swap; · iexact H9
    ipureintro
    sl_unfold_words
    rw [read_store_whole (S := S256x1) arg9.view f9 hz2 inb_S256x1_S256x1_0_0,
      readAt_whole arg5 harg5 hz3, View.readCov_unit_zero (S := S256x1) arg9.view hz2]
  isplitl [H10]
  · iexists _, _; isplitr; swap; · iexact H10
    ipureintro; rfl
  iexists _, _; isplitr; swap; · iexact H11
  ipureintro; rfl

end Cert.Kernel.Hand

end
-- ==== Proof.Bits.KTripleB.lean ====
/-
  The body at a middle point of phase 0 (batch 1 to 14): the image is narrowed into its row of the resident copy and its Gram matrix and row sums are added to the accumulators.
-/
import proofs.«147999_g2000502477920874_pallasbulk_293_3_alg».proof.Proof.Bits.KConds
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable [Facts]

/-- The all-zero offsets of a whole-buffer access of rank 2, -/
private theorem hz2 : (![0, 0] : Fin 2 → ℕ) = fun _ => 0 := funext fun a => by fin_cases a <;> rfl

/-- and of rank 3. -/
private theorem hz3 : (![0, 0, 0] : Fin 3 → ℕ) = fun _ => 0 := funext fun a => by fin_cases a <;> rfl

/-- The batch coordinate survives the round trip through a 32-bit word: it is below 16. So the stored row of the
    resident copy starts at `(batch, 0, 0)`. -/
private theorem off1_eq (i : grid0.Coords) : k0_off1 i = ![(i 1).val, 0, 0] := by
  have h16 : (i 1).val < 16 := (i 1).isLt
  have h : (Scalar.indexCast (BitVec.ofNat 32 (i 1).val)).toNat = (i 1).val := by
    show (BitVec.ofNat 32 (i 1).val).toNat = (i 1).val
    rw [BitVec.toNat_ofNat]; exact Nat.mod_eq_of_lt (by omega)
  unfold k0_off1
  simp only [h]

/-- A store through the whole buffer, made last, leaves its payload: every index lies under it. -/
private theorem read_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- One batch row stored into the resident copy: an index of that row reads the stored block at its row and pixel, any
    other index reads what was there before. -/
private theorem read_row (arg7 : Memref sig .tc .vmem S16x256x3136 .bf16) (harg7 : arg7.IsWhole) (i : grid0.Coords)
    (inb : ∀ a, (k0_off1 i) a + S1x256x3136.size a ≤ S16x256x3136.size a) (xs7 : Vec F S16x256x3136 .bf16)
    (blk : Vec F S1x256x3136 .bf16) :
    arg7.view.read (Elt F) (arg7.view.writes (Elt F) (harg7.unread xs7)
      [(⟨Rect.unit (k0_off1 i) S1x256x3136.size inb, blk⟩ : View.Piece (Elt F) S16x256x3136 .bf16)])
      = rowset xs7 (i 1).val blk := by
  funext q
  unfold rowset
  by_cases h : (q 0).val = (i 1).val
  · rw [if_pos h]
    refine View.read_writes_cons_unit_of_mem arg7.view _ inb blk [] q _ (off1_eq i) ?_
    intro a
    fin_cases a
    · show (q 0).val = (i 1).val + 0
      omega
    · show (q 1).val = 0 + (q 1).val
      omega
    · show (q 2).val = 0 + (q 2).val
      omega
  · rw [if_neg h]
    refine (View.read_writes_cons_unit_of_not_mem arg7.view _ inb blk [] q (off1_eq i) 0 ?_).trans ?_
    · show (q 0).val < (i 1).val ∨ (i 1).val + 1 ≤ (q 0).val
      omega
    · rw [View.writes_nil]
      exact congrFun (harg7.read_unread xs7) q

/-- The body at a middle point of phase 0 (batch 1 to 14): the image is narrowed into its row of the resident copy and its Gram matrix and row sums are added to the accumulators. -/
theorem tripleB (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : ¬cond0 i) (hc1 : cond1 i) (hc2 : ¬cond2 i) (hc3 : ¬cond3 i)
    (x0 : Vec F S256x256 .f32) (x1 : Vec F S256x1 .f32) (x2 : Vec F S256x1 .f32) (x3 : Vec F S1x256x3136 .f32) (xs7 : Vec F S16x256x3136 .bf16) (xs8 : Vec F S256x256 .f32) (xs9 : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ owns (c : Thread nD τ) arg9 fullShare xs9 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (rowset xs7 (i 1).val (k0_pay5 x3)) ∗ owns (c : Thread nD τ) arg8 fullShare (k0_pay6 x3 xs8) ∗ owns (c : Thread nD τ) arg9 fullShare (k0_pay7 x3 xs9) ∗ (∃ d, owns (c : Thread nD τ) arg10 fullShare d) ∗ (∃ d, owns (c : Thread nD τ) arg11 fullShare d)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, ⟨%d10, %f10, -, H10⟩, ⟨%d11, %f11, -, H11⟩, Hk⟩
  obtain rfl := harg2.eq_unread hf0; obtain rfl := harg3.eq_unread hf1; obtain rfl := harg4.eq_unread hf2
  obtain rfl := harg5.eq_unread hf3; obtain rfl := harg7.eq_unread hf7; obtain rfl := harg8.eq_unread hf8
  obtain rfl := harg9.eq_unread hf9
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _, _; isplitr; swap; · iexact H6
    ipureintro; rfl
  isplitl [H7]
  · iexists _; isplitr; swap; · iexact H7
    ipureintro
    simp only [View.readAt_eq_ld, harg5.read_unread, View.ld_unit_zero (S := S1x256x3136) hz3]
    exact read_row arg7 harg7 i _ xs7 (k0_pay5 x3)
  isplitl [H8]
  · iexists _; isplitr; swap; · iexact H8
    ipureintro
    sl_unfold_words
    refine (read_whole _ _ hz2 _ _ _).trans ?_
    simp only [View.readAt_eq_ld, harg5.read_unread, harg8.read_unread, View.ld_unit_zero (S := S1x256x3136) hz3,
      View.ld_unit_zero (S := S256x256) hz2]
  isplitl [H9]
  · iexists _; isplitr; swap; · iexact H9
    ipureintro
    sl_unfold_words
    refine (read_whole _ _ hz2 _ _ _).trans ?_
    simp only [View.readAt_eq_ld, harg5.read_unread, harg9.read_unread, View.ld_unit_zero (S := S1x256x3136) hz3,
      View.ld_unit_zero (S := S256x1) hz2]
  isplitl [H10]
  · iexists _, _; isplitr; swap; · iexact H10
    ipureintro; rfl
  · iexists _, _; isplitr; swap; · iexact H11
    ipureintro; rfl

end Cert.Kernel.Hand

end
-- ==== Proof.Bits.KTripleC.lean ====
/-
  The body at the last point of phase 0 (batch 15): the image is narrowed and accumulated as at a middle point, then the folded weight and the additive term are derived from the completed statistics and stored.
-/
import proofs.«147999_g2000502477920874_pallasbulk_293_3_alg».proof.Proof.Bits.KConds
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable [Facts]

/-- The all-zero offsets of a whole-buffer access of rank 2, -/
private theorem hz2 : (![0, 0] : Fin 2 → ℕ) = fun _ => 0 := funext fun a => by fin_cases a <;> rfl

/-- and of rank 3. -/
private theorem hz3 : (![0, 0, 0] : Fin 3 → ℕ) = fun _ => 0 := funext fun a => by fin_cases a <;> rfl

/-- The batch coordinate survives the round trip through a 32-bit word: it is below 16. So the stored row of the
    resident copy starts at `(batch, 0, 0)`. -/
private theorem off1_eq (i : grid0.Coords) : k0_off1 i = ![(i 1).val, 0, 0] := by
  have h16 : (i 1).val < 16 := (i 1).isLt
  have h : (Scalar.indexCast (BitVec.ofNat 32 (i 1).val)).toNat = (i 1).val := by
    show (BitVec.ofNat 32 (i 1).val).toNat = (i 1).val
    rw [BitVec.toNat_ofNat]; exact Nat.mod_eq_of_lt (by omega)
  unfold k0_off1
  simp only [h]

/-- A store through the whole buffer, made last, leaves its payload: every index lies under it. -/
private theorem read_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-- One batch row stored into the resident copy: an index of that row reads the stored block at its row and pixel, any
    other index reads what was there before. -/
private theorem read_row (arg7 : Memref sig .tc .vmem S16x256x3136 .bf16) (harg7 : arg7.IsWhole) (i : grid0.Coords)
    (inb : ∀ a, (k0_off1 i) a + S1x256x3136.size a ≤ S16x256x3136.size a) (xs7 : Vec F S16x256x3136 .bf16)
    (blk : Vec F S1x256x3136 .bf16) :
    arg7.view.read (Elt F) (arg7.view.writes (Elt F) (harg7.unread xs7)
      [(⟨Rect.unit (k0_off1 i) S1x256x3136.size inb, blk⟩ : View.Piece (Elt F) S16x256x3136 .bf16)])
      = rowset xs7 (i 1).val blk := by
  funext q
  unfold rowset
  by_cases h : (q 0).val = (i 1).val
  · rw [if_pos h]
    refine View.read_writes_cons_unit_of_mem arg7.view _ inb blk [] q _ (off1_eq i) ?_
    intro a
    fin_cases a
    · show (q 0).val = (i 1).val + 0
      omega
    · show (q 1).val = 0 + (q 1).val
      omega
    · show (q 2).val = 0 + (q 2).val
      omega
  · rw [if_neg h]
    refine (View.read_writes_cons_unit_of_not_mem arg7.view _ inb blk [] q (off1_eq i) 0 ?_).trans ?_
    · show (q 0).val < (i 1).val ∨ (i 1).val + 1 ≤ (q 0).val
      omega
    · rw [View.writes_nil]
      exact congrFun (harg7.read_unread xs7) q

/-- The body at the last point of phase 0 (batch 15): the image is narrowed and accumulated as at a middle point, then the folded weight and the additive term are derived from the completed statistics and stored. -/
theorem tripleC (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : ¬cond0 i) (hc1 : cond1 i) (hc2 : cond2 i) (hc3 : ¬cond3 i)
    (x0 : Vec F S256x256 .f32) (x1 : Vec F S256x1 .f32) (x2 : Vec F S256x1 .f32) (x3 : Vec F S1x256x3136 .f32) (xs7 : Vec F S16x256x3136 .bf16) (xs8 : Vec F S256x256 .f32) (xs9 : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ owns (c : Thread nD τ) arg9 fullShare xs9 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare (rowset xs7 (i 1).val (k0_pay5 x3)) ∗ owns (c : Thread nD τ) arg8 fullShare (k0_pay6 x3 xs8) ∗ owns (c : Thread nD τ) arg9 fullShare (k0_pay7 x3 xs9) ∗ owns (c : Thread nD τ) arg10 fullShare (k0_pay12 x0 (k0_pay6 x3 xs8) (k0_pay7 x3 xs9) x1) ∗ owns (c : Thread nD τ) arg11 fullShare (k0_pay11 x0 (k0_pay6 x3 xs8) (k0_pay7 x3 xs9) x1 x2)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, ⟨%d10, %f10, -, H10⟩, ⟨%d11, %f11, -, H11⟩, Hk⟩
  obtain rfl := harg2.eq_unread hf0; obtain rfl := harg3.eq_unread hf1; obtain rfl := harg4.eq_unread hf2
  obtain rfl := harg5.eq_unread hf3; obtain rfl := harg7.eq_unread hf7; obtain rfl := harg8.eq_unread hf8
  obtain rfl := harg9.eq_unread hf9
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _, _; isplitr; swap; · iexact H6
    ipureintro; rfl
  isplitl [H7]
  · iexists _; isplitr; swap; · iexact H7
    ipureintro
    simp only [View.readAt_eq_ld, harg5.read_unread, View.ld_unit_zero (S := S1x256x3136) hz3]
    exact read_row arg7 harg7 i _ xs7 (k0_pay5 x3)
  isplitl [H8]
  · iexists _; isplitr; swap; · iexact H8
    ipureintro
    sl_unfold_words
    refine (read_whole _ _ hz2 _ _ _).trans ?_
    simp only [View.readAt_eq_ld, harg5.read_unread, harg8.read_unread, View.ld_unit_zero (S := S1x256x3136) hz3,
      View.ld_unit_zero (S := S256x256) hz2]
  isplitl [H9]
  · iexists _; isplitr; swap; · iexact H9
    ipureintro
    sl_unfold_words
    refine (read_whole _ _ hz2 _ _ _).trans ?_
    simp only [View.readAt_eq_ld, harg5.read_unread, harg9.read_unread, View.ld_unit_zero (S := S1x256x3136) hz3,
      View.ld_unit_zero (S := S256x1) hz2]
  isplitl [H10]
  · iexists _; isplitr; swap; · iexact H10
    ipureintro
    sl_unfold_words
    refine (read_whole _ _ hz2 _ _ _).trans ?_
    simp only [View.readAt_eq_ld, View.readCov_unit_zero (S := S256x256) _ hz2, View.readCov_unit_zero (S := S256x1) _ hz2,
      harg2.read_unread, harg3.read_unread, harg5.read_unread, harg8.read_unread, harg9.read_unread,
      View.ld_unit_zero (S := S1x256x3136) hz3, View.ld_unit_zero (S := S256x256) hz2, View.ld_unit_zero (S := S256x1) hz2]
  · iexists _; isplitr; swap; · iexact H11
    ipureintro
    sl_unfold_words
    refine (read_whole _ _ hz2 _ _ _).trans ?_
    simp only [View.readAt_eq_ld, View.readCov_unit_zero (S := S256x256) _ hz2, View.readCov_unit_zero (S := S256x1) _ hz2,
      harg2.read_unread, harg3.read_unread, harg4.read_unread, harg5.read_unread, harg8.read_unread, harg9.read_unread,
      View.ld_unit_zero (S := S1x256x3136) hz3, View.ld_unit_zero (S := S256x256) hz2, View.ld_unit_zero (S := S256x1) hz2]

end Cert.Kernel.Hand

end
-- ==== Proof.Bits.KTripleD.lean ====
/-
  The body at a point of phase 1: the folded weight is multiplied with the point's row of the resident copy, the additive term is added, the result is clamped at zero and stored as the output block; every scratch buffer is left as found.
-/
import proofs.«147999_g2000502477920874_pallasbulk_293_3_alg».proof.Proof.Bits.KConds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable [Facts]

/-- Reading the resident copy through the one-row rectangle at batch offset `(i 1)` gives that batch row. -/
private theorem ld_row {e : EltTy} (X : S16x256x3136.Idx → Elt F e) (i : grid0.Coords)
    (inb : ∀ a, (k0_off2 i) a + S1x256x3136.size a ≤ S16x256x3136.size a) :
    View.ld X (Rect.unit (s := S16x256x3136) (k0_off2 i) S1x256x3136.size inb) = rowget X (i 1).val := by
  have hoff := k0_off2_eq i
  have e0 : k0_off2 i 0 = (i 1).val := by rw [hoff]; rfl
  have e1 : k0_off2 i 1 = 0 := by rw [hoff]; rfl
  have e2 : k0_off2 i 2 = 0 := by rw [hoff]; rfl
  have hlt : (i 1).val % 16 = (i 1).val := Nat.mod_eq_of_lt (i 1).isLt
  funext y
  show X _ = X _
  congr 1
  funext d
  apply Fin.ext
  have h0 : (y 0).val = 0 := Nat.lt_one_iff.mp (y 0).isLt
  fin_cases d
  · show (k0_off2 i) 0 + 1 * (y 0).val = (i 1).val % 16
    rw [e0, hlt, h0]; omega
  · show (k0_off2 i) 1 + 1 * (y 1).val = (y 1).val
    rw [e1]; omega
  · show (k0_off2 i) 2 + 1 * (y 2).val = (y 2).val
    rw [e2]; omega

private theorem zeros2 : (![0, 0] : Fin 2 → ℕ) = fun _ => 0 := by funext a; fin_cases a <;> rfl
private theorem zeros3 : (![0, 0, 0] : Fin 3 → ℕ) = fun _ => 0 := by funext a; fin_cases a <;> rfl

/-- One store through the whole-shape rectangle at zero offsets leaves its payload, whatever was there. -/
private theorem read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩),
    View.canon_unit_zero h]

/-- The body at a point of phase 1: the folded weight is multiplied with the point's row of the resident copy, the additive term is added, the result is clamped at zero and stored as the output block; every scratch buffer is left as found. -/
theorem tripleD (c : Dev nD) (i : grid0.Coords) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1x256x3136 .f32) (harg5 : arg5.IsWhole) (arg6 : Memref sig .tc .vmem S1x256x3136 .f32) (harg6 : arg6.IsWhole) (arg7 : Memref sig .tc .vmem S16x256x3136 .bf16) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .bf16) (harg10 : arg10.IsWhole) (arg11 : Memref sig .tc .vmem S256x1 .f32) (harg11 : arg11.IsWhole)
    (hc0 : ¬cond0 i) (hc1 : ¬cond1 i) (hc2 : ¬cond2 i) (hc3 : cond3 i)
    (x0 : Vec F S256x256 .f32) (x1 : Vec F S256x1 .f32) (x2 : Vec F S256x1 .f32) (x3 : Vec F S1x256x3136 .f32) (xs7 : Vec F S16x256x3136 .bf16) (xs10 : Vec F S256x256 .bf16) (xs11 : Vec F S256x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ (∃ d, owns (c : Thread nD τ) arg8 fullShare d) ∗ (∃ d, owns (c : Thread nD τ) arg9 fullShare d) ∗ owns (c : Thread nD τ) arg10 fullShare xs10 ∗ owns (c : Thread nD τ) arg11 fullShare xs11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay8 xs10 (rowget xs7 (i 1).val) xs11) ∗ owns (c : Thread nD τ) arg7 fullShare xs7 ∗ (∃ d, owns (c : Thread nD τ) arg8 fullShare d) ∗ (∃ d, owns (c : Thread nD τ) arg9 fullShare d) ∗ owns (c : Thread nD τ) arg10 fullShare xs10 ∗ owns (c : Thread nD τ) arg11 fullShare xs11) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11) K := by
  simp only [cc0__fused_body_eq_skeleton]
  unfold cc0__fused_body_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf2
  obtain rfl := harg3.eq_unread hf3
  obtain rfl := harg4.eq_unread hf4
  obtain rfl := harg5.eq_unread hf5
  obtain rfl := harg7.eq_unread hf7
  obtain rfl := harg10.eq_unread hf10
  obtain rfl := harg11.eq_unread hf11
  sl_exec (disch := first | exact hc0 | exact hc1 | exact hc2 | exact hc3)
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr; swap
    · iexact H6
    · ipureintro
      rw [read_writes_whole arg6.view f6 zeros3]
      simp only [View.readAt_eq_ld, harg10.read_unread, harg7.read_unread, harg11.read_unread,
        View.ld_unit_zero (S := S256x256) zeros2, View.ld_unit_zero (S := S256x1) zeros2]
      exact congrArg (fun z => k0_pay8 xs10 z xs11) (ld_row xs7 i _)
  isplitl [H7]
  · iexists _; isplitr
    · ipureintro; exact harg7.read_unread _
    · iexact H7
  isplitl [H8]
  · iexists _, _; isplitr; swap
    · iexact H8
    · ipureintro; rfl
  isplitl [H9]
  · iexists _, _; isplitr; swap
    · iexact H9
    · ipureintro; rfl
  isplitl [H10]
  · iexists _; isplitr
    · ipureintro; exact harg10.read_unread _
    · iexact H10
  · iexists _; isplitr
    · ipureintro; exact harg11.read_unread _
    · iexact H11

end Cert.Kernel.Hand

end
-- ==== Proof.Bits.KBody.lean ====
/-
  The body obligation: at every grid point, from the invariant and every window's staging buffer at what it then
  holds, the kernel's body runs to the invariant at the next point with every staging buffer at what the proof data
  says it leaves. Four cases by the point: the first (accumulators reset), a middle point of phase 0, the last point of
  phase 0 (statistics folded), a point of phase 1 (an output block produced).
-/
import proofs.«147999_g2000502477920874_pallasbulk_293_3_alg».proof.Proof.Bits.KDat
import proofs.«147999_g2000502477920874_pallasbulk_293_3_alg».proof.Proof.Bits.KRows
import proofs.«147999_g2000502477920874_pallasbulk_293_3_alg».proof.Proof.Bits.KBlocks
import proofs.«147999_g2000502477920874_pallasbulk_293_3_alg».proof.Proof.Bits.KTripleA
import proofs.«147999_g2000502477920874_pallasbulk_293_3_alg».proof.Proof.Bits.KTripleB
import proofs.«147999_g2000502477920874_pallasbulk_293_3_alg».proof.Proof.Bits.KTripleC
import proofs.«147999_g2000502477920874_pallasbulk_293_3_alg».proof.Proof.Bits.KTripleD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The accumulators, step by step -/

theorem Gacc_first (x : Vec F S16x256x3136 .f32) (n : ℕ) (h : n = 0) : Gacc x n = k0_pay6 (xblk x n) k0_pay1 := by
  subst h; rfl
theorem Gacc_step (x : Vec F S16x256x3136 .f32) (n : ℕ) (h : n ≠ 0) : Gacc x n = k0_pay6 (xblk x n) (Gacc x (n - 1)) := by
  cases n with
  | zero => exact absurd rfl h
  | succ k => rfl
theorem sacc_first (x : Vec F S16x256x3136 .f32) (n : ℕ) (h : n = 0) : sacc x n = k0_pay7 (xblk x n) k0_pay2 := by
  subst h; rfl
theorem sacc_step (x : Vec F S16x256x3136 .f32) (n : ℕ) (h : n ≠ 0) : sacc x n = k0_pay7 (xblk x n) (sacc x (n - 1)) := by
  cases n with
  | zero => exact absurd rfl h
  | succ k => rfl

/-- The invariant before a point that is not the first. -/
theorem PhiK_pos (c : Dev nD) (n : ℕ) (h : n ≠ 0) : PhiK m c n = PhiK m c ((n - 1) + 1) := by
  cases n with
  | zero => exact absurd rfl h
  | succ k => rfl

/-! ## The staging memrefs the body is called with -/

abbrev ms0 (t : Fin cfg0.N) : Memref sig .tc .vmem S256x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x3136 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x3136 .f32 := win0_4.stage (cfg0.slots t 4)
abbrev hs4 (t : Fin cfg0.N) : (ms4 t).IsWhole := hstage0_4 ((cfg0.slots t 4).cast nbuf0_4)

/-! ## What each window's buffer is left at -/

theorem before0_4' (c : Dev nD) (t : Fin cfg0.N) (d) : (dats m 0 c).before 4 t d = d := before0_4 m c t.val t.isLt d

theorem leaves0 (c : Dev nD) (t : Fin cfg0.N) : (dats m 0 c).leavesExact 0 t = owns (c : Thread nD τ) (ms0 t) fullShare (warr m c) := by
  unfold Dat.leavesExact; rw [show cfg0.idle 0 (cfg0.grid.coords t) = false from rfl, after0_0, iblk0]
theorem leaves1 (c : Dev nD) (t : Fin cfg0.N) : (dats m 0 c).leavesExact 1 t = owns (c : Thread nD τ) (ms1 t) fullShare (garr m c) := by
  unfold Dat.leavesExact; rw [show cfg0.idle 1 (cfg0.grid.coords t) = false from rfl, after0_1, iblk1]
theorem leaves2 (c : Dev nD) (t : Fin cfg0.N) : (dats m 0 c).leavesExact 2 t = owns (c : Thread nD τ) (ms2 t) fullShare (barr m c) := by
  unfold Dat.leavesExact; rw [show cfg0.idle 2 (cfg0.grid.coords t) = false from rfl, after0_2, iblk2]
theorem leaves3 (c : Dev nD) (t : Fin cfg0.N) : (dats m 0 c).leavesExact 3 t = owns (c : Thread nD τ) (ms3 t) fullShare (xblk (xarr m c) (if t.val < 16 then t.val else 15)) := by
  unfold Dat.leavesExact; rw [show cfg0.idle 3 (cfg0.grid.coords t) = false from rfl, after0_3, iblk3]
/-- In phase 0 the output's buffer is handed back as found. -/
theorem leaves4_idle (c : Dev nD) (t : Fin cfg0.N) (h : t.val < 16) :
    (dats m 0 c).leavesExact 4 t = iprop(∃ d, owns (c : Thread nD τ) (ms4 t) fullShare d) := by
  rw [Dat.leavesExact_idle (dats m 0 c) 4 t ((idle4 t).trans (decide_eq_true h)) ((flush4 t).trans (decide_eq_false (by omega)))]
  simp only [before0_4']
  rfl
/-- In phase 1 it is left at the point's output block. -/
theorem leaves4_live (c : Dev nD) (t : Fin cfg0.N) (h : 16 ≤ t.val) :
    (dats m 0 c).leavesExact 4 t = owns (c : Thread nD τ) (ms4 t) fullShare (oblkW m c (t.val - 16)) := by
  unfold Dat.leavesExact; rw [(idle4 t).trans (decide_eq_false (by omega)), after0_4]

/-! ## The obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4', iblk0, iblk1, iblk2, iblk3]
  rw [show (dats m 0 c).owesAt () t.succ = (dats m 0 c).owesAt () t.castSucc from rfl]
  rw [Phi_castSucc, Phi_succ, PhiK_succ, leaves0, leaves1, leaves2, leaves3]
  have hN : t.val < 32 := lt_of_lt_of_eq t.isLt (show cfg0.N = 32 from N_0)
  have hco : (grid0.coords t 1).val = t.val % 16 := coord1 t
  by_cases h16 : t.val < 16
  · rw [leaves4_idle m c t h16, if_pos h16]
    have hc1 : cond1 (grid0.coords t) := (hcond1 t).mpr h16
    have hc3 : ¬cond3 (grid0.coords t) := fun h => absurd ((hcond3 t).mp h) (by omega)
    have hco' : (grid0.coords t 1).val = t.val := by rw [hco]; exact Nat.mod_eq_of_lt h16
    by_cases h0 : t.val = 0
    · -- the first point
      have hc0 : cond0 (grid0.coords t) := (hcond0 t).mpr h0
      have hc2 : ¬cond2 (grid0.coords t) := fun h => absurd ((hcond2 t).mp h) (by omega)
      rw [show PhiK m c t.val = Pipeline.ΦA spec0 c from by rw [h0, PhiK_zero], PhiA0_eq]
      rw [if_pos (show t.val < 15 by omega), if_pos (show t.val < 15 by omega), if_neg (show ¬15 ≤ t.val by omega), if_neg (show ¬15 ≤ t.val by omega)]
      rw [Gacc_first _ _ h0, sacc_first _ _ h0]
      iintro ⟨⟨⟨⟨%x7, HS0⟩, HS1, HS2, HS3, HS4⟩, Hg⟩, Ho, ⟨%d0, H0⟩, ⟨%d1, H1⟩, ⟨%d2, H2⟩, ⟨%d3, H3⟩, ⟨%d4, H4⟩⟩
      iapply (tripleA c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) t.val) x7 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, H4, HS0, HS1, HS2, HS3, HS4⟩
      isplitl [HS0 HS1 HS2 HS3 HS4 Hg]
      · isplitl [HS0]
        · iexists (rowset x7 (grid0.coords t 1).val (k0_pay5 (xblk (xarr m c) t.val))); isplitr
          · ipureintro
            intro b hb hb16
            have hbt : b = t.val := by omega
            subst hbt; rw [hco']; exact rowget_rowset_self x7 _ hb16 _
          iexact HS0
        isplitl [HS1]; · iexact HS1
        isplitl [HS2]; · iexact HS2
        isplitl [HS3]; · iexact HS3
        isplitl [HS4]; · iexact HS4
        iexact Hg
      isplitl [Ho]; · iexact Ho
      isplitl [H0]; · iexact H0
      isplitl [H1]; · iexact H1
      isplitl [H2]; · iexact H2
      isplitl [H3]; · iexact H3
      iexact H4
    · have hc0 : ¬cond0 (grid0.coords t) := fun h => h0 ((hcond0 t).mp h)
      rw [PhiK_pos m c t.val h0, PhiK_succ]
      rw [if_pos (show t.val - 1 < 15 by omega), if_pos (show t.val - 1 < 15 by omega), if_neg (show ¬15 ≤ t.val - 1 by omega), if_neg (show ¬15 ≤ t.val - 1 by omega)]
      by_cases h15 : t.val = 15
      · -- the last point of phase 0
        have hc2 : cond2 (grid0.coords t) := (hcond2 t).mpr h15
        rw [if_neg (show ¬t.val < 15 by omega), if_neg (show ¬t.val < 15 by omega), if_pos (show 15 ≤ t.val by omega), if_pos (show 15 ≤ t.val by omega)]
        have e8 : k0_pay6 (xblk (xarr m c) t.val) (Gacc (xarr m c) (t.val - 1)) = Gacc (xarr m c) 15 := by
          rw [← Gacc_step _ _ h0, h15]
        have e9 : k0_pay7 (xblk (xarr m c) t.val) (sacc (xarr m c) (t.val - 1)) = sacc (xarr m c) 15 := by
          rw [← sacc_step _ _ h0, h15]
        iintro ⟨⟨⟨%x7, %hx7, HS0⟩, HS1, HS2, HS3, HS4, Hg⟩, Ho, ⟨%d0, H0⟩, ⟨%d1, H1⟩, ⟨%d2, H2⟩, ⟨%d3, H3⟩, ⟨%d4, H4⟩⟩
        iapply (tripleC c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) t.val) x7 (Gacc (xarr m c) (t.val - 1)) (sacc (xarr m c) (t.val - 1)) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        rw [e8, e9]
        isplitl [HS0 HS1 HS2 HS3 HS4 Hg]
        · isplitl [HS0]
          · iexists (rowset x7 (grid0.coords t 1).val (k0_pay5 (xblk (xarr m c) t.val))); isplitr
            · ipureintro
              intro b hb hb16
              by_cases hbt : b = t.val
              · subst hbt; rw [hco']; exact rowget_rowset_self x7 _ hb16 _
              · rw [hco', rowget_rowset_other x7 t.val b hb16 hbt]; exact hx7 b (by omega) hb16
            iexact HS0
          isplitl [HS1]; · iexists _; iexact HS1
          isplitl [HS2]; · iexists _; iexact HS2
          isplitl [HS3]; · iexact HS3
          isplitl [HS4]; · iexact HS4
          iexact Hg
        isplitl [Ho]; · iexact Ho
        isplitl [H0]; · iexact H0
        isplitl [H1]; · iexact H1
        isplitl [H2]; · iexact H2
        isplitl [H3]; · iexact H3
        iexact H4
      · -- a middle point of phase 0
        have hc2 : ¬cond2 (grid0.coords t) := fun h => h15 ((hcond2 t).mp h)
        rw [if_pos (show t.val < 15 by omega), if_pos (show t.val < 15 by omega), if_neg (show ¬15 ≤ t.val by omega), if_neg (show ¬15 ≤ t.val by omega)]
        rw [Gacc_step _ t.val h0, sacc_step _ t.val h0]
        iintro ⟨⟨⟨%x7, %hx7, HS0⟩, HS1, HS2, HS3, HS4, Hg⟩, Ho, ⟨%d0, H0⟩, ⟨%d1, H1⟩, ⟨%d2, H2⟩, ⟨%d3, H3⟩, ⟨%d4, H4⟩⟩
        iapply (tripleB c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) t.val) x7 (Gacc (xarr m c) (t.val - 1)) (sacc (xarr m c) (t.val - 1)) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        isplitl [HS4]; · iexact HS4
        iintro ⟨H0, H1, H2, H3, H4, HS0, HS1, HS2, HS3, HS4⟩
        isplitl [HS0 HS1 HS2 HS3 HS4 Hg]
        · isplitl [HS0]
          · iexists (rowset x7 (grid0.coords t 1).val (k0_pay5 (xblk (xarr m c) t.val))); isplitr
            · ipureintro
              intro b hb hb16
              by_cases hbt : b = t.val
              · subst hbt; rw [hco']; exact rowget_rowset_self x7 _ hb16 _
              · rw [hco', rowget_rowset_other x7 t.val b hb16 hbt]; exact hx7 b (by omega) hb16
            iexact HS0
          isplitl [HS1]; · iexact HS1
          isplitl [HS2]; · iexact HS2
          isplitl [HS3]; · iexact HS3
          isplitl [HS4]; · iexact HS4
          iexact Hg
        isplitl [Ho]; · iexact Ho
        isplitl [H0]; · iexact H0
        isplitl [H1]; · iexact H1
        isplitl [H2]; · iexact H2
        isplitl [H3]; · iexact H3
        iexact H4
  · -- a point of phase 1
    have h16' : 16 ≤ t.val := by omega
    have h0 : t.val ≠ 0 := by omega
    rw [leaves4_live m c t h16', if_neg h16]
    have hc0 : ¬cond0 (grid0.coords t) := fun h => h0 ((hcond0 t).mp h)
    have hc1 : ¬cond1 (grid0.coords t) := fun h => h16 ((hcond1 t).mp h)
    have hc2 : ¬cond2 (grid0.coords t) := fun h => absurd ((hcond2 t).mp h) (by omega)
    have hc3 : cond3 (grid0.coords t) := (hcond3 t).mpr h16'
    have hco' : (grid0.coords t 1).val = t.val - 16 := by rw [hco]; omega
    rw [PhiK_pos m c t.val h0, PhiK_succ]
    rw [if_neg (show ¬t.val - 1 < 15 by omega), if_neg (show ¬t.val - 1 < 15 by omega), if_pos (show 15 ≤ t.val - 1 by omega), if_pos (show 15 ≤ t.val - 1 by omega)]
    rw [if_neg (show ¬t.val < 15 by omega), if_neg (show ¬t.val < 15 by omega), if_pos (show 15 ≤ t.val by omega), if_pos (show 15 ≤ t.val by omega)]
    iintro ⟨⟨⟨%x7, %hx7, HS0⟩, HS1, HS2, HS3, HS4, Hg⟩, Ho, ⟨%d0, H0⟩, ⟨%d1, H1⟩, ⟨%d2, H2⟩, ⟨%d3, H3⟩, ⟨%d4, H4⟩⟩
    iapply (tripleD c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) hc0 hc1 hc2 hc3 (warr m c) (garr m c) (barr m c) (xblk (xarr m c) 15) x7 (wfV (xarr m c) (warr m c) (garr m c)) (shiftV (xarr m c) (warr m c) (garr m c) (barr m c)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, H4, HS0, HS1, HS2, HS3, HS4⟩
    have e4 : k0_pay8 (wfV (xarr m c) (warr m c) (garr m c)) (rowget x7 (grid0.coords t 1).val) (shiftV (xarr m c) (warr m c) (garr m c) (barr m c))
        = oblk (xarr m c) (warr m c) (garr m c) (barr m c) (t.val - 16) := by
      rw [hco', hx7 (t.val - 16) (by omega) (by omega)]; rfl
    isplitl [HS0 HS1 HS2 HS3 HS4 Hg]
    · isplitl [HS0]
      · iexists x7; isplitr
        · ipureintro
          intro b hb hb16
          exact hx7 b (by omega) hb16
        iexact HS0
      isplitl [HS1]; · iexact HS1
      isplitl [HS2]; · iexact HS2
      isplitl [HS3]; · iexact HS3
      isplitl [HS4]; · iexact HS4
      iexact Hg
    isplitl [Ho]; · iexact Ho
    isplitl [H0]; · iexact H0
    isplitl [H1]; · iexact H1
    isplitl [H2]; · iexact H2
    isplitl [H3]; · iexact H3
    rw [e4]; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Bits.KFinal.lean ====
/-
  The output array after the run: every phase-1 point writes its output block back over batch row (t - 16), these
  sixteen blocks tile the array, so the array ends as the array of output blocks.
-/
import proofs.«147999_g2000502477920874_pallasbulk_293_3_alg».proof.Proof.Bits.KDat
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- An entry of the array of output blocks is the matching entry of the block its batch row names. -/
theorem outArr_emb (x3 : Vec F S16x256x3136 .f32) (w : Vec F S256x256 .f32) (g2 b2 : Vec F S256x1 .f32)
    (b : ℕ) (q : S16x256x3136.Idx) (y : S1x256x3136.Idx)
    (h0 : (q 0).val = b) (h1 : (q 1).val = (y 1).val) (h2 : (q 2).val = (y 2).val) :
    outArr x3 w g2 b2 q = oblk x3 w g2 b2 b y := by
  unfold outArr
  rw [h0]
  congr 1
  funext d
  match d with
  | ⟨0, _⟩ => exact Fin.ext (by have h : (y 0).val < 1 := (y 0).isLt; show 0 = (y 0).val; omega)
  | ⟨1, _⟩ => exact Fin.ext h1
  | ⟨2, _⟩ => exact Fin.ext h2

variable (m : (ℓ : Loc nD τ sig) → Buf (Elt F) ℓ)

/-- The array of output blocks, at the output window's array type. -/
abbrev outArrW (c : Dev nD) : Buf (Elt F) ((cfg0.win 4).arr.view.loc (c.tc : Thread nD τ)) :=
  outArr (xarr m c) (warr m c) (garr m c) (barr m c)

/-- What a write-back writes is its block of the array of output blocks. -/
theorem flushed_eq (c : Dev nD) (t : Fin cfg0.N) (hf : (cfg0.win 4).flush t = true) :
    (dats m 0 c).flushed 4 t = ((cfg0.win 4).blk t).view.read (Elt F) (outArrW m c) := by
  have h16 : 16 ≤ t.val := by rw [flush4] at hf; exact of_decide_eq_true hf
  have i0 : win0_4.index t 0 = t.val - 16 := by rw [idx4]; rfl
  have i1 : win0_4.index t 1 = 0 := by rw [idx4]; rfl
  have i2 : win0_4.index t 2 = 0 := by rw [idx4]; rfl
  show (cfg0.win 4).cut (grid0.coords t) ((dats m 0 c).after 4 t) = _
  rw [after0_4]
  funext y
  rw [View.read_apply]
  refine (outArr_emb (xarr m c) (warr m c) (garr m c) (barr m c) (t.val - 16)
    (((cfg0.win 4).blk t).view.emb y) ((cfg0.win 4).xinj (grid0.coords t) y) ?_ ?_ ?_).symm
  · show win0_4.index t 0 * 1 + 1 * (y 0).val = t.val - 16
    have h : (y 0).val < 1 := (y 0).isLt
    rw [i0]; omega
  · show win0_4.index t 1 * 256 + 1 * (y 1).val = (y 1).val
    rw [i1]; omega
  · show win0_4.index t 2 * 3136 + 1 * (y 2).val = (y 2).val
    rw [i2]; omega

/-- The output array ends as the array of output blocks. -/
theorem final (c : Dev nD) : (dats m 0 c).arrAt 4 cfg0.N = outArrW m c := by
  refine (dats m 0 c).arrAt_eq_of_cover 4 (outArrW m c) (flushed_eq m c) fun i => ?_
  have hN : cfg0.N = 32 := N_0
  have h0 : (i 0 : Nat) < 16 := (i 0).isLt
  have h1 : (i 1 : Nat) < 256 := (i 1).isLt
  have h2 : (i 2 : Nat) < 3136 := (i 2).isLt
  let t : Fin cfg0.N := ⟨16 + (i 0 : Nat), by rw [hN]; omega⟩
  have ht : t.val = 16 + (i 0 : Nat) := rfl
  have i0 : win0_4.index t 0 = t.val - 16 := by rw [idx4]; rfl
  have i1 : win0_4.index t 1 = 0 := by rw [idx4]; rfl
  have i2 : win0_4.index t 2 = 0 := by rw [idx4]; rfl
  refine ⟨t, by rw [flush4]; exact decide_eq_true (by omega), ?_⟩
  show i ∈ ((View.whole main_v3).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [i0]; omega
  | ⟨1, _⟩ =>
    show win0_4.index t 1 * 256 ≤ (i 1 : Nat) ∧ (i 1 : Nat) < win0_4.index t 1 * 256 + 256
    rw [i1]; omega
  | ⟨2, _⟩ =>
    show win0_4.index t 2 * 3136 ≤ (i 2 : Nat) ∧ (i 2 : Nat) < win0_4.index t 2 * 3136 + 3136
    rw [i2]; omega

end Cert.Kernel.Hand

end
-- ==== Proof.Bits.KHost.lean ====
/-
  The host lines around the region: three reshapes before it (the activations flattened to [16, 256, 3136], the
  scale and the offset made columns) and one after it (the output array reshaped to [16, 256, 56, 56]).
-/
import proofs.«147999_g2000502477920874_pallasbulk_293_3_alg».proof.Proof.Bits.KDat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The region finds the activations flattened. -/
theorem xarr_eq (c : Dev nD) : xarr m c = shapeCast S16x256x3136 (m ((c.tc : Thread nD τ).loc main_arg0)) Facts₀.shapeCasts_S16x256x56x56_S16x256x3136 := by
  show StableHlo.after (List.flatten [hostOps0]) (fun b => m (c, b)) (Proc.devRef .tc main_v0) = _
  simp only [hostOps0, List.flatten_cons, List.flatten_nil, List.append_nil]
  after_results
  rfl
/-- The region finds the weight as launched. -/
theorem warr_eq (c : Dev nD) : warr m c = m ((c.tc : Thread nD τ).loc main_arg1) := V_main_arg1 m c
/-- The region finds the scale as a column. -/
theorem garr_eq (c : Dev nD) : garr m c = shapeCast S256x1 (m ((c.tc : Thread nD τ).loc main_arg2)) Facts₀.shapeCasts_S256_S256x1 := by
  show StableHlo.after (List.flatten [hostOps0]) (fun b => m (c, b)) (Proc.devRef .tc main_v1) = _
  simp only [hostOps0, List.flatten_cons, List.flatten_nil, List.append_nil]
  after_results
  rfl
/-- The region finds the offset as a column. -/
theorem barr_eq (c : Dev nD) : barr m c = shapeCast S256x1 (m ((c.tc : Thread nD τ).loc main_arg3)) Facts₀.shapeCasts_S256_S256x1 := by
  show StableHlo.after (List.flatten [hostOps0]) (fun b => m (c, b)) (Proc.devRef .tc main_v2) = _
  simp only [hostOps0, List.flatten_cons, List.flatten_nil, List.append_nil]
  after_results
  rfl

/-- The result after the line that follows the region: the output array reshaped. -/
theorem tail_v4 (c : Dev nD) :
    Pipeline.afterTail₀ cfgs (dats m) 0 (V0 m) [hostOps1] c main_v4
      = shapeCast S16x256x56x56 ((dats m 0 c).arrAt 4 cfg0.N) Facts₀.shapeCasts_S16x256x3136_S16x256x56x56 := by
  unfold Pipeline.afterTail₀
  show StableHlo.after hostOps1 _ (Proc.devRef .tc main_v4) = _
  after_results
  exact congrArg (fun X => shapeCast S16x256x56x56 X Facts₀.shapeCasts_S16x256x3136_S16x256x56x56)
    (Pipeline.withArrays_arr spec0 launch0.win.arr_inj c _ _ 4)

end Cert.Kernel.Hand

end
-- ==== Proof.Bits.KRun.lean ====
/-
  The fused kernel's whole run, named: at any float instance, @main terminates, its result array is the
  array of output blocks (each the folded weight times the narrowed image plus the additive term, clamped at zero)
  reshaped to [16, 256, 56, 56], and the four argument arrays end as launched.
-/
import proofs.«147999_g2000502477920874_pallasbulk_293_3_alg».proof.Proof.Bits.KBody
import proofs.«147999_g2000502477920874_pallasbulk_293_3_alg».proof.Proof.Bits.KFinal
import proofs.«147999_g2000502477920874_pallasbulk_293_3_alg».proof.Proof.Bits.KHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiK m c 0 from rfl, PhiK_zero]

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiK m c cfg0.N from rfl, show cfg0.N = 31 + 1 from N_0, PhiK_succ, PhiA0_eq]
  rw [if_neg (show ¬31 < 15 by decide), if_neg (show ¬31 < 15 by decide), if_pos (show 15 ≤ 31 by decide), if_pos (show 15 ≤ 31 by decide)]
  iintro ⟨⟨%x7, %hx7, HS0⟩, HS1, HS2, HS3, HS4, Hg⟩
  isplitl [HS0 HS1 HS2 HS3 HS4]
  · isplitl [HS0]; · iexists _; iexact HS0
    isplitl [HS1]; · iexact HS1
    isplitl [HS2]; · iexact HS2
    isplitl [HS3]; · iexists _; iexact HS3
    iexists _; iexact HS4
  iexact Hg

/-! ## The run -/

set_option backward.isDefEq.respectTransparency.types false in
/-- Every weakly fair execution of @main terminates, and every final state has every array of the pipeline at what the
    proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The array of output blocks over the arguments as launched. -/
theorem outArr_launched (c : Dev nD) :
    outArrW m c = outArr (shapeCast S16x256x3136 (m ((c.tc : Thread nD τ).loc main_arg0)) Facts₀.shapeCasts_S16x256x56x56_S16x256x3136) (m ((c.tc : Thread nD τ).loc main_arg1)) (shapeCast S256x1 (m ((c.tc : Thread nD τ).loc main_arg2)) Facts₀.shapeCasts_S256_S256x1) (shapeCast S256x1 (m ((c.tc : Thread nD τ).loc main_arg3)) Facts₀.shapeCasts_S256_S256x1) := by
  show outArr (xarr m c) (warr m c) (garr m c) (barr m c) = _
  rw [xarr_eq, warr_eq, garr_eq, barr_eq]

/-- The run with its result named and its arguments unchanged, at the program's own side conditions. -/
theorem run_named_at (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = shapeCast S16x256x56x56 (outArr (shapeCast S16x256x3136 (m ((c.tc : Thread nD τ).loc main_arg0)) Facts₀.shapeCasts_S16x256x56x56_S16x256x3136) (m ((c.tc : Thread nD τ).loc main_arg1)) (shapeCast S256x1 (m ((c.tc : Thread nD τ).loc main_arg2)) Facts₀.shapeCasts_S256_S256x1) (shapeCast S256x1 (m ((c.tc : Thread nD τ).loc main_arg3)) Facts₀.shapeCasts_S256_S256x1)) Facts₀.shapeCasts_S16x256x3136_S16x256x56x56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans
        ((tail_v4 m c).trans (by rw [final m c, outArr_launched m c])),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

/-- The run of @main with its result named and its arguments unchanged. -/
theorem run_named [Facts] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = shapeCast S16x256x56x56 (outArr (shapeCast S16x256x3136 (m ((c.tc : Thread nD τ).loc main_arg0)) Facts₀.shapeCasts_S16x256x56x56_S16x256x3136) (m ((c.tc : Thread nD τ).loc main_arg1)) (shapeCast S256x1 (m ((c.tc : Thread nD τ).loc main_arg2)) Facts₀.shapeCasts_S256_S256x1) (shapeCast S256x1 (m ((c.tc : Thread nD τ).loc main_arg3)) Facts₀.shapeCasts_S256_S256x1)) Facts₀.shapeCasts_S16x256x3136_S16x256x56x56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_named_at m ρ

end Cert.Kernel.Hand

end
-- ==== Proof.RDefs.lean ====
/-
  The reference program's two kernels as functions of the arrays they are launched on, over extended reals.

  The statistics kernel walks a grid of 2 splits × 8 images × 5 column tiles over the zero-padded activations
  `xp` of shape [16, 256, 3200]: within split `s` its 40 points, numbered `n = 5·b + mt`, read image `8s + b` at
  the 640 columns of tile `mt`, and add that tile's Gram matrix and row sums into the split's two accumulators.
  The apply kernel writes, tile by tile, the clamped affine image of the padded activations.
-/
import Idealize.ShloMosaic.PureOps.Ideal
import Idealize.ShloMosaic.Lib.ValueIdx

noncomputable section

namespace Cert.ReferenceIdeal.Hand

open Idealize.ShloMosaic Idealize.ShloMosaic.ValueIdx
open scoped BigOperators

/-- [16, 256, 3200]: the activations with the pixel axis padded from 3136 to 3200 = 5 · 640. -/
abbrev SP : Shape := ⟨3, ![16, 256, 3200]⟩
/-- [2, 256, 256]: one partial Gram matrix per split of the batch. -/
abbrev SG : Shape := ⟨3, ![2, 256, 256]⟩
/-- [2, 256, 1]: one partial row-sum column per split. -/
abbrev SR : Shape := ⟨3, ![2, 256, 1]⟩
/-- [256, 256]: a weight. -/
abbrev SM : Shape := ⟨2, ![256, 256]⟩
/-- [256, 1]: a per-channel column. -/
abbrev SV : Shape := ⟨2, ![256, 1]⟩

/-- The image point `n` of split `s` reads: `8s + n / 5`. -/
def pimg (s : Fin 2) (n : Fin 40) : Fin 16 := ⟨8 * s.val + n.val / 5, by omega⟩
/-- Column `j` of the tile point `n` reads: `640 · (n mod 5) + j`. -/
def pcol (n : Fin 40) (j : Fin 640) : Fin 3200 := ⟨640 * (n.val % 5) + j.val, by omega⟩

/-- Split `s`'s partial Gram matrix: over its 40 points, the tile's products of row `i` with row `k`. -/
def gramP (xp : SP.Idx → EReal) : SG.Idx → EReal := fun q =>
  ∑ n : Fin 40, ∑ j : Fin 640, xp (ix3 (pimg (q 0) n) (q 1) (pcol n j)) * xp (ix3 (pimg (q 0) n) (q 2) (pcol n j))
/-- Split `s`'s partial row sums. -/
def rsumP (xp : SP.Idx → EReal) : SR.Idx → EReal := fun q =>
  ∑ n : Fin 40, ∑ j : Fin 640, xp (ix3 (pimg (q 0) n) (q 1) (pcol n j))
/-- The apply kernel's array: `max (∑ₖ wf[i,k] · xp[b,k,p] + sh[i,0]) 0` at `(b, i, p)`. -/
def applyP (wf : SM.Idx → EReal) (sh : SV.Idx → EReal) (xp : SP.Idx → EReal) : SP.Idx → EReal := fun q =>
  max ((∑ k : Fin 256, wf (ix2 (q 1) k) * xp (ix3 (q 0) k (q 2))) + sh (ix2 (q 1) (0 : Fin 1))) 0

end Cert.ReferenceIdeal.Hand

end
-- ==== Proof.RPadDef.lean ====
/-
  The zero padding of the pixel axis: the activations [16, 256, 3136] extended by 64 zero columns to [16, 256, 3200],
  so that the pixel axis splits into 5 tiles of 640 columns.
-/
import proofs.«147999_g2000502477920874_pallasbulk_293_3_alg».proof.Proof.RDefs
import proofs.«147999_g2000502477920874_pallasbulk_293_3_alg».proof.Proof.Spec

noncomputable section

namespace Cert.ReferenceIdeal.Hand

open Idealize.ShloMosaic Idealize.ShloMosaic.ValueIdx
open scoped BigOperators

/-- The padded activations: the array inside the first 3136 columns, zero beyond them. -/
def padX (x3 : Cert.Spec.S3.Idx → EReal) : SP.Idx → EReal := fun q =>
  if h : (q 2).val < 3136 then x3 (ix3 (q 0) (q 1) ⟨(q 2).val, h⟩) else 0

theorem padX_of_lt (x3 : Cert.Spec.S3.Idx → EReal) (b : Fin 16) (k : Fin 256) (p : Fin 3200) (h : p.val < 3136) :
    padX x3 (ix3 b k p) = x3 (ix3 b k ⟨p.val, h⟩) := dif_pos h

theorem padX_of_not_lt (x3 : Cert.Spec.S3.Idx → EReal) (b : Fin 16) (k : Fin 256) (p : Fin 3200) (h : ¬p.val < 3136) :
    padX x3 (ix3 b k p) = 0 := dif_neg h

end Cert.ReferenceIdeal.Hand

end
-- ==== Proof.RAlg.lean ====
/-
  The two splits' partial statistics of the zero-padded activations add up to the statistics of the activations.

  A split's partial sum runs over its 40 grid points `n = 5·b + mt` and the 640 columns of a tile; the pair
  `(s, n) ↦ 8s + n / 5` enumerates the 16 images and `(n, j) ↦ 640·(n mod 5) + j` the 3200 padded columns, once each.
  Beyond column 3136 the padded array is zero, and `0 · 0 = 0`, `a + 0 = a` hold on the extended reals, so the tail
  of every column sum vanishes. Only commutativity and associativity of `+` are used: no distributivity, no finiteness.
-/
import proofs.«147999_g2000502477920874_pallasbulk_293_3_alg».proof.Proof.RPadDef
import Mathlib.Algebra.BigOperators.Fin
import Mathlib.Logic.Equiv.Fin.Basic

noncomputable section

namespace Cert.ReferenceIdeal.Hand

open Idealize.ShloMosaic Idealize.ShloMosaic.ValueIdx
open scoped BigOperators

/-- The 40 points of a split are the pairs (image within the split, column tile): `n = 5·b + mt`. -/
def e40 : Fin 8 × Fin 5 ≃ Fin 40 where
  toFun p := ⟨5 * p.1.val + p.2.val, by omega⟩
  invFun n := (⟨n.val / 5, by omega⟩, ⟨n.val % 5, by omega⟩)
  left_inv p := by
    apply Prod.ext
    · apply Fin.ext
      show (5 * p.1.val + p.2.val) / 5 = p.1.val
      omega
    · apply Fin.ext
      show (5 * p.1.val + p.2.val) % 5 = p.2.val
      omega
  right_inv n := by
    apply Fin.ext
    show 5 * (n.val / 5) + n.val % 5 = n.val
    omega

/-- The 16 images are the pairs (split, image within the split): `b = 8·s + b'`. -/
def e16 : Fin 2 × Fin 8 ≃ Fin 16 where
  toFun p := ⟨8 * p.1.val + p.2.val, by omega⟩
  invFun n := (⟨n.val / 8, by omega⟩, ⟨n.val % 8, by omega⟩)
  left_inv p := by
    apply Prod.ext
    · apply Fin.ext
      show (8 * p.1.val + p.2.val) / 8 = p.1.val
      omega
    · apply Fin.ext
      show (8 * p.1.val + p.2.val) % 8 = p.2.val
      omega
  right_inv n := by
    apply Fin.ext
    show 8 * (n.val / 8) + n.val % 8 = n.val
    omega

/-- The 3200 padded columns are the pairs (column tile, column within the tile): `p = 640·mt + j`. -/
def e3200 : Fin 5 × Fin 640 ≃ Fin 3200 where
  toFun p := ⟨640 * p.1.val + p.2.val, by omega⟩
  invFun n := (⟨n.val / 640, by omega⟩, ⟨n.val % 640, by omega⟩)
  left_inv p := by
    apply Prod.ext
    · apply Fin.ext
      show (640 * p.1.val + p.2.val) / 640 = p.1.val
      omega
    · apply Fin.ext
      show (640 * p.1.val + p.2.val) % 640 = p.2.val
      omega
  right_inv n := by
    apply Fin.ext
    show 640 * (n.val / 640) + n.val % 640 = n.val
    omega

/-- Point `5·b + mt` of split `s` reads image `8·s + b`. -/
theorem pimg_e40 (s : Fin 2) (b : Fin 8) (mt : Fin 5) : pimg s (e40 (b, mt)) = e16 (s, b) := by
  apply Fin.ext
  show 8 * s.val + (5 * b.val + mt.val) / 5 = 8 * s.val + b.val
  omega

/-- Column `j` of the tile of point `5·b + mt` is padded column `640·mt + j`. -/
theorem pcol_e40 (b : Fin 8) (mt : Fin 5) (j : Fin 640) : pcol (e40 (b, mt)) j = e3200 (mt, j) := by
  apply Fin.ext
  show 640 * ((5 * b.val + mt.val) % 5) + j.val = 640 * mt.val + j.val
  omega

/-- Summing over the splits, their points and a tile's columns is summing over the images and the padded columns: each
    pair (image, padded column) is met once. -/
theorem sum_split_grid {M : Type*} [AddCommMonoid M] (f : Fin 16 → Fin 3200 → M) :
    ∑ s : Fin 2, ∑ n : Fin 40, ∑ j : Fin 640, f (pimg s n) (pcol n j) = ∑ b : Fin 16, ∑ p : Fin 3200, f b p := by
  have h3200 : ∀ g : Fin 3200 → M, ∑ mt : Fin 5, ∑ j : Fin 640, g (e3200 (mt, j)) = ∑ p : Fin 3200, g p := fun g =>
    (Fintype.sum_prod_type (fun x : Fin 5 × Fin 640 => g (e3200 x))).symm.trans (Equiv.sum_comp e3200 g)
  have h16 : ∀ g : Fin 16 → M, ∑ s : Fin 2, ∑ b : Fin 8, g (e16 (s, b)) = ∑ b : Fin 16, g b := fun g =>
    (Fintype.sum_prod_type (fun x : Fin 2 × Fin 8 => g (e16 x))).symm.trans (Equiv.sum_comp e16 g)
  have h40 : ∀ g : Fin 40 → M, ∑ n : Fin 40, g n = ∑ b : Fin 8, ∑ mt : Fin 5, g (e40 (b, mt)) := fun g =>
    (Equiv.sum_comp e40 g).symm.trans (Fintype.sum_prod_type (fun x : Fin 8 × Fin 5 => g (e40 x)))
  calc ∑ s : Fin 2, ∑ n : Fin 40, ∑ j : Fin 640, f (pimg s n) (pcol n j)
      = ∑ s : Fin 2, ∑ b : Fin 8, ∑ mt : Fin 5, ∑ j : Fin 640, f (e16 (s, b)) (e3200 (mt, j)) := by
        refine Finset.sum_congr rfl fun s _ => ?_
        rw [h40 (fun n => ∑ j : Fin 640, f (pimg s n) (pcol n j))]
        refine Finset.sum_congr rfl fun b _ => Finset.sum_congr rfl fun mt _ => Finset.sum_congr rfl fun j _ => ?_
        rw [pimg_e40, pcol_e40]
    _ = ∑ s : Fin 2, ∑ b : Fin 8, ∑ p : Fin 3200, f (e16 (s, b)) p :=
        Finset.sum_congr rfl fun s _ => Finset.sum_congr rfl fun b _ => h3200 (fun p => f (e16 (s, b)) p)
    _ = ∑ b : Fin 16, ∑ p : Fin 3200, f b p := h16 (fun b => ∑ p : Fin 3200, f b p)

/-- A sum over the 3200 padded columns of terms that vanish beyond column 3136 is the sum over the first 3136. -/
theorem sum_pad_tail {M : Type*} [AddCommMonoid M] (g : Fin 3200 → M) (hz : ∀ p : Fin 3200, ¬p.val < 3136 → g p = 0) :
    ∑ p : Fin 3200, g p = ∑ j : Fin 3136, g ⟨j.val, by omega⟩ := by
  have h := Fin.sum_univ_add (M := M) (a := 3136) (b := 64) g
  have ht : ∑ i : Fin 64, g (Fin.natAdd 3136 i) = 0 :=
    Finset.sum_eq_zero fun i _ => hz _ (by show ¬3136 + i.val < 3136; omega)
  rw [ht, add_zero] at h
  exact h

/-- The row sums: the two splits' partial sums of the padded array add up to the sum over batch and pixels. -/
theorem sum_rsumP_padX (x3 : Cert.Spec.S3.Idx → EReal) (k : Fin 256) :
    ∑ s : Fin 2, rsumP (padX x3) (ix3 s k (0 : Fin 1)) = Cert.Spec.rsum x3 k := by
  unfold Cert.Spec.rsum
  show ∑ s : Fin 2, ∑ n : Fin 40, ∑ j : Fin 640, padX x3 (ix3 (pimg s n) k (pcol n j)) = _
  rw [sum_split_grid (fun b p => padX x3 (ix3 b k p))]
  refine Finset.sum_congr rfl fun b _ => ?_
  rw [sum_pad_tail (fun p => padX x3 (ix3 b k p)) (fun p hp => padX_of_not_lt x3 b k p hp)]
  refine Finset.sum_congr rfl fun j _ => ?_
  exact padX_of_lt x3 b k ⟨j.val, by omega⟩ j.isLt

/-- The Gram matrix: the two splits' partial Gram matrices of the padded array add up to the Gram matrix. -/
theorem sum_gramP_padX (x3 : Cert.Spec.S3.Idx → EReal) (l k : Fin 256) :
    ∑ s : Fin 2, gramP (padX x3) (ix3 s l k) = Cert.Spec.gram x3 l k := by
  unfold Cert.Spec.gram
  show ∑ s : Fin 2, ∑ n : Fin 40, ∑ j : Fin 640,
    padX x3 (ix3 (pimg s n) l (pcol n j)) * padX x3 (ix3 (pimg s n) k (pcol n j)) = _
  rw [sum_split_grid (fun b p => padX x3 (ix3 b l p) * padX x3 (ix3 b k p))]
  refine Finset.sum_congr rfl fun b _ => ?_
  rw [sum_pad_tail (fun p => padX x3 (ix3 b l p) * padX x3 (ix3 b k p)) (fun p hp => by
    show padX x3 (ix3 b l p) * padX x3 (ix3 b k p) = 0
    rw [padX_of_not_lt x3 b l p hp, zero_mul])]
  refine Finset.sum_congr rfl fun j _ => ?_
  show padX x3 (ix3 b l ⟨j.val, _⟩) * padX x3 (ix3 b k ⟨j.val, _⟩) = _
  rw [padX_of_lt x3 b l ⟨j.val, by omega⟩ j.isLt, padX_of_lt x3 b k ⟨j.val, by omega⟩ j.isLt]

end Cert.ReferenceIdeal.Hand

end
-- ==== Proof.RSlice.lean ====
import proofs.«147999_g2000502477920874_pallasbulk_293_3_alg».proof.Proof.RPadDef
import proofs.«147999_g2000502477920874_pallasbulk_293_3_alg».proof.Proof.Gen.ReferenceIdeal
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

/-- The first 3136 columns of the apply kernel's array on the padded activations: the padding never enters them, so
    each entry is the clamped affine image of the activations' own column. -/
theorem slice_applyP_padX (wf : SM.Idx → EReal) (sh : SV.Idx → EReal) (x3 : Cert.Spec.S3.Idx → EReal) :
    extractStridedSlice S16x256x3136 ![0, 0, 0] (applyP wf sh (padX x3)) slices_S16x256x3200_S16x256x3136_0_0_0
      = fun q : Cert.Spec.S3.Idx => max ((∑ k : Fin 256, wf (ix2 (q 1) k) * x3 (ix3 (q 0) k (q 2))) + sh (ix2 (q 1) (0 : Fin 1))) 0 := by
  funext q
  obtain ⟨b, i, p, rfl⟩ : ∃ (b : Fin 16) (i : Fin 256) (p : Fin 3136), q = ix3 b i p := ⟨q 0, q 1, q 2, eq_ix3 q⟩
  have hp : p.val < 3136 := p.isLt
  have hP : p.val < 3200 := by omega
  have e : extractStridedSlice S16x256x3136 ![0, 0, 0] (applyP wf sh (padX x3)) slices_S16x256x3200_S16x256x3136_0_0_0 (ix3 b i p)
      = applyP wf sh (padX x3) (ix3 b i (⟨p.val, hP⟩ : Fin 3200)) := by
    unfold extractStridedSlice
    refine congrArg (applyP wf sh (padX x3)) (funext fun a => Fin.ext ?_)
    match a with
    | ⟨0, _⟩ => show 0 + b.val = b.val; omega
    | ⟨1, _⟩ => show 0 + i.val = i.val; omega
    | ⟨2, _⟩ => show 0 + p.val = p.val; omega
  refine e.trans ?_
  unfold applyP
  show max ((∑ k : Fin 256, wf (ix2 i k) * padX x3 (ix3 b k (⟨p.val, hP⟩ : Fin 3200))) + sh (ix2 i (0 : Fin 1))) 0
      = max ((∑ k : Fin 256, wf (ix2 i k) * x3 (ix3 b k p)) + sh (ix2 i (0 : Fin 1))) 0
  refine congrArg₂ max (congrArg₂ (· + ·) (Finset.sum_congr rfl fun k _ => ?_) rfl) rfl
  exact congrArg (wf (ix2 i k) * ·) (padX_of_lt x3 b k (⟨p.val, hP⟩ : Fin 3200) hp)

end Cert.ReferenceIdeal.Hand

end
-- ==== Proof.R0Pieces.lean ====
import proofs.«147999_g2000502477920874_pallasbulk_293_3_alg».proof.Proof.RDefs
import proofs.«147999_g2000502477920874_pallasbulk_293_3_alg».proof.Proof.Gen.ReferenceIdeal.Frame

import Idealize.ShloMosaic.Lib.Pipeline.Value
import Idealize.ShloMosaic.PureOps.Ideal.Laws
import Idealize.ShloMosaic.Lib.ValueLayout

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable {F : FTy → Type} [FloatOps F]

/-- The zero offsets of a rank-3 block, as the constant function. -/
theorem hz3 : (![0, 0, 0] : Fin 3 → Nat) = fun _ => 0 := funext fun a => by fin_cases a <;> rfl

/-- At an accumulating point the Gram block left behind is the update of the block found there: one store
    of the whole block, its operands the whole input tile and the whole block as found. -/
theorem out0_B_1_eq (c : Dev nD) (i : grid0.Coords) (a3 : Memref sig .tc .vmem S1x256x640 .f32) (h3 : a3.IsWhole)
    (a4 : Memref sig .tc .vmem S1x256x256 .f32) (h4 : a4.IsWhole) (a5 : Memref sig .tc .vmem S1x256x1 .f32) (h5 : a5.IsWhole)
    (hc : ¬cond0_0 i) (x0 : Vec F S1x256x640 .f32) (xo1 : Vec F S1x256x256 .f32) (xo2 : Vec F S1x256x1 .f32) :
    out0_B_1 c i a3 h3 a4 h4 a5 h5 hc x0 xo1 xo2 = k0_pay4 x0 xo1 := by
  unfold out0_B_1
  rw [View.read_writes_eq_canon _ _ _ (cover0_B_1 c i a3 h3 a4 h4 a5 h5 hc x0 xo1 xo2)]
  unfold kernelRun0_B
  dsimp only
  sl_unfold_words
  rw [View.canon_unit_zero hz3]
  simp only [View.readAt_eq_ld, h3.read_unread, h4.read_unread, View.ld_unit_zero (S := S1x256x640) hz3,
    View.ld_unit_zero (S := S1x256x256) hz3]

/-- At an accumulating point the row-sum block left behind is the update of the block found there. -/
theorem out0_B_2_eq (c : Dev nD) (i : grid0.Coords) (a3 : Memref sig .tc .vmem S1x256x640 .f32) (h3 : a3.IsWhole)
    (a4 : Memref sig .tc .vmem S1x256x256 .f32) (h4 : a4.IsWhole) (a5 : Memref sig .tc .vmem S1x256x1 .f32) (h5 : a5.IsWhole)
    (hc : ¬cond0_0 i) (x0 : Vec F S1x256x640 .f32) (xo1 : Vec F S1x256x256 .f32) (xo2 : Vec F S1x256x1 .f32) :
    out0_B_2 c i a3 h3 a4 h4 a5 h5 hc x0 xo1 xo2 = k0_pay5 x0 xo2 := by
  unfold out0_B_2
  rw [View.read_writes_eq_canon _ _ _ (cover0_B_2 c i a3 h3 a4 h4 a5 h5 hc x0 xo1 xo2)]
  unfold kernelRun0_B
  dsimp only
  sl_unfold_words
  rw [View.canon_unit_zero hz3]
  simp only [View.readAt_eq_ld, h3.read_unread, h5.read_unread, View.ld_unit_zero (S := S1x256x640) hz3,
    View.ld_unit_zero (S := S1x256x1) hz3]

/-- At a resetting point the Gram block is first overwritten with the zero block, read back, and updated:
    what is left is the update of the zero block. -/
theorem out0_A_1_eq (c : Dev nD) (i : grid0.Coords) (a3 : Memref sig .tc .vmem S1x256x640 .f32) (h3 : a3.IsWhole)
    (a4 : Memref sig .tc .vmem S1x256x256 .f32) (h4 : a4.IsWhole) (a5 : Memref sig .tc .vmem S1x256x1 .f32) (h5 : a5.IsWhole)
    (hc : cond0_0 i) (x0 : Vec F S1x256x640 .f32) :
    out0_A_1 c i a3 h3 a4 h4 a5 h5 hc x0 = k0_pay4 x0 (k0_pay1 (F := F)) := by
  unfold out0_A_1
  rw [View.read_writes_eq_canon _ _ _ (cover0_A_1 c i a3 h3 a4 h4 a5 h5 hc x0)]
  unfold kernelRun0_A
  dsimp only
  sl_unfold_words
  rw [View.canon_cons_unit_zero (S := S1x256x256) hz3]
  simp only [View.readAt_eq_ld, h3.read_unread, View.ld_unit_zero (S := S1x256x640) hz3,
    View.readCov_unit_zero (S := S1x256x256) _ hz3]

/-- At a resetting point the row-sum block left behind is the update of the zero block. -/
theorem out0_A_2_eq (c : Dev nD) (i : grid0.Coords) (a3 : Memref sig .tc .vmem S1x256x640 .f32) (h3 : a3.IsWhole)
    (a4 : Memref sig .tc .vmem S1x256x256 .f32) (h4 : a4.IsWhole) (a5 : Memref sig .tc .vmem S1x256x1 .f32) (h5 : a5.IsWhole)
    (hc : cond0_0 i) (x0 : Vec F S1x256x640 .f32) :
    out0_A_2 c i a3 h3 a4 h4 a5 h5 hc x0 = k0_pay5 x0 (k0_pay2 (F := F)) := by
  unfold out0_A_2
  rw [View.read_writes_eq_canon _ _ _ (cover0_A_2 c i a3 h3 a4 h4 a5 h5 hc x0)]
  unfold kernelRun0_A
  dsimp only
  sl_unfold_words
  rw [View.canon_cons_unit_zero (S := S1x256x1) hz3]
  simp only [View.readAt_eq_ld, h3.read_unread, View.ld_unit_zero (S := S1x256x640) hz3,
    View.readCov_unit_zero (S := S1x256x1) _ hz3]

end Cert.ReferenceIdeal.Hand

end
-- ==== Proof.R0Pay.lean ====
import proofs.«147999_g2000502477920874_pallasbulk_293_3_alg».proof.Proof.RDefs
import proofs.«147999_g2000502477920874_pallasbulk_293_3_alg».proof.Proof.Gen.ReferenceIdeal.Skeleton
import Idealize.ShloMosaic.Lib.Pipeline.Value
import Idealize.ShloMosaic.PureOps.Ideal.Laws
import Idealize.ShloMosaic.Lib.ValueLayout

set_option maxRecDepth 16384

noncomputable section

namespace Cert.ReferenceIdeal.Hand

open Idealize.ShloMosaic Idealize.ShloMosaic.ValueIdx
open Idealize.SL Idealize.SL.Sem
open Cert.ReferenceIdeal Cert.ReferenceIdeal.Gen
open scoped BigOperators

/-! ## The tile product `x xᵀ`: the operand indices of its contraction -/

/-- Row axis of the left operand: the output's row. -/
theorem gram_lhs_0 (o : S256x256.Idx) (q : dot_S256x640_S256x640_S256x256_1_1_0_0_n_n.contr.Idx) :
    (dot_S256x640_S256x640_S256x256_1_1_0_0_n_n.lhsIdx o q 0).val = (o 0).val := by
  simp [DotDims.lhsIdx, dot_S256x640_S256x640_S256x256_1_1_0_0_n_n]; rfl

/-- Column axis of the left operand: the contracted column. -/
theorem gram_lhs_1 (o : S256x256.Idx) (q : dot_S256x640_S256x640_S256x256_1_1_0_0_n_n.contr.Idx) :
    (dot_S256x640_S256x640_S256x256_1_1_0_0_n_n.lhsIdx o q 1).val = (q ⟨0, by decide⟩).val :=
  dot_S256x640_S256x640_S256x256_1_1_0_0_n_n.lhsIdx_val_of_single rfl o q

/-- Row axis of the right operand: the output's column (the right operand is read transposed). -/
theorem gram_rhs_0 (o : S256x256.Idx) (q : dot_S256x640_S256x640_S256x256_1_1_0_0_n_n.contr.Idx) :
    (dot_S256x640_S256x640_S256x256_1_1_0_0_n_n.rhsIdx o q 0).val = (o 1).val := by
  simp [DotDims.rhsIdx, dot_S256x640_S256x640_S256x256_1_1_0_0_n_n]; rfl

/-- Column axis of the right operand: the contracted column. -/
theorem gram_rhs_1 (o : S256x256.Idx) (q : dot_S256x640_S256x640_S256x256_1_1_0_0_n_n.contr.Idx) :
    (dot_S256x640_S256x640_S256x256_1_1_0_0_n_n.rhsIdx o q 1).val = (q ⟨0, by decide⟩).val :=
  dot_S256x640_S256x640_S256x256_1_1_0_0_n_n.rhsIdx_val_of_single rfl o q

/-- The tile's product with its own transpose into a zero accumulator, at `(i, k)`: the sum over the 640
    columns of the products of rows `i` and `k`. -/
theorem gram_matmul_apply (y : FVec Ideal S256x640 .f32) (i k : Fin 256) :
    matmul dot_S256x640_S256x640_S256x256_1_1_0_0_n_n none y y (constant S256x256 .f32 0x00000000#32) (ix2 i k)
      = ∑ j : Fin 640, y (ix2 i j) * y (ix2 k j) := by
  show FloatOps.matmul _ none y y _ (ix2 i k) = _
  rw [Ideal.matmul_constant_zero_apply,
    ← Equiv.sum_comp (contrEquiv1 dot_S256x640_S256x640_S256x256_1_1_0_0_n_n 640 rfl rfl).symm]
  refine Finset.sum_congr rfl fun j _ => ?_
  have cj := contrEquiv1_symm_val dot_S256x640_S256x640_S256x256_1_1_0_0_n_n 640 rfl rfl j
  have l : dot_S256x640_S256x640_S256x256_1_1_0_0_n_n.lhsIdx (ix2 i k)
      ((contrEquiv1 dot_S256x640_S256x640_S256x256_1_1_0_0_n_n 640 rfl rfl).symm j) = ix2 i j := by
    funext ax; apply Fin.ext
    match ax with
    | ⟨0, _⟩ => exact gram_lhs_0 _ _
    | ⟨1, _⟩ => exact (gram_lhs_1 _ _).trans cj
  have r : dot_S256x640_S256x640_S256x256_1_1_0_0_n_n.rhsIdx (ix2 i k)
      ((contrEquiv1 dot_S256x640_S256x640_S256x256_1_1_0_0_n_n 640 rfl rfl).symm j) = ix2 k j := by
    funext ax; apply Fin.ext
    match ax with
    | ⟨0, _⟩ => exact gram_rhs_0 _ _
    | ⟨1, _⟩ => exact (gram_rhs_1 _ _).trans cj
  rw [l, r]

/-! ## The two updates at an index -/

/-- The Gram update at `(0, i, k)`: the block found there plus the tile's products of rows `i` and `k`. -/
theorem gram_update_apply (x : Vec Ideal S1x256x640 .f32) (g : Vec Ideal S1x256x256 .f32) (i k : Fin 256) :
    k0_pay4 (F := Ideal) x g (ix3 (0 : Fin 1) i k)
      = g (ix3 (0 : Fin 1) i k) + ∑ j : Fin 640, x (ix3 (0 : Fin 1) i j) * x (ix3 (0 : Fin 1) k j) := by
  unfold k0_pay4 k0_pay3
  dsimp only
  refine (shapeCast_ab_1ab_apply _ _ (0 : Fin 1) i k).trans ?_
  refine (addf_apply _ _ (ix2 i k)).trans ?_
  refine congrArg₂ (· + ·) (shapeCast_1ab_ab_apply g _ i k) ?_
  refine (gram_matmul_apply _ i k).trans ?_
  refine Finset.sum_congr rfl fun j _ => ?_
  exact congrArg₂ (· * ·) (shapeCast_1ab_ab_apply x _ i j) (shapeCast_1ab_ab_apply x _ k j)

/-- A vector `[256]` viewed as a column `[256, 1]` reads its entry. -/
theorem column_apply (v : S256.Idx → EReal) (h : S256.ShapeCasts S256x1) (i : Fin 256) (u : Fin 1) :
    shapeCast S256x1 v h (ix2 i u) = v (ix1 i) :=
  shapeCast_apply v h _ _ (by
    have hu : u.val = 0 := by omega
    rw [Shape.rowMajor_val_one, Shape.rowMajor_val_two]
    show i.val = i.val * 1 + u.val
    omega)

/-- The tile's row sums, at row `i`. -/
theorem rowsum_apply (y : FVec Ideal S256x640 .f32) (i : Fin 256) :
    multiReduction (F := Ideal) .add [1] S256 y 0x00000000#32 reduces_S256x640_S256 (.inl rfl) rfl (ix1 i)
      = ∑ j : Fin 640, y (ix2 i j) := by
  refine (Ideal.multiReduction_add_single y 0x00000000#32 reduces_S256x640_S256 (.inl rfl) rfl (ix1 i)).trans ?_
  show ∑ j : Fin 640, y (reduces_S256x640_S256.lift (ix1 i) j) = _
  refine Finset.sum_congr rfl fun j _ => congrArg y ?_
  funext ax; apply Fin.ext
  match ax with
  | ⟨0, _⟩ => rfl
  | ⟨1, _⟩ => rfl

/-- The row-sum update at `(0, i, 0)`: the block found there plus the sum of the tile's row `i`. -/
theorem rsum_update_apply (x : Vec Ideal S1x256x640 .f32) (s : Vec Ideal S1x256x1 .f32) (i : Fin 256) :
    k0_pay5 (F := Ideal) x s (ix3 (0 : Fin 1) i (0 : Fin 1))
      = s (ix3 (0 : Fin 1) i (0 : Fin 1)) + ∑ j : Fin 640, x (ix3 (0 : Fin 1) i j) := by
  unfold k0_pay5 k0_pay3
  dsimp only
  refine (shapeCast_ab_1ab_apply _ _ (0 : Fin 1) i (0 : Fin 1)).trans ?_
  refine (addf_apply _ _ (ix2 i (0 : Fin 1))).trans ?_
  refine congrArg₂ (· + ·) (shapeCast_1ab_ab_apply s _ i (0 : Fin 1)) ?_
  refine (column_apply _ _ i (0 : Fin 1)).trans ?_
  refine (rowsum_apply _ i).trans ?_
  exact Finset.sum_congr rfl fun j _ => shapeCast_1ab_ab_apply x _ i j

/-- The block a resetting point starts the Gram accumulator from is zero. -/
theorem gram_reset_apply (q : S1x256x256.Idx) : k0_pay1 (F := Ideal) q = 0 := by
  unfold k0_pay1
  exact Ideal.ofBits_zero_f32

/-- The block a resetting point starts the row-sum accumulator from is zero. -/
theorem rsum_reset_apply (q : S1x256x1.Idx) : k0_pay2 (F := Ideal) q = 0 := by
  unfold k0_pay2
  exact Ideal.ofBits_zero_f32

end Cert.ReferenceIdeal.Hand

end
-- ==== Proof.R0Block.lean ====
import proofs.«147999_g2000502477920874_pallasbulk_293_3_alg».proof.Proof.RDefs
import proofs.«147999_g2000502477920874_pallasbulk_293_3_alg».proof.Proof.Gen.ReferenceIdeal.Frame

import Idealize.ShloMosaic.Lib.Pipeline.Value
import Idealize.ShloMosaic.PureOps.Ideal.Laws
import Idealize.ShloMosaic.Lib.ValueLayout

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (V : (c : Dev nD) → (b : Ref sig .tc) → Buf (Elt Ideal) ((c : Thread nD τ).loc b))

/-- The tile of the padded activations the statistics kernel reads at point `t`. -/
abbrev xblk (c : Dev nD) (t : Fin cfg0.N) : Vec Ideal S1x256x640 .f32 := iblk0 (F := Ideal) V c 0 t

/-- The padded activations as the region finds them. -/
abbrev xarr (c : Dev nD) : Vec Ideal S16x256x3200 .f32 := V c main_v1

/-- Where the input tile of point `t = 40 s + 5 b + mt` sits: image `t / 5 = 8 s + b`, all channels,
    column tile `t mod 5 = mt`. -/
theorem in_index : ∀ t : Fin cfg0.N, win0_0.index t (0 : Fin 3) = t.val / 5 ∧ win0_0.index t (1 : Fin 3) = 0
    ∧ win0_0.index t (2 : Fin 3) = t.val % 5 :=
  (by decide +kernel : ∀ t : Fin grid0.N, _)

/-- The input tile at point `t`, entry `(0, i, j)`: the padded activations at image `t / 5`, channel `i`,
    column `640 (t mod 5) + j`. -/
theorem xblk_apply (c : Dev nD) (t : Fin cfg0.N) (i : Fin 256) (j : Fin 640) (b : Fin 16) (p : Fin 3200)
    (hb : b.val = t.val / 5) (hp : p.val = 640 * (t.val % 5) + j.val) :
    xblk V c t (ix3 (0 : Fin 1) i j) = xarr V c (ix3 b i p) := by
  obtain ⟨e0, e1, e2⟩ := in_index t
  show V c main_v1 (((cfg0.win 0).blk t).view.emb (ix3 (0 : Fin 1) i j)) = V c main_v1 (ix3 b i p)
  congr 1
  funext a; apply Fin.ext
  match a with
  | ⟨0, _⟩ => show win0_0.index t (0 : Fin 3) * 1 + 1 * 0 = b.val; omega
  | ⟨1, _⟩ => show win0_0.index t (1 : Fin 3) * 256 + 1 * i.val = i.val; omega
  | ⟨2, _⟩ => show win0_0.index t (2 : Fin 3) * 640 + 1 * j.val = p.val; omega

end Cert.ReferenceIdeal.Hand

end
-- ==== Proof.R0Inv.lean ====
import proofs.«147999_g2000502477920874_pallasbulk_293_3_alg».proof.Proof.RDefs
import proofs.«147999_g2000502477920874_pallasbulk_293_3_alg».proof.Proof.Gen.ReferenceIdeal.Frame
import proofs.«147999_g2000502477920874_pallasbulk_293_3_alg».proof.Proof.R0Pieces
import proofs.«147999_g2000502477920874_pallasbulk_293_3_alg».proof.Proof.R0Pay
import proofs.«147999_g2000502477920874_pallasbulk_293_3_alg».proof.Proof.R0Block
import Idealize.ShloMosaic.Lib.Pipeline.Value
import Idealize.ShloMosaic.PureOps.Ideal.Laws
import Idealize.ShloMosaic.Lib.ValueLayout

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (V : (c : Dev nD) → (b : Ref sig .tc) → Buf (Elt Ideal) ((c : Thread nD τ).loc b))

/-! ## One point's addends, as functions of the padded activations -/

/-- What point `n` of split `s` adds to the Gram entry `(i, k)`: the products of rows `i` and `k` of its tile. -/
def gramTerm (xp : SP.Idx → EReal) (s : Fin 2) (n : Fin 40) (i k : Fin 256) : EReal :=
  ∑ j : Fin 640, xp (ix3 (pimg s n) i (pcol n j)) * xp (ix3 (pimg s n) k (pcol n j))

/-- What point `n` of split `s` adds to the row sum `i`: the sum of row `i` of its tile. -/
def rsumTerm (xp : SP.Idx → EReal) (s : Fin 2) (n : Fin 40) (i : Fin 256) : EReal :=
  ∑ j : Fin 640, xp (ix3 (pimg s n) i (pcol n j))

/-- The split grid point `t` belongs to (`t / 40`; read modulo 2 so that it is defined at every natural). -/
def psplit (t : ℕ) : Fin 2 := ⟨(t / 40) % 2, by omega⟩
/-- Its position within the split's run of 40 points. -/
def ppos (t : ℕ) : Fin 40 := ⟨t % 40, by omega⟩

/-- The tile read at point `t` contributes that point's Gram addend. -/
theorem tile_gram (c : Dev nD) (t : Fin cfg0.N) (i k : Fin 256) :
    ∑ j : Fin 640, xblk V c t (ix3 (0 : Fin 1) i j) * xblk V c t (ix3 (0 : Fin 1) k j)
      = gramTerm (xarr V c) (psplit t.val) (ppos t.val) i k := by
  have hN : t.val < 80 := lt_of_lt_of_eq t.isLt N_0
  unfold gramTerm
  refine Finset.sum_congr rfl fun j _ => ?_
  have hb : (pimg (psplit t.val) (ppos t.val)).val = t.val / 5 := by
    show 8 * ((t.val / 40) % 2) + (t.val % 40) / 5 = t.val / 5
    omega
  have hp : (pcol (ppos t.val) j).val = 640 * (t.val % 5) + j.val := by
    show 640 * ((t.val % 40) % 5) + j.val = 640 * (t.val % 5) + j.val
    omega
  rw [xblk_apply V c t i j _ _ hb hp, xblk_apply V c t k j _ _ hb hp]

/-- The tile read at point `t` contributes that point's row-sum addend. -/
theorem tile_rsum (c : Dev nD) (t : Fin cfg0.N) (i : Fin 256) :
    ∑ j : Fin 640, xblk V c t (ix3 (0 : Fin 1) i j) = rsumTerm (xarr V c) (psplit t.val) (ppos t.val) i := by
  have hN : t.val < 80 := lt_of_lt_of_eq t.isLt N_0
  unfold rsumTerm
  refine Finset.sum_congr rfl fun j _ => ?_
  have hb : (pimg (psplit t.val) (ppos t.val)).val = t.val / 5 := by
    show 8 * ((t.val / 40) % 2) + (t.val % 40) / 5 = t.val / 5
    omega
  have hp : (pcol (ppos t.val) j).val = 640 * (t.val % 5) + j.val := by
    show 640 * ((t.val % 40) % 5) + j.val = 640 * (t.val % 5) + j.val
    omega
  rw [xblk_apply V c t i j _ _ hb hp]

/-! ## A quantity reset every 40 points and added into between is a running sum -/

/-- If `f` is the addend `A n` at each multiple of 40 and the predecessor plus `A (n + 1)` at every other
    point, then at point `n` it is the sum of the addends from the last multiple of 40 up to `n`. -/
theorem run_sum {β : Type} [AddCommMonoid β] {N : ℕ} (f : (n : ℕ) → n < N → β) (A : ℕ → β)
    (h0 : ∀ (n : ℕ) (h : n < N), n % 40 = 0 → f n h = A n)
    (hs : ∀ (n : ℕ) (h : n + 1 < N), ¬(n + 1) % 40 = 0 → f (n + 1) h = f n (Nat.lt_of_succ_lt h) + A (n + 1)) :
    ∀ (n : ℕ) (h : n < N), f n h = ∑ s ∈ Finset.range (n % 40 + 1), A (40 * (n / 40) + s)
  | 0, h => by
    rw [h0 0 h rfl]
    simp
  | n + 1, h => by
    by_cases hm : (n + 1) % 40 = 0
    · rw [h0 (n + 1) h hm, hm, Finset.sum_range_one]
      congr 1
      omega
    · rw [hs n h hm, run_sum f A h0 hs n (Nat.lt_of_succ_lt h)]
      have e1 : (n + 1) / 40 = n / 40 := by omega
      have e2 : (n + 1) % 40 = n % 40 + 1 := by omega
      rw [e1, e2, Finset.sum_range_succ _ (n % 40 + 1)]
      congr 2
      omega

/-! ## The two accumulators after each point -/

/-- After point `n` the Gram accumulator's entry `(i, k)` is the sum of the addends of the points of its
    split's run so far. -/
theorem gram_run (c : Dev nD) (i k : Fin 256) (n : ℕ) (hn : n < cfg0.N) :
    (outsAt0 (F := Ideal) V c n hn).1 (ix3 (0 : Fin 1) i k)
      = ∑ s ∈ Finset.range (n % 40 + 1),
          gramTerm (xarr V c) (psplit (40 * (n / 40) + s)) (ppos (40 * (n / 40) + s)) i k := by
  refine run_sum (fun n hn => (outsAt0 (F := Ideal) V c n hn).1 (ix3 (0 : Fin 1) i k))
    (fun n => gramTerm (xarr V c) (psplit n) (ppos n) i k) ?_ ?_ n hn
  · intro n h hm
    show (outsAt0 (F := Ideal) V c n h).1 (ix3 (0 : Fin 1) i k) = _
    rw [outsAt0_A V c ⟨n, h⟩ hm]
    dsimp only
    refine (congrFun (out0_A_1_eq (F := Ideal) c (grid0.coords ⟨n, h⟩) (ms0_0 ⟨n, h⟩) (hs0_0 ⟨n, h⟩) (ms0_1 ⟨n, h⟩)
      (hs0_1 ⟨n, h⟩) (ms0_2 ⟨n, h⟩) (hs0_2 ⟨n, h⟩) ((hcond0_0 ⟨n, h⟩).mpr hm) (xblk V c ⟨n, h⟩)) (ix3 (0 : Fin 1) i k)).trans ?_
    refine (gram_update_apply (xblk V c ⟨n, h⟩) (k0_pay1 (F := Ideal)) i k).trans ?_
    rw [gram_reset_apply, zero_add]
    exact tile_gram V c ⟨n, h⟩ i k
  · intro n h hm
    show (outsAt0 (F := Ideal) V c (n + 1) h).1 (ix3 (0 : Fin 1) i k) = (outsAt0 (F := Ideal) V c n _).1 (ix3 (0 : Fin 1) i k) + _
    rw [outsAt0_B V c ⟨n + 1, h⟩ hm]
    dsimp only
    refine (congrFun (out0_B_1_eq (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun h' => hm ((hcond0_0 ⟨n + 1, h⟩).mp h')) (xblk V c ⟨n + 1, h⟩)
      (outsAt0 (F := Ideal) V c n (Nat.lt_of_succ_lt h)).1 (outsAt0 (F := Ideal) V c n (Nat.lt_of_succ_lt h)).2) (ix3 (0 : Fin 1) i k)).trans ?_
    refine (gram_update_apply (xblk V c ⟨n + 1, h⟩) (outsAt0 (F := Ideal) V c n (Nat.lt_of_succ_lt h)).1 i k).trans ?_
    exact congrArg (_ + ·) (tile_gram V c ⟨n + 1, h⟩ i k)

/-- After point `n` the row-sum accumulator's entry `i` is the sum of the addends of the points of its
    split's run so far. -/
theorem rsum_run (c : Dev nD) (i : Fin 256) (n : ℕ) (hn : n < cfg0.N) :
    (outsAt0 (F := Ideal) V c n hn).2 (ix3 (0 : Fin 1) i (0 : Fin 1))
      = ∑ s ∈ Finset.range (n % 40 + 1),
          rsumTerm (xarr V c) (psplit (40 * (n / 40) + s)) (ppos (40 * (n / 40) + s)) i := by
  refine run_sum (fun n hn => (outsAt0 (F := Ideal) V c n hn).2 (ix3 (0 : Fin 1) i (0 : Fin 1)))
    (fun n => rsumTerm (xarr V c) (psplit n) (ppos n) i) ?_ ?_ n hn
  · intro n h hm
    show (outsAt0 (F := Ideal) V c n h).2 (ix3 (0 : Fin 1) i (0 : Fin 1)) = _
    rw [outsAt0_A V c ⟨n, h⟩ hm]
    dsimp only
    refine (congrFun (out0_A_2_eq (F := Ideal) c (grid0.coords ⟨n, h⟩) (ms0_0 ⟨n, h⟩) (hs0_0 ⟨n, h⟩) (ms0_1 ⟨n, h⟩)
      (hs0_1 ⟨n, h⟩) (ms0_2 ⟨n, h⟩) (hs0_2 ⟨n, h⟩) ((hcond0_0 ⟨n, h⟩).mpr hm) (xblk V c ⟨n, h⟩)) (ix3 (0 : Fin 1) i (0 : Fin 1))).trans ?_
    refine (rsum_update_apply (xblk V c ⟨n, h⟩) (k0_pay2 (F := Ideal)) i).trans ?_
    rw [rsum_reset_apply, zero_add]
    exact tile_rsum V c ⟨n, h⟩ i
  · intro n h hm
    show (outsAt0 (F := Ideal) V c (n + 1) h).2 (ix3 (0 : Fin 1) i (0 : Fin 1)) = (outsAt0 (F := Ideal) V c n _).2 (ix3 (0 : Fin 1) i (0 : Fin 1)) + _
    rw [outsAt0_B V c ⟨n + 1, h⟩ hm]
    dsimp only
    refine (congrFun (out0_B_2_eq (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun h' => hm ((hcond0_0 ⟨n + 1, h⟩).mp h')) (xblk V c ⟨n + 1, h⟩)
      (outsAt0 (F := Ideal) V c n (Nat.lt_of_succ_lt h)).1 (outsAt0 (F := Ideal) V c n (Nat.lt_of_succ_lt h)).2) (ix3 (0 : Fin 1) i (0 : Fin 1))).trans ?_
    refine (rsum_update_apply (xblk V c ⟨n + 1, h⟩) (outsAt0 (F := Ideal) V c n (Nat.lt_of_succ_lt h)).2 i).trans ?_
    exact congrArg (_ + ·) (tile_rsum V c ⟨n + 1, h⟩ i)

end Cert.ReferenceIdeal.Hand

end
-- ==== Proof.R0Value.lean ====
import proofs.«147999_g2000502477920874_pallasbulk_293_3_alg».proof.Proof.RDefs
import proofs.«147999_g2000502477920874_pallasbulk_293_3_alg».proof.Proof.Gen.ReferenceIdeal.Frame
import proofs.«147999_g2000502477920874_pallasbulk_293_3_alg».proof.Proof.R0Inv
import Idealize.ShloMosaic.Lib.Pipeline.Value
import Idealize.ShloMosaic.PureOps.Ideal.Laws
import Idealize.ShloMosaic.Lib.ValueLayout

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (V : (c : Dev nD) → (b : Ref sig .tc) → Buf (Elt Ideal) ((c : Thread nD τ).loc b))

/-- A split's partial Gram entry is the sum of its 40 points' addends. -/
theorem gramP_apply (xp : SP.Idx → EReal) (s : Fin 2) (i k : Fin 256) :
    gramP xp (ix3 s i k) = ∑ n : Fin 40, gramTerm xp s n i k := rfl

/-- A split's partial row sum is the sum of its 40 points' addends. -/
theorem rsumP_apply (xp : SP.Idx → EReal) (s : Fin 2) (i : Fin 256) (u : Fin 1) :
    rsumP xp (ix3 s i u) = ∑ n : Fin 40, rsumTerm xp s n i := rfl

/-- Where the Gram block of point `t` sits in its array: split `t / 40`, the whole matrix. -/
theorem gram_index : ∀ t : Fin cfg0.N, win0_1.index t (0 : Fin 3) = t.val / 40 ∧ win0_1.index t (1 : Fin 3) = 0
    ∧ win0_1.index t (2 : Fin 3) = 0 :=
  (by decide +kernel : ∀ t : Fin grid0.N, _)

/-- Where the row-sum block of point `t` sits in its array: split `t / 40`, the whole column. -/
theorem rsum_index : ∀ t : Fin cfg0.N, win0_2.index t (0 : Fin 3) = t.val / 40 ∧ win0_2.index t (1 : Fin 3) = 0
    ∧ win0_2.index t (2 : Fin 3) = 0 :=
  (by decide +kernel : ∀ t : Fin grid0.N, _)

/-- The last point of a split's run sees all 40 addends: the run's sum is the split's partial Gram entry. -/
theorem gram_full (xp : SP.Idx → EReal) (t : ℕ) (ht : t < 80) (i k : Fin 256) :
    ∑ s ∈ Finset.range 40, gramTerm xp (psplit (40 * (t / 40) + s)) (ppos (40 * (t / 40) + s)) i k
      = gramP xp (ix3 (⟨t / 40, by omega⟩ : Fin 2) i k) := by
  rw [gramP_apply, Finset.sum_range]
  refine Finset.sum_congr rfl fun n _ => ?_
  have hn : n.val < 40 := n.isLt
  have es : psplit (40 * (t / 40) + n.val) = (⟨t / 40, by omega⟩ : Fin 2) :=
    Fin.ext (by show (40 * (t / 40) + n.val) / 40 % 2 = t / 40; omega)
  have ep : ppos (40 * (t / 40) + n.val) = n :=
    Fin.ext (by show (40 * (t / 40) + n.val) % 40 = n.val; omega)
  rw [es, ep]

/-- The same for the row sums. -/
theorem rsum_full (xp : SP.Idx → EReal) (t : ℕ) (ht : t < 80) (i : Fin 256) (u : Fin 1) :
    ∑ s ∈ Finset.range 40, rsumTerm xp (psplit (40 * (t / 40) + s)) (ppos (40 * (t / 40) + s)) i
      = rsumP xp (ix3 (⟨t / 40, by omega⟩ : Fin 2) i u) := by
  rw [rsumP_apply, Finset.sum_range]
  refine Finset.sum_congr rfl fun n _ => ?_
  have hn : n.val < 40 := n.isLt
  have es : psplit (40 * (t / 40) + n.val) = (⟨t / 40, by omega⟩ : Fin 2) :=
    Fin.ext (by show (40 * (t / 40) + n.val) / 40 % 2 = t / 40; omega)
  have ep : ppos (40 * (t / 40) + n.val) = n :=
    Fin.ext (by show (40 * (t / 40) + n.val) % 40 = n.val; omega)
  rw [es, ep]

/-- What a split's last point writes back to the Gram array is that split's block of the partial Gram matrices. -/
theorem gram_flushed (c : Dev nD) (t : Fin cfg0.N) (hf : (cfg0.win 1).flush t = true) :
    (dat0 (F := Ideal) V c).flushed 1 t = ((cfg0.win 1).blk t).view.read (Elt Ideal) (gramP (V c main_v1)) := by
  have hN : t.val < 80 := lt_of_lt_of_eq t.isLt N_0
  have h39 : t.val % 40 = 39 := (flush0_1 t).mp hf
  have h40 : t.val % 40 + 1 = 40 := by omega
  obtain ⟨e0, e1, e2⟩ := gram_index t
  show (cfg0.win 1).cut (grid0.coords t) ((dat0 (F := Ideal) V c).after 1 t) = _
  rw [after0_1]
  funext y
  have hy0 : (y 0).val < 1 := (y 0).isLt
  have hy1 : (y 1).val < 256 := (y 1).isLt
  have hy2 : (y 2).val < 256 := (y 2).isLt
  have ey : (cfg0.win 1).xinj (grid0.coords t) y
      = ix3 (0 : Fin 1) (⟨(y 1).val, hy1⟩ : Fin 256) (⟨(y 2).val, hy2⟩ : Fin 256) := by
    funext a; apply Fin.ext
    match a with
    | ⟨0, _⟩ => show (y 0).val = 0; omega
    | ⟨1, _⟩ => rfl
    | ⟨2, _⟩ => rfl
  have eb : ((cfg0.win 1).blk t).view.emb y
      = ix3 (⟨t.val / 40, by omega⟩ : Fin 2) (⟨(y 1).val, hy1⟩ : Fin 256) (⟨(y 2).val, hy2⟩ : Fin 256) := by
    funext a; apply Fin.ext
    match a with
    | ⟨0, _⟩ => show win0_1.index t (0 : Fin 3) * 1 + 1 * (y 0).val = t.val / 40; omega
    | ⟨1, _⟩ => show win0_1.index t (1 : Fin 3) * 256 + 1 * (y 1).val = (y 1).val; omega
    | ⟨2, _⟩ => show win0_1.index t (2 : Fin 3) * 256 + 1 * (y 2).val = (y 2).val; omega
  show (outsAt0 (F := Ideal) V c t.val t.isLt).1 ((cfg0.win 1).xinj (grid0.coords t) y)
    = gramP (V c main_v1) (((cfg0.win 1).blk t).view.emb y)
  rw [ey, eb, gram_run V c _ _ t.val t.isLt, h40]
  exact gram_full (V c main_v1) t.val hN _ _

/-- What a split's last point writes back to the row-sum array is that split's block of the partial row sums. -/
theorem rsum_flushed (c : Dev nD) (t : Fin cfg0.N) (hf : (cfg0.win 2).flush t = true) :
    (dat0 (F := Ideal) V c).flushed 2 t = ((cfg0.win 2).blk t).view.read (Elt Ideal) (rsumP (V c main_v1)) := by
  have hN : t.val < 80 := lt_of_lt_of_eq t.isLt N_0
  have h39 : t.val % 40 = 39 := (flush0_2 t).mp hf
  have h40 : t.val % 40 + 1 = 40 := by omega
  obtain ⟨e0, e1, e2⟩ := rsum_index t
  show (cfg0.win 2).cut (grid0.coords t) ((dat0 (F := Ideal) V c).after 2 t) = _
  rw [after0_2]
  funext y
  have hy0 : (y 0).val < 1 := (y 0).isLt
  have hy1 : (y 1).val < 256 := (y 1).isLt
  have hy2 : (y 2).val < 1 := (y 2).isLt
  have ey : (cfg0.win 2).xinj (grid0.coords t) y
      = ix3 (0 : Fin 1) (⟨(y 1).val, hy1⟩ : Fin 256) (0 : Fin 1) := by
    funext a; apply Fin.ext
    match a with
    | ⟨0, _⟩ => show (y 0).val = 0; omega
    | ⟨1, _⟩ => rfl
    | ⟨2, _⟩ => show (y 2).val = 0; omega
  have eb : ((cfg0.win 2).blk t).view.emb y
      = ix3 (⟨t.val / 40, by omega⟩ : Fin 2) (⟨(y 1).val, hy1⟩ : Fin 256) (0 : Fin 1) := by
    funext a; apply Fin.ext
    match a with
    | ⟨0, _⟩ => show win0_2.index t (0 : Fin 3) * 1 + 1 * (y 0).val = t.val / 40; omega
    | ⟨1, _⟩ => show win0_2.index t (1 : Fin 3) * 256 + 1 * (y 1).val = (y 1).val; omega
    | ⟨2, _⟩ => show win0_2.index t (2 : Fin 3) * 1 + 1 * (y 2).val = 0; omega
  show (outsAt0 (F := Ideal) V c t.val t.isLt).2 ((cfg0.win 2).xinj (grid0.coords t) y)
    = rsumP (V c main_v1) (((cfg0.win 2).blk t).view.emb y)
  rw [ey, eb, rsum_run V c _ t.val t.isLt, h40]
  exact rsum_full (V c main_v1) t.val hN _ _

/-- Region 0's first output array after the run: each split's partial Gram matrix of the padded activations. -/
theorem region0_gram (c : Dev nD) : (dat0 (F := Ideal) V c).arrAt 1 cfg0.N = gramP (V c main_v1) :=
  (dat0 (F := Ideal) V c).arrAt_eq_of_cover 1 (gramP (V c main_v1)) (gram_flushed V c) fun q => by
    have hq0 : (q 0).val < 2 := (q 0).isLt
    have hq1 : (q 1).val < 256 := (q 1).isLt
    have hq2 : (q 2).val < 256 := (q 2).isLt
    have hlt : 40 * (q 0).val + 39 < cfg0.N := lt_of_lt_of_eq (by omega : 40 * (q 0).val + 39 < 80) N_0.symm
    obtain ⟨e0, e1, e2⟩ := gram_index ⟨40 * (q 0).val + 39, hlt⟩
    refine ⟨⟨40 * (q 0).val + 39, hlt⟩, (flush0_1 _).mpr (by show (40 * (q 0).val + 39) % 40 = 39; omega), ?_⟩
    show q ∈ ((View.whole main_v2_0).slice (win0_1.rect ⟨40 * (q 0).val + 39, hlt⟩)).set
    rw [View.set_slice_whole, Rect.mem_set_unit]
    intro a
    match a with
    | ⟨0, _⟩ =>
      show win0_1.index ⟨40 * (q 0).val + 39, hlt⟩ (0 : Fin 3) * 1 ≤ (q 0).val
        ∧ (q 0).val < win0_1.index ⟨40 * (q 0).val + 39, hlt⟩ (0 : Fin 3) * 1 + 1
      rw [e0]; show (40 * (q 0).val + 39) / 40 * 1 ≤ (q 0).val ∧ (q 0).val < (40 * (q 0).val + 39) / 40 * 1 + 1; omega
    | ⟨1, _⟩ =>
      show win0_1.index ⟨40 * (q 0).val + 39, hlt⟩ (1 : Fin 3) * 256 ≤ (q 1).val
        ∧ (q 1).val < win0_1.index ⟨40 * (q 0).val + 39, hlt⟩ (1 : Fin 3) * 256 + 256
      rw [e1]; omega
    | ⟨2, _⟩ =>
      show win0_1.index ⟨40 * (q 0).val + 39, hlt⟩ (2 : Fin 3) * 256 ≤ (q 2).val
        ∧ (q 2).val < win0_1.index ⟨40 * (q 0).val + 39, hlt⟩ (2 : Fin 3) * 256 + 256
      rw [e2]; omega

/-- Region 0's second output array after the run: each split's partial row sums. -/
theorem region0_rsum (c : Dev nD) : (dat0 (F := Ideal) V c).arrAt 2 cfg0.N = rsumP (V c main_v1) :=
  (dat0 (F := Ideal) V c).arrAt_eq_of_cover 2 (rsumP (V c main_v1)) (rsum_flushed V c) fun q => by
    have hq0 : (q 0).val < 2 := (q 0).isLt
    have hq1 : (q 1).val < 256 := (q 1).isLt
    have hq2 : (q 2).val < 1 := (q 2).isLt
    have hlt : 40 * (q 0).val + 39 < cfg0.N := lt_of_lt_of_eq (by omega : 40 * (q 0).val + 39 < 80) N_0.symm
    obtain ⟨e0, e1, e2⟩ := rsum_index ⟨40 * (q 0).val + 39, hlt⟩
    refine ⟨⟨40 * (q 0).val + 39, hlt⟩, (flush0_2 _).mpr (by show (40 * (q 0).val + 39) % 40 = 39; omega), ?_⟩
    show q ∈ ((View.whole main_v2_1).slice (win0_2.rect ⟨40 * (q 0).val + 39, hlt⟩)).set
    rw [View.set_slice_whole, Rect.mem_set_unit]
    intro a
    match a with
    | ⟨0, _⟩ =>
      show win0_2.index ⟨40 * (q 0).val + 39, hlt⟩ (0 : Fin 3) * 1 ≤ (q 0).val
        ∧ (q 0).val < win0_2.index ⟨40 * (q 0).val + 39, hlt⟩ (0 : Fin 3) * 1 + 1
      rw [e0]; show (40 * (q 0).val + 39) / 40 * 1 ≤ (q 0).val ∧ (q 0).val < (40 * (q 0).val + 39) / 40 * 1 + 1; omega
    | ⟨1, _⟩ =>
      show win0_2.index ⟨40 * (q 0).val + 39, hlt⟩ (1 : Fin 3) * 256 ≤ (q 1).val
        ∧ (q 1).val < win0_2.index ⟨40 * (q 0).val + 39, hlt⟩ (1 : Fin 3) * 256 + 256
      rw [e1]; omega
    | ⟨2, _⟩ =>
      show win0_2.index ⟨40 * (q 0).val + 39, hlt⟩ (2 : Fin 3) * 1 ≤ (q 2).val
        ∧ (q 2).val < win0_2.index ⟨40 * (q 0).val + 39, hlt⟩ (2 : Fin 3) * 1 + 1
      rw [e2]; omega

end Cert.ReferenceIdeal.Hand

end
-- ==== Proof.RHost0.lean ====
import proofs.«147999_g2000502477920874_pallasbulk_293_3_alg».proof.Proof.RPadDef
import proofs.«147999_g2000502477920874_pallasbulk_293_3_alg».proof.Proof.RRunNamed
import Idealize.ShloMosaic.Lib.Pipeline.Value
import Idealize.ShloMosaic.Lib.StableHlo.Run
import Idealize.ShloMosaic.Lib.KernelVsHost

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (m : (ℓ : Loc nD τ sig) → Buf (Elt Ideal) ℓ) (ρ : Dev nD → PrngReg)

/-- The activations as launched, at their literal type [16, 256, 56, 56]. -/
abbrev x4of (c : Dev nD) : Cert.Spec.S4.Idx → EReal := m ((c.tc : Thread nD τ).loc main_arg0)

/-- When the statistics kernel is entered the padded buffer holds the flattened activations inside the first 3136
    columns and the zero constant beyond them. -/
theorem V2_main_v1 (c : Dev nD) :
    V2 m ρ c main_v1 = padX (shapeCast Cert.Spec.S3 (x4of m c)) := by
  dsimp only [V2, W2, W1, W0, hostOps0_1, hostOps0]
  after_results
  refine Eq.trans (b := pad S16x256x3200 ![0, 0, 0] ![0, 0, 64] ![0, 0, 0]
      (shapeCast S16x256x3136 (x4of m c) shapeCasts_S16x256x56x56_S16x256x3136)
      (sitofp (F := Ideal) .f32 (constantI S_ 32 0#32)) pads_S16x256x3136_S16x256x3200_000_000_0640 h_S_) rfl ?_
  funext q
  by_cases h : (q 2).val < 3136
  · refine (pad_apply_of_inside _ _ _ _ _ _ _ q (ix3 (q 0) (q 1) ⟨(q 2).val, h⟩) ?_).trans ?_
    · intro a
      fin_cases a
      · show (q 0).val = 0 + (q 0).val * (0 + 1)
        omega
      · show (q 1).val = 0 + (q 1).val * (0 + 1)
        omega
      · show (q 2).val = 0 + (q 2).val * (0 + 1)
        omega
    · unfold padX
      rw [dif_pos h]
      rfl
  · refine (pad_apply_of_not_inside _ _ _ _ _ _ _ q (2 : Fin 3) ?_).trans ?_
    · intro hin
      have h3 : ((q 2).val - 0) / (0 + 1) < 3136 := hin.2.2
      omega
    · unfold padX
      rw [dif_neg h]
      show ((((0#32 : BitVec 32).toInt : ℤ) : ℝ) : EReal) = 0
      rw [show (0#32 : BitVec 32).toInt = 0 from rfl, Int.cast_zero, EReal.coe_zero]

/-- Neither the statistics kernel nor the host operations after it write the padded buffer. -/
theorem W4_main_v1 (c : Dev nD) : W4 m ρ c (Proc.devRef .tc main_v1) = W2 m ρ c (Proc.devRef .tc main_v1) := by
  have h1 : W4 m ρ c (Proc.devRef .tc main_v1) = W3 m ρ c (Proc.devRef .tc main_v1) := by
    dsimp only [W4, hostOps1]
    after_results
  rw [h1]
  exact (W3_arr m ρ c 0).trans ((Dat.arrAt_in _ 0 rfl cfg0.N).trans (A_eq0 (V2 m ρ) c 0))

/-- At the statistics kernel's exit the weight is as launched. -/
theorem W3_main_arg1 (c : Dev nD) : W3 m ρ c (Proc.devRef .tc main_arg1) = m ((c.tc : Thread nD τ).loc main_arg1) := by
  rw [W3_of_ne m ρ c main_arg1 (by decide)]
  dsimp only [W2, W1, W0, hostOps0_1, hostOps0]
  after_results

/-- At the statistics kernel's exit the batch-norm scale is as launched. -/
theorem W3_main_arg2 (c : Dev nD) : W3 m ρ c (Proc.devRef .tc main_arg2) = m ((c.tc : Thread nD τ).loc main_arg2) := by
  rw [W3_of_ne m ρ c main_arg2 (by decide)]
  dsimp only [W2, W1, W0, hostOps0_1, hostOps0]
  after_results

/-- At the statistics kernel's exit the batch-norm offset is as launched. -/
theorem W3_main_arg3 (c : Dev nD) : W3 m ρ c (Proc.devRef .tc main_arg3) = m ((c.tc : Thread nD τ).loc main_arg3) := by
  rw [W3_of_ne m ρ c main_arg3 (by decide)]
  dsimp only [W2, W1, W0, hostOps0_1, hostOps0]
  after_results

end Cert.ReferenceIdeal.Hand

end
-- ==== Proof.RHost1Defs.lean ====
import proofs.«147999_g2000502477920874_pallasbulk_293_3_alg».proof.Proof.RRunNamed
import Idealize.ShloMosaic.Lib.StableHlo.Run
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (m : (ℓ : Loc nD τ sig) → Buf (Elt Ideal) ℓ) (ρ : Dev nD → PrngReg)

/-! The buffers when the apply kernel is entered, each named at its literal array type. -/

abbrev h_cst (c : Dev nD) : FVec Ideal S_ .f32 := W4 m ρ c (Proc.devRef .tc main_cst)
abbrev h_v2_0 (c : Dev nD) : FVec Ideal S2x256x256 .f32 := W4 m ρ c (Proc.devRef .tc main_v2_0)
abbrev h_v3 (c : Dev nD) : FVec Ideal S256x256 .f32 := W4 m ρ c (Proc.devRef .tc main_v3)
abbrev h_cst_0 (c : Dev nD) : FVec Ideal S_ .f32 := W4 m ρ c (Proc.devRef .tc main_cst_0)
abbrev h_v2_1 (c : Dev nD) : FVec Ideal S2x256x1 .f32 := W4 m ρ c (Proc.devRef .tc main_v2_1)
abbrev h_v4 (c : Dev nD) : FVec Ideal S256x1 .f32 := W4 m ρ c (Proc.devRef .tc main_v4)
abbrev h_arg1 (c : Dev nD) : FVec Ideal S256x256 .f32 := W4 m ρ c (Proc.devRef .tc main_arg1)
abbrev h_v5 (c : Dev nD) : FVec Ideal S256x1 .f32 := W4 m ρ c (Proc.devRef .tc main_v5)
abbrev h_cst_1 (c : Dev nD) : FVec Ideal S_ .f32 := W4 m ρ c (Proc.devRef .tc main_cst_1)
abbrev h_v6 (c : Dev nD) : FVec Ideal S256x1 .f32 := W4 m ρ c (Proc.devRef .tc main_v6)
abbrev h_v7 (c : Dev nD) : FVec Ideal S256x1 .f32 := W4 m ρ c (Proc.devRef .tc main_v7)
abbrev h_v8 (c : Dev nD) : FVec Ideal S256x256 .f32 := W4 m ρ c (Proc.devRef .tc main_v8)
abbrev h_v9 (c : Dev nD) : FVec Ideal S256x256 .f32 := W4 m ρ c (Proc.devRef .tc main_v9)
abbrev h_cst_2 (c : Dev nD) : FVec Ideal S_ .f32 := W4 m ρ c (Proc.devRef .tc main_cst_2)
abbrev h_v10 (c : Dev nD) : FVec Ideal S256 .f32 := W4 m ρ c (Proc.devRef .tc main_v10)
abbrev h_v11 (c : Dev nD) : FVec Ideal S256x1 .f32 := W4 m ρ c (Proc.devRef .tc main_v11)
abbrev h_cst_3 (c : Dev nD) : FVec Ideal S_ .f32 := W4 m ρ c (Proc.devRef .tc main_cst_3)
abbrev h_v12 (c : Dev nD) : FVec Ideal S256x1 .f32 := W4 m ρ c (Proc.devRef .tc main_v12)
abbrev h_v13 (c : Dev nD) : FVec Ideal S256x1 .f32 := W4 m ρ c (Proc.devRef .tc main_v13)
abbrev h_v14 (c : Dev nD) : FVec Ideal S256x1 .f32 := W4 m ρ c (Proc.devRef .tc main_v14)
abbrev h_v15 (c : Dev nD) : FVec Ideal S256x1 .f32 := W4 m ρ c (Proc.devRef .tc main_v15)
abbrev h_cst_4 (c : Dev nD) : FVec Ideal S_ .f32 := W4 m ρ c (Proc.devRef .tc main_cst_4)
abbrev h_v16 (c : Dev nD) : FVec Ideal S256x1 .f32 := W4 m ρ c (Proc.devRef .tc main_v16)
abbrev h_v17 (c : Dev nD) : FVec Ideal S256x1 .f32 := W4 m ρ c (Proc.devRef .tc main_v17)
abbrev h_cst_5 (c : Dev nD) : FVec Ideal S_ .f32 := W4 m ρ c (Proc.devRef .tc main_cst_5)
abbrev h_v18 (c : Dev nD) : FVec Ideal S256x1 .f32 := W4 m ρ c (Proc.devRef .tc main_v18)
abbrev h_v19 (c : Dev nD) : FVec Ideal S256x1 .f32 := W4 m ρ c (Proc.devRef .tc main_v19)
abbrev h_v20 (c : Dev nD) : FVec Ideal S256x1 .f32 := W4 m ρ c (Proc.devRef .tc main_v20)
abbrev h_arg2 (c : Dev nD) : FVec Ideal S256 .f32 := W4 m ρ c (Proc.devRef .tc main_arg2)
abbrev h_v21 (c : Dev nD) : FVec Ideal S256x1 .f32 := W4 m ρ c (Proc.devRef .tc main_v21)
abbrev h_v22 (c : Dev nD) : FVec Ideal S256x1 .f32 := W4 m ρ c (Proc.devRef .tc main_v22)
abbrev h_arg3 (c : Dev nD) : FVec Ideal S256 .f32 := W4 m ρ c (Proc.devRef .tc main_arg3)
abbrev h_v23 (c : Dev nD) : FVec Ideal S256x1 .f32 := W4 m ρ c (Proc.devRef .tc main_v23)
abbrev h_v24 (c : Dev nD) : FVec Ideal S256x1 .f32 := W4 m ρ c (Proc.devRef .tc main_v24)
abbrev h_v25 (c : Dev nD) : FVec Ideal S256x1 .f32 := W4 m ρ c (Proc.devRef .tc main_v25)
abbrev h_v26 (c : Dev nD) : FVec Ideal S256x256 .f32 := W4 m ρ c (Proc.devRef .tc main_v26)
abbrev h_v27 (c : Dev nD) : FVec Ideal S256x256 .f32 := W4 m ρ c (Proc.devRef .tc main_v27)

end Cert.ReferenceIdeal.Hand

end
-- ==== Proof.RHost1a.lean ====
import proofs.«147999_g2000502477920874_pallasbulk_293_3_alg».proof.Proof.RHost1Defs
import Idealize.ShloMosaic.Lib.StableHlo.Run
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (m : (ℓ : Loc nD τ sig) → Buf (Elt Ideal) ℓ) (ρ : Dev nD → PrngReg)

/-! Each host operation between the two kernels, read at the buffers the apply kernel is entered with: the result
    buffer holds the operation's function of its operand buffers (no later operation writes any of the three). -/

set_option maxHeartbeats 1000000 in
theorem h_cst_eq (c : Dev nD) : h_cst m ρ c = constant (F := Ideal) S_ .f32 0x00000000#32 := by
  dsimp only [h_cst, W4, hostOps1]
  after_results <;> rfl

set_option maxHeartbeats 1000000 in
theorem h_v3_eq (c : Dev nD) : h_v3 m ρ c = Host.reduceAdd (F := Ideal) (h_v2_0 m ρ c) (h_cst m ρ c) reducesTo_S2x256x256_S256x256_d0 h_S_ := by
  dsimp only [h_v3, h_v2_0, h_cst, W4, hostOps1]
  after_results <;> rfl

set_option maxHeartbeats 1000000 in
theorem h_cst_0_eq (c : Dev nD) : h_cst_0 m ρ c = constant (F := Ideal) S_ .f32 0x00000000#32 := by
  dsimp only [h_cst_0, W4, hostOps1]
  after_results <;> rfl

set_option maxHeartbeats 1000000 in
theorem h_v4_eq (c : Dev nD) : h_v4 m ρ c = Host.reduceAdd (F := Ideal) (h_v2_1 m ρ c) (h_cst_0 m ρ c) reducesTo_S2x256x1_S256x1_d0 h_S_ := by
  dsimp only [h_v4, h_v2_1, h_cst_0, W4, hostOps1]
  after_results <;> rfl

set_option maxHeartbeats 1000000 in
theorem h_v5_eq (c : Dev nD) : h_v5 m ρ c = Host.dotGeneral (F := Ideal) dot_S256x256_S256x1_S256x1_1_0_0_1_n_n none (h_arg1 m ρ c) (h_v4 m ρ c) := by
  dsimp only [h_v5, h_arg1, h_v4, W4, hostOps1]
  after_results <;> rfl

set_option maxHeartbeats 1000000 in
theorem h_cst_1_eq (c : Dev nD) : h_cst_1 m ρ c = constant (F := Ideal) S_ .f32 0x47440000#32 := by
  dsimp only [h_cst_1, W4, hostOps1]
  after_results <;> rfl

set_option maxHeartbeats 1000000 in
theorem h_v6_eq (c : Dev nD) : h_v6 m ρ c = broadcastInDim S256x1 ![] bcast_S_S256x1 (h_cst_1 m ρ c) := by
  dsimp only [h_v6, h_cst_1, W4, hostOps1]
  after_results <;> rfl

set_option maxHeartbeats 1000000 in
theorem h_v7_eq (c : Dev nD) : h_v7 m ρ c = Host.divf (F := Ideal) (h_v5 m ρ c) (h_v6 m ρ c) := by
  dsimp only [h_v7, h_v5, h_v6, W4, hostOps1]
  after_results <;> rfl

set_option maxHeartbeats 1000000 in
theorem h_v8_eq (c : Dev nD) : h_v8 m ρ c = Host.dotGeneral (F := Ideal) dot_S256x256_S256x256_S256x256_1_0_0_1_n_n none (h_arg1 m ρ c) (h_v3 m ρ c) := by
  dsimp only [h_v8, h_arg1, h_v3, W4, hostOps1]
  after_results <;> rfl

set_option maxHeartbeats 1000000 in
theorem h_v9_eq (c : Dev nD) : h_v9 m ρ c = mulf (F := Ideal) (h_v8 m ρ c) (h_arg1 m ρ c) := by
  dsimp only [h_v9, h_v8, h_arg1, W4, hostOps1]
  after_results <;> rfl

set_option maxHeartbeats 1000000 in
theorem h_cst_2_eq (c : Dev nD) : h_cst_2 m ρ c = constant (F := Ideal) S_ .f32 0x00000000#32 := by
  dsimp only [h_cst_2, W4, hostOps1]
  after_results <;> rfl

set_option maxHeartbeats 1000000 in
theorem h_v10_eq (c : Dev nD) : h_v10 m ρ c = Host.reduceAdd (F := Ideal) (h_v9 m ρ c) (h_cst_2 m ρ c) reducesTo_S256x256_S256_d1 h_S_ := by
  dsimp only [h_v10, h_v9, h_cst_2, W4, hostOps1]
  after_results <;> rfl

end Cert.ReferenceIdeal.Hand

end
-- ==== Proof.RHost1b.lean ====
import proofs.«147999_g2000502477920874_pallasbulk_293_3_alg».proof.Proof.RHost1Defs
import Idealize.ShloMosaic.Lib.StableHlo.Run
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (m : (ℓ : Loc nD τ sig) → Buf (Elt Ideal) ℓ) (ρ : Dev nD → PrngReg)

/-! Each host operation between the two kernels, read at the buffers the apply kernel is entered with: the result
    buffer holds the operation's function of its operand buffers (no later operation writes any of the three). -/

set_option maxHeartbeats 1000000 in
theorem h_v11_eq (c : Dev nD) : h_v11 m ρ c = broadcastInDim S256x1 ![0] bcast_S256_S256x1_0 (h_v10 m ρ c) := by
  dsimp only [h_v11, h_v10, W4, hostOps1]
  after_results <;> rfl

set_option maxHeartbeats 1000000 in
theorem h_cst_3_eq (c : Dev nD) : h_cst_3 m ρ c = constant (F := Ideal) S_ .f32 0x47440000#32 := by
  dsimp only [h_cst_3, W4, hostOps1]
  after_results <;> rfl

set_option maxHeartbeats 1000000 in
theorem h_v12_eq (c : Dev nD) : h_v12 m ρ c = broadcastInDim S256x1 ![] bcast_S_S256x1 (h_cst_3 m ρ c) := by
  dsimp only [h_v12, h_cst_3, W4, hostOps1]
  after_results <;> rfl

set_option maxHeartbeats 1000000 in
theorem h_v13_eq (c : Dev nD) : h_v13 m ρ c = Host.divf (F := Ideal) (h_v11 m ρ c) (h_v12 m ρ c) := by
  dsimp only [h_v13, h_v11, h_v12, W4, hostOps1]
  after_results <;> rfl

set_option maxHeartbeats 1000000 in
theorem h_v14_eq (c : Dev nD) : h_v14 m ρ c = mulf (F := Ideal) (h_v7 m ρ c) (h_v7 m ρ c) := by
  dsimp only [h_v14, h_v7, h_v7, W4, hostOps1]
  after_results <;> rfl

set_option maxHeartbeats 1000000 in
theorem h_v15_eq (c : Dev nD) : h_v15 m ρ c = subf (F := Ideal) (h_v13 m ρ c) (h_v14 m ρ c) := by
  dsimp only [h_v15, h_v13, h_v14, W4, hostOps1]
  after_results <;> rfl

set_option maxHeartbeats 1000000 in
theorem h_cst_4_eq (c : Dev nD) : h_cst_4 m ρ c = constant (F := Ideal) S_ .f32 0x00000000#32 := by
  dsimp only [h_cst_4, W4, hostOps1]
  after_results <;> rfl

set_option maxHeartbeats 1000000 in
theorem h_v16_eq (c : Dev nD) : h_v16 m ρ c = broadcastInDim S256x1 ![] bcast_S_S256x1 (h_cst_4 m ρ c) := by
  dsimp only [h_v16, h_cst_4, W4, hostOps1]
  after_results <;> rfl

set_option maxHeartbeats 1000000 in
theorem h_v17_eq (c : Dev nD) : h_v17 m ρ c = maximumf (F := Ideal) (h_v15 m ρ c) (h_v16 m ρ c) := by
  dsimp only [h_v17, h_v15, h_v16, W4, hostOps1]
  after_results <;> rfl

set_option maxHeartbeats 1000000 in
theorem h_cst_5_eq (c : Dev nD) : h_cst_5 m ρ c = constant (F := Ideal) S_ .f32 0x3727C5AC#32 := by
  dsimp only [h_cst_5, W4, hostOps1]
  after_results <;> rfl

set_option maxHeartbeats 1000000 in
theorem h_v18_eq (c : Dev nD) : h_v18 m ρ c = broadcastInDim S256x1 ![] bcast_S_S256x1 (h_cst_5 m ρ c) := by
  dsimp only [h_v18, h_cst_5, W4, hostOps1]
  after_results <;> rfl

set_option maxHeartbeats 1000000 in
theorem h_v19_eq (c : Dev nD) : h_v19 m ρ c = addf (F := Ideal) (h_v17 m ρ c) (h_v18 m ρ c) := by
  dsimp only [h_v19, h_v17, h_v18, W4, hostOps1]
  after_results <;> rfl

end Cert.ReferenceIdeal.Hand

end
-- ==== Proof.RHost1c.lean ====
import proofs.«147999_g2000502477920874_pallasbulk_293_3_alg».proof.Proof.RHost1Defs
import Idealize.ShloMosaic.Lib.StableHlo.Run
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (m : (ℓ : Loc nD τ sig) → Buf (Elt Ideal) ℓ) (ρ : Dev nD → PrngReg)

/-! Each host operation between the two kernels, read at the buffers the apply kernel is entered with: the result
    buffer holds the operation's function of its operand buffers (no later operation writes any of the three). -/

set_option maxHeartbeats 1000000 in
theorem h_v20_eq (c : Dev nD) : h_v20 m ρ c = Host.rsqrt (F := Ideal) (h_v19 m ρ c) := by
  dsimp only [h_v20, h_v19, W4, hostOps1]
  after_results <;> rfl

set_option maxHeartbeats 1000000 in
theorem h_v21_eq (c : Dev nD) : h_v21 m ρ c = shapeCast S256x1 (h_arg2 m ρ c) shapeCasts_S256_S256x1 := by
  dsimp only [h_v21, h_arg2, W4, hostOps1]
  after_results <;> rfl

set_option maxHeartbeats 1000000 in
theorem h_v22_eq (c : Dev nD) : h_v22 m ρ c = mulf (F := Ideal) (h_v21 m ρ c) (h_v20 m ρ c) := by
  dsimp only [h_v22, h_v21, h_v20, W4, hostOps1]
  after_results <;> rfl

set_option maxHeartbeats 1000000 in
theorem h_v23_eq (c : Dev nD) : h_v23 m ρ c = shapeCast S256x1 (h_arg3 m ρ c) shapeCasts_S256_S256x1 := by
  dsimp only [h_v23, h_arg3, W4, hostOps1]
  after_results <;> rfl

set_option maxHeartbeats 1000000 in
theorem h_v24_eq (c : Dev nD) : h_v24 m ρ c = mulf (F := Ideal) (h_v7 m ρ c) (h_v22 m ρ c) := by
  dsimp only [h_v24, h_v7, h_v22, W4, hostOps1]
  after_results <;> rfl

set_option maxHeartbeats 1000000 in
theorem h_v25_eq (c : Dev nD) : h_v25 m ρ c = subf (F := Ideal) (h_v23 m ρ c) (h_v24 m ρ c) := by
  dsimp only [h_v25, h_v23, h_v24, W4, hostOps1]
  after_results <;> rfl

set_option maxHeartbeats 1000000 in
theorem h_v26_eq (c : Dev nD) : h_v26 m ρ c = broadcastInDim S256x256 ![0, 1] bcast_S256x1_S256x256_0_1 (h_v22 m ρ c) := by
  dsimp only [h_v26, h_v22, W4, hostOps1]
  after_results <;> rfl

set_option maxHeartbeats 1000000 in
theorem h_v27_eq (c : Dev nD) : h_v27 m ρ c = mulf (F := Ideal) (h_v26 m ρ c) (h_arg1 m ρ c) := by
  dsimp only [h_v27, h_v26, h_arg1, W4, hostOps1]
  after_results <;> rfl

set_option maxHeartbeats 1000000 in
theorem h_v2_0_eq (c : Dev nD) : h_v2_0 m ρ c = W3 m ρ c (Proc.devRef .tc main_v2_0) := by
  dsimp only [h_v2_0, W4, hostOps1]
  after_results <;> rfl

set_option maxHeartbeats 1000000 in
theorem h_v2_1_eq (c : Dev nD) : h_v2_1 m ρ c = W3 m ρ c (Proc.devRef .tc main_v2_1) := by
  dsimp only [h_v2_1, W4, hostOps1]
  after_results <;> rfl

set_option maxHeartbeats 1000000 in
theorem h_arg1_eq (c : Dev nD) : h_arg1 m ρ c = W3 m ρ c (Proc.devRef .tc main_arg1) := by
  dsimp only [h_arg1, W4, hostOps1]
  after_results <;> rfl

set_option maxHeartbeats 1000000 in
theorem h_arg2_eq (c : Dev nD) : h_arg2 m ρ c = W3 m ρ c (Proc.devRef .tc main_arg2) := by
  dsimp only [h_arg2, W4, hostOps1]
  after_results <;> rfl

set_option maxHeartbeats 1000000 in
theorem h_arg3_eq (c : Dev nD) : h_arg3 m ρ c = W3 m ρ c (Proc.devRef .tc main_arg3) := by
  dsimp only [h_arg3, W4, hostOps1]
  after_results <;> rfl

end Cert.ReferenceIdeal.Hand

end
-- ==== Proof.RHost1Val.lean ====
import proofs.«147999_g2000502477920874_pallasbulk_293_3_alg».proof.Proof.RHost1a
import proofs.«147999_g2000502477920874_pallasbulk_293_3_alg».proof.Proof.RHost1b
import proofs.«147999_g2000502477920874_pallasbulk_293_3_alg».proof.Proof.RHost1c
import proofs.«147999_g2000502477920874_pallasbulk_293_3_alg».proof.Proof.Spec
import Idealize.ShloMosaic.Lib.IdealHost
import Idealize.ShloMosaic.Lib.StackMember
import Idealize.ShloMosaic.Lib.Pipeline.Value
import Idealize.ShloMosaic.PureOps.Ideal.Laws
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

open Cert.Spec

variable (m : (ℓ : Loc nD τ sig) → Buf (Elt Ideal) ℓ) (ρ : Dev nD → PrngReg) (c : Dev nD)

/-! The host operations between the two kernels, read entry by entry: the two partial statistics are summed over the
    splits, contracted with the weight, divided by the count, and folded with the batch-norm scale and offset into
    the folded weight and the additive term — the specification's formulas, operation for operation. -/

/-- The zero constant the reductions start from. -/
theorem zero_word : (constant (F := Ideal) S_ .f32 0x00000000#32) (Shape.Idx.first h_S_) = 0 := by
  rw [constant_apply, Ideal.ofBits_zero_f32]

/-- The Gram matrix summed over the two splits. -/
theorem p_v3 (l k : Fin 256) : h_v3 m ρ c (ix2 l k) = ∑ s : Fin 2, h_v2_0 m ρ c (ix3 s l k) := by
  rw [h_v3_eq, hostReduceAdd_apply, Ideal.hostReduceAdd_single reducesTo_S2x256x256_S256x256_d0 (by decide : S2x256x256.Reduces [0] S256x256),
    h_cst_eq, zero_word, zero_add]
  exact Finset.sum_congr rfl fun s _ => congrArg (h_v2_0 m ρ c) (funext fun a => Fin.ext (by
    match a with | ⟨0, _⟩ => rfl | ⟨1, _⟩ => rfl | ⟨2, _⟩ => rfl))

/-- The row sums summed over the two splits. -/
theorem p_v4 (k : Fin 256) : h_v4 m ρ c (ix2 k (0 : Fin 1)) = ∑ s : Fin 2, h_v2_1 m ρ c (ix3 s k (0 : Fin 1)) := by
  rw [h_v4_eq, hostReduceAdd_apply, Ideal.hostReduceAdd_single reducesTo_S2x256x1_S256x1_d0 (by decide : S2x256x1.Reduces [0] S256x1),
    h_cst_0_eq, zero_word, zero_add]
  exact Finset.sum_congr rfl fun s _ => congrArg (h_v2_1 m ρ c) (funext fun a => Fin.ext (by
    match a with | ⟨0, _⟩ => rfl | ⟨1, _⟩ => rfl | ⟨2, _⟩ => rfl))

/-- The weight applied to the row sums. -/
theorem p_v5 (i : Fin 256) : h_v5 m ρ c (ix2 i (0 : Fin 1)) = ∑ k : Fin 256, h_arg1 m ρ c (ix2 i k) * h_v4 m ρ c (ix2 k (0 : Fin 1)) := by
  rw [h_v5_eq]
  exact StackMember.dotGeneral_plain_apply (m := 256) (k := 256) (n := 1) none (h_arg1 m ρ c) (h_v4 m ρ c) i 0

/-- The count, broadcast. -/
theorem p_v6 (i : Fin 256) : h_v6 m ρ c (ix2 i (0 : Fin 1)) = cnt := by
  rw [h_v6_eq, broadcastInDim_scalar_apply, h_cst_1_eq, constant_apply]; rfl

theorem p_v7 (i : Fin 256) : h_v7 m ρ c (ix2 i (0 : Fin 1)) = Ideal.div (h_v5 m ρ c (ix2 i (0 : Fin 1))) (h_v6 m ρ c (ix2 i (0 : Fin 1))) := by
  rw [h_v7_eq, hostDivf_apply]

/-- The weight applied to the Gram matrix. -/
theorem p_v8 (i k : Fin 256) : h_v8 m ρ c (ix2 i k) = ∑ l : Fin 256, h_arg1 m ρ c (ix2 i l) * h_v3 m ρ c (ix2 l k) := by
  rw [h_v8_eq]
  exact StackMember.dotGeneral_plain_apply (m := 256) (k := 256) (n := 256) none (h_arg1 m ρ c) (h_v3 m ρ c) i k

theorem p_v9 (i k : Fin 256) : h_v9 m ρ c (ix2 i k) = h_v8 m ρ c (ix2 i k) * h_arg1 m ρ c (ix2 i k) := by
  rw [h_v9_eq, mulf_apply]

/-- The rows of `(W G) ∘ W` summed. -/
theorem p_v10 (i : Fin 256) : h_v10 m ρ c (ix1 i) = ∑ k : Fin 256, h_v9 m ρ c (ix2 i k) := by
  rw [h_v10_eq, hostReduceAdd_apply, Ideal.hostReduceAdd_single reducesTo_S256x256_S256_d1 (by decide : S256x256.Reduces [1] S256),
    h_cst_2_eq, zero_word, zero_add]
  exact Finset.sum_congr rfl fun k _ => congrArg (h_v9 m ρ c) (funext fun a => Fin.ext (by
    match a with | ⟨0, _⟩ => rfl | ⟨1, _⟩ => rfl))

theorem p_v11 (i : Fin 256) : h_v11 m ρ c (ix2 i (0 : Fin 1)) = h_v10 m ρ c (ix1 i) := by
  rw [h_v11_eq]
  exact broadcastInDim_apply _ _ _ _ _ (fun a => by match a with | ⟨0, _⟩ => rfl)

theorem p_v12 (i : Fin 256) : h_v12 m ρ c (ix2 i (0 : Fin 1)) = cnt := by
  rw [h_v12_eq, broadcastInDim_scalar_apply, h_cst_3_eq, constant_apply]; rfl

theorem p_v13 (i : Fin 256) : h_v13 m ρ c (ix2 i (0 : Fin 1)) = Ideal.div (h_v11 m ρ c (ix2 i (0 : Fin 1))) (h_v12 m ρ c (ix2 i (0 : Fin 1))) := by
  rw [h_v13_eq, hostDivf_apply]

theorem p_v14 (i : Fin 256) : h_v14 m ρ c (ix2 i (0 : Fin 1)) = h_v7 m ρ c (ix2 i (0 : Fin 1)) * h_v7 m ρ c (ix2 i (0 : Fin 1)) := by
  rw [h_v14_eq, mulf_apply]

theorem p_v15 (i : Fin 256) : h_v15 m ρ c (ix2 i (0 : Fin 1)) = h_v13 m ρ c (ix2 i (0 : Fin 1)) - h_v14 m ρ c (ix2 i (0 : Fin 1)) := by
  rw [h_v15_eq, subf_apply]

theorem p_v16 (i : Fin 256) : h_v16 m ρ c (ix2 i (0 : Fin 1)) = 0 := by
  rw [h_v16_eq, broadcastInDim_scalar_apply, h_cst_4_eq, constant_apply, Ideal.ofBits_zero_f32]

theorem p_v17 (i : Fin 256) : h_v17 m ρ c (ix2 i (0 : Fin 1)) = max (h_v15 m ρ c (ix2 i (0 : Fin 1))) (h_v16 m ρ c (ix2 i (0 : Fin 1))) := by
  rw [h_v17_eq, maximumf_apply]

theorem p_v18 (i : Fin 256) : h_v18 m ρ c (ix2 i (0 : Fin 1)) = eps := by
  rw [h_v18_eq, broadcastInDim_scalar_apply, h_cst_5_eq, constant_apply]; rfl

theorem p_v19 (i : Fin 256) : h_v19 m ρ c (ix2 i (0 : Fin 1)) = h_v17 m ρ c (ix2 i (0 : Fin 1)) + h_v18 m ρ c (ix2 i (0 : Fin 1)) := by
  rw [h_v19_eq, addf_apply]

theorem p_v20 (i : Fin 256) : h_v20 m ρ c (ix2 i (0 : Fin 1)) = Ideal.rsqrt (h_v19 m ρ c (ix2 i (0 : Fin 1))) := by
  rw [h_v20_eq]; rfl

theorem p_v21 (i : Fin 256) : h_v21 m ρ c (ix2 i (0 : Fin 1)) = h_arg2 m ρ c (ix1 i) := by
  rw [h_v21_eq]
  exact shapeCast_apply _ _ _ _ (by rw [Shape.rowMajor_val_one, Shape.rowMajor_val_two]; show i.val = i.val * 1 + 0; omega)

theorem p_v22 (i : Fin 256) : h_v22 m ρ c (ix2 i (0 : Fin 1)) = h_v21 m ρ c (ix2 i (0 : Fin 1)) * h_v20 m ρ c (ix2 i (0 : Fin 1)) := by
  rw [h_v22_eq, mulf_apply]

theorem p_v23 (i : Fin 256) : h_v23 m ρ c (ix2 i (0 : Fin 1)) = h_arg3 m ρ c (ix1 i) := by
  rw [h_v23_eq]
  exact shapeCast_apply _ _ _ _ (by rw [Shape.rowMajor_val_one, Shape.rowMajor_val_two]; show i.val = i.val * 1 + 0; omega)

theorem p_v24 (i : Fin 256) : h_v24 m ρ c (ix2 i (0 : Fin 1)) = h_v7 m ρ c (ix2 i (0 : Fin 1)) * h_v22 m ρ c (ix2 i (0 : Fin 1)) := by
  rw [h_v24_eq, mulf_apply]

theorem p_v25 (i : Fin 256) : h_v25 m ρ c (ix2 i (0 : Fin 1)) = h_v23 m ρ c (ix2 i (0 : Fin 1)) - h_v24 m ρ c (ix2 i (0 : Fin 1)) := by
  rw [h_v25_eq, subf_apply]

theorem p_v26 (i k : Fin 256) : h_v26 m ρ c (ix2 i k) = h_v22 m ρ c (ix2 i (0 : Fin 1)) := by
  rw [h_v26_eq]
  exact broadcastInDim_apply _ _ _ _ _ (fun a => by match a with | ⟨0, _⟩ => rfl | ⟨1, _⟩ => rfl)

theorem p_v27 (i k : Fin 256) : h_v27 m ρ c (ix2 i k) = h_v26 m ρ c (ix2 i k) * h_arg1 m ρ c (ix2 i k) := by
  rw [h_v27_eq, mulf_apply]

/-! ## The chain against the specification -/

section
variable (x3 : S3.Idx → EReal)
  (hG : ∀ l k : Fin 256, ∑ s : Fin 2, h_v2_0 m ρ c (ix3 s l k) = gram x3 l k)
  (hS : ∀ k : Fin 256, ∑ s : Fin 2, h_v2_1 m ρ c (ix3 s k (0 : Fin 1)) = rsum x3 k)
include hS in
theorem host_mean (i : Fin 256) : h_v7 m ρ c (ix2 i (0 : Fin 1)) = mean x3 (h_arg1 m ρ c) i := by
  rw [p_v7, p_v5, p_v6]; unfold mean
  refine congrArg (fun z => Ideal.div z cnt) (Finset.sum_congr rfl fun k _ => ?_)
  rw [p_v4, hS]

include hG in
theorem host_ey2 (i : Fin 256) : h_v13 m ρ c (ix2 i (0 : Fin 1)) = ey2 x3 (h_arg1 m ρ c) i := by
  rw [p_v13, p_v11, p_v10, p_v12]; unfold ey2
  refine congrArg (fun z => Ideal.div z cnt) (Finset.sum_congr rfl fun k _ => ?_)
  rw [p_v9, p_v8]
  refine congrArg (fun z => z * h_arg1 m ρ c (ix2 i k)) (Finset.sum_congr rfl fun l _ => ?_)
  rw [p_v3, hG]

include hG hS in
theorem host_var (i : Fin 256) : h_v17 m ρ c (ix2 i (0 : Fin 1)) = var x3 (h_arg1 m ρ c) i := by
  rw [p_v17, p_v15, p_v16, p_v14, host_ey2 m ρ c x3 hG, host_mean m ρ c x3 hS]; rfl

include hG hS in
theorem host_scale (i : Fin 256) : h_v22 m ρ c (ix2 i (0 : Fin 1)) = scale x3 (h_arg1 m ρ c) (h_arg2 m ρ c) i := by
  rw [p_v22, p_v21, p_v20, p_v19, p_v18, host_var m ρ c x3 hG hS]; rfl

include hG hS in
/-- The additive term the apply kernel is launched on is the specification's. -/
theorem host_shift (i : Fin 256) :
    h_v25 m ρ c (ix2 i (0 : Fin 1)) = shift x3 (h_arg1 m ρ c) (h_arg2 m ρ c) (h_arg3 m ρ c) i := by
  rw [p_v25, p_v23, p_v24, host_mean m ρ c x3 hS, host_scale m ρ c x3 hG hS]; rfl

include hG hS in
/-- The folded weight the apply kernel is launched on is the specification's. -/
theorem host_wfold (i k : Fin 256) :
    h_v27 m ρ c (ix2 i k) = wfold x3 (h_arg1 m ρ c) (h_arg2 m ρ c) i k := by
  rw [p_v27, p_v26, host_scale m ρ c x3 hG hS]; rfl
end

end Cert.ReferenceIdeal.Hand

end
-- ==== Proof.R1Pay.lean ====
/-
  The apply kernel's stored block, read at one entry.

  The kernel holds the weight `wf` [256,256], the shift column `sh` [256,1] and one tile `x` [1,256,640] of the padded
  activations, and stores `max (wf · x + sh, 0)` as a [1,256,640] block. At `(0, i, j)` that is
  `max (∑ₖ wf[i,k] · x[0,k,j] + sh[i,0]) 0`: the product into a zero accumulator is the plain sum over the contracted
  coordinate, the shift is broadcast along the tile's columns, and the casts around them only drop or add the unit axis.
-/
import proofs.«147999_g2000502477920874_pallasbulk_293_3_alg».proof.Proof.RDefs
import proofs.«147999_g2000502477920874_pallasbulk_293_3_alg».proof.Proof.Gen.ReferenceIdeal.Frame
import Idealize.ShloMosaic.Lib.Pipeline.Value
import Idealize.ShloMosaic.PureOps.Ideal.Laws
import Idealize.ShloMosaic.Lib.ValueLayout

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

/-! ## The apply kernel's product, axis by axis

The product is [256,256] times [256,640]: the left operand's columns are contracted with the right operand's rows.
At output index `(i, j)` and contraction position `k` the left operand is read at `(i, k)` and the right at `(k, j)`. -/

theorem dotWX_lhs_0 (j : S256x640.Idx) (k : dot_S256x256_S256x640_S256x640_1_0_0_1_n_n.contr.Idx) :
    (dot_S256x256_S256x640_S256x640_1_0_0_1_n_n.lhsIdx j k 0).val = (j 0).val := by
  unfold DotDims.lhsIdx
  rw [dif_neg (show ¬(0 : Fin S256x256.rank) ∈ dot_S256x256_S256x640_S256x640_1_0_0_1_n_n.lhsBatch by decide),
    dif_pos (show (0 : Fin S256x256.rank) ∈ dot_S256x256_S256x640_S256x640_1_0_0_1_n_n.lhsNonContracting by decide)]
  rfl

theorem dotWX_lhs_1 (j : S256x640.Idx) (k : dot_S256x256_S256x640_S256x640_1_0_0_1_n_n.contr.Idx) :
    (dot_S256x256_S256x640_S256x640_1_0_0_1_n_n.lhsIdx j k 1).val = (k ⟨0, by decide⟩).val :=
  dot_S256x256_S256x640_S256x640_1_0_0_1_n_n.lhsIdx_val_of_single (cl := 1) rfl j k

theorem dotWX_rhs_0 (j : S256x640.Idx) (k : dot_S256x256_S256x640_S256x640_1_0_0_1_n_n.contr.Idx) :
    (dot_S256x256_S256x640_S256x640_1_0_0_1_n_n.rhsIdx j k 0).val = (k ⟨0, by decide⟩).val :=
  dot_S256x256_S256x640_S256x640_1_0_0_1_n_n.rhsIdx_val_of_single (cr := 0) rfl j k

theorem dotWX_rhs_1 (j : S256x640.Idx) (k : dot_S256x256_S256x640_S256x640_1_0_0_1_n_n.contr.Idx) :
    (dot_S256x256_S256x640_S256x640_1_0_0_1_n_n.rhsIdx j k 1).val = (j 1).val := by
  unfold DotDims.rhsIdx
  rw [dif_neg (show ¬(1 : Fin S256x640.rank) ∈ dot_S256x256_S256x640_S256x640_1_0_0_1_n_n.rhsBatch by decide),
    dif_pos (show (1 : Fin S256x640.rank) ∈ dot_S256x256_S256x640_S256x640_1_0_0_1_n_n.rhsNonContracting by decide)]
  rfl

/-- The product into the zero accumulator, at `(i, j)`: the sum over `k` of `w[i,k] · x[k,j]`. -/
theorem matWX_apply (w : FVec Ideal S256x256 .f32) (x : FVec Ideal S256x640 .f32) (i : Fin 256) (j : Fin 640) :
    matmul dot_S256x256_S256x640_S256x640_1_0_0_1_n_n none w x (constant (F := Ideal) S256x640 .f32 0x00000000#32) (ix2 i j)
      = ∑ k : Fin 256, w (ix2 i k) * x (ix2 k j) := by
  show FloatOps.matmul dot_S256x256_S256x640_S256x640_1_0_0_1_n_n none w x (constant (F := Ideal) S256x640 .f32 0x00000000#32) (ix2 i j) = _
  rw [Ideal.matmul_constant_zero_apply,
    ← Equiv.sum_comp (contrEquiv1 dot_S256x256_S256x640_S256x640_1_0_0_1_n_n 256 rfl rfl).symm]
  refine Finset.sum_congr rfl fun k _ => ?_
  have ck := contrEquiv1_symm_val dot_S256x256_S256x640_S256x640_1_0_0_1_n_n 256 rfl rfl k
  have l : dot_S256x256_S256x640_S256x640_1_0_0_1_n_n.lhsIdx (ix2 i j)
      ((contrEquiv1 dot_S256x256_S256x640_S256x640_1_0_0_1_n_n 256 rfl rfl).symm k) = ix2 i k := by
    funext a; apply Fin.ext
    match a with
    | ⟨0, _⟩ => exact dotWX_lhs_0 _ _
    | ⟨1, _⟩ => exact (dotWX_lhs_1 _ _).trans ck
  have r : dot_S256x256_S256x640_S256x640_1_0_0_1_n_n.rhsIdx (ix2 i j)
      ((contrEquiv1 dot_S256x256_S256x640_S256x640_1_0_0_1_n_n 256 rfl rfl).symm k) = ix2 k j := by
    funext a; apply Fin.ext
    match a with
    | ⟨0, _⟩ => exact (dotWX_rhs_0 _ _).trans ck
    | ⟨1, _⟩ => exact dotWX_rhs_1 _ _
  rw [l, r]

/-- A [256,1] column broadcast over 640 columns reads, at `(i, j)`, the column's entry `i`. -/
theorem broadcastCol_apply {α : Type} (v : S256x1.Idx → α) (h : S256x1.Broadcasts S256x640) (i : Fin 256) (j : Fin 640) :
    broadcastTo S256x640 v h (ix2 i j) = v (ix2 i (0 : Fin 1)) := by
  refine broadcastTo_apply v h (ix2 i j) (ix2 i (0 : Fin 1)) fun ax => ?_
  match ax with
  | ⟨0, _⟩ =>
    show i.val = if (256 : ℕ) = 1 then 0 else i.val
    rw [if_neg (by decide)]
  | ⟨1, _⟩ => rfl

/-- The apply kernel's stored block at `(0, i, j)`: the clamped affine image of column `j` of the activations' tile. -/
theorem k1_pay1_apply (wf : Vec Ideal S256x256 .f32) (x : Vec Ideal S1x256x640 .f32) (sh : Vec Ideal S256x1 .f32)
    (i : Fin 256) (j : Fin 640) :
    k1_pay1 (F := Ideal) wf x sh (ix3 (0 : Fin 1) i j)
      = max ((∑ k : Fin 256, wf (ix2 i k) * x (ix3 (0 : Fin 1) k j)) + sh (ix2 i (0 : Fin 1))) 0 := by
  unfold k1_pay1
  refine (shapeCast_ab_1ab_apply _ _ (0 : Fin 1) i j).trans ?_
  refine (maximumf_apply _ _ (ix2 i j)).trans ?_
  refine congrArg₂ max ?_ Ideal.ofBits_zero_f32
  refine (addf_apply _ _ (ix2 i j)).trans ?_
  refine congrArg₂ (· + ·) ?_ ?_
  · refine (matWX_apply _ _ i j).trans ?_
    refine Finset.sum_congr rfl fun k _ => ?_
    refine congrArg₂ (· * ·) ?_ ?_
    · exact congrFun (shapeCast_self wf _) (ix2 i k)
    · exact shapeCast_1ab_ab_apply x _ k j
  · refine (broadcastCol_apply _ _ i j).trans ?_
    exact congrFun (shapeCast_self sh _) (ix2 i (0 : Fin 1))

end Cert.ReferenceIdeal.Hand

end
-- ==== Proof.R1Value.lean ====
/-
  The apply kernel's output array, as one function of the arrays it is launched on.

  The kernel runs over 16 images × 5 column tiles. At point `t` (image `t / 5`, tile `t % 5`) it reads the whole weight
  `wf` [256,256], the whole shift column `sh` [256,1] and the [1,256,640] tile of the padded activations `xp` at block
  `(t / 5, 0, t % 5)`, and writes the same block of the output with `max (wf · tile + sh, 0)`. Entry `(0, i, p)` of the
  tile's block is entry `(t / 5, i, 640 · (t % 5) + p)` of the array, on the input and on the output alike, so each
  written block is the same block of `(b, i, p) ↦ max (∑ₖ wf[i,k] · xp[b,k,p] + sh[i,0]) 0`. The 80 blocks tile the
  [16,256,3200] output and every point writes its block back, so the array ends holding that function everywhere.
-/
import proofs.«147999_g2000502477920874_pallasbulk_293_3_alg».proof.Proof.RDefs
import proofs.«147999_g2000502477920874_pallasbulk_293_3_alg».proof.Proof.R1Pay
import proofs.«147999_g2000502477920874_pallasbulk_293_3_alg».proof.Proof.Gen.ReferenceIdeal.Frame
import Idealize.ShloMosaic.Lib.Pipeline.Value
import Idealize.ShloMosaic.PureOps.Ideal.Laws
import Idealize.ShloMosaic.Lib.ValueLayout

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (V : (c : Dev nD) → (b : Ref sig .tc) → Buf (Elt Ideal) ((c : Thread nD τ).loc b))

/-! ## The windows' block indices over the grid

Point `t` of the 16 × 5 grid is image `t / 5`, column tile `t % 5`. The weight and the shift are whole-array windows at
block index zero; the activations' tile and the output's tile both sit at block `(t / 5, 0, t % 5)`. -/

theorem apply_idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = t.val / 5 ∧ win1_2.index t (1 : Fin 3) = 0 ∧ win1_2.index t (2 : Fin 3) = t.val % 5
    ∧ win1_3.index t (0 : Fin 3) = t.val / 5 ∧ win1_3.index t (1 : Fin 3) = 0 ∧ win1_3.index t (2 : Fin 3) = t.val % 5 :=
  (by decide +kernel : ∀ t : Fin grid1.N, _)

theorem apply_lt_N (t : Fin cfg1.N) : t.val < 80 := lt_of_lt_of_eq t.isLt N_1

/-! ## The input blocks, read off the arrays

The weight's and the shift's windows are the whole arrays, so their blocks are the arrays; the activations' block at
point `t` is image `t / 5` at the 640 columns from `640 · (t % 5)`. -/

theorem apply_hz2 : (![0, 0] : Fin 2 → Nat) = fun _ => 0 := funext fun a => by fin_cases a <;> rfl
theorem apply_hz3 : (![0, 0, 0] : Fin 3 → Nat) = fun _ => 0 := funext fun a => by fin_cases a <;> rfl

/-- The weight's block at any point is the weight. -/
theorem apply_wblk_eq (c : Dev nD) (t : Fin cfg1.N) :
    (iblk1 (F := Ideal) V c 0 t : Vec Ideal S256x256 .f32) = (V c main_v27 : S256x256.Idx → EReal) := by
  obtain ⟨e0, e1, -⟩ := apply_idx_facts t
  funext y
  show V c main_v27 (((cfg1.win 0).blk t).view.emb y) = V c main_v27 y
  refine congrArg (V c main_v27) ?_
  funext a; apply Fin.ext
  match a with
  | ⟨0, _⟩ => show win1_0.index t (0 : Fin 2) * 256 + 1 * (y 0).val = (y 0).val; rw [e0]; omega
  | ⟨1, _⟩ => show win1_0.index t (1 : Fin 2) * 256 + 1 * (y 1).val = (y 1).val; rw [e1]; omega

/-- The shift's block at any point is the shift column. -/
theorem apply_sblk_eq (c : Dev nD) (t : Fin cfg1.N) :
    (iblk1 (F := Ideal) V c 1 t : Vec Ideal S256x1 .f32) = (V c main_v25 : S256x1.Idx → EReal) := by
  obtain ⟨-, -, e0, e1, -⟩ := apply_idx_facts t
  funext y
  show V c main_v25 (((cfg1.win 1).blk t).view.emb y) = V c main_v25 y
  refine congrArg (V c main_v25) ?_
  funext a; apply Fin.ext
  match a with
  | ⟨0, _⟩ => show win1_1.index t (0 : Fin 2) * 256 + 1 * (y 0).val = (y 0).val; rw [e0]; omega
  | ⟨1, _⟩ => show win1_1.index t (1 : Fin 2) * 1 + 1 * (y 1).val = (y 1).val; rw [e1]; omega

/-- The activations' block at point `t`, at `(0, k, p)`: image `t / 5`, channel `k`, column `640 · (t % 5) + p`. -/
theorem apply_xblk_apply (c : Dev nD) (t : Fin cfg1.N) (k : Fin 256) (p : Fin 640) (q : S16x256x3200.Idx)
    (hq0 : (q 0).val = t.val / 5) (hq1 : (q 1).val = k.val) (hq2 : (q 2).val = 640 * (t.val % 5) + p.val) :
    (iblk1 (F := Ideal) V c 2 t : Vec Ideal S1x256x640 .f32) (ix3 (0 : Fin 1) k p) = (V c main_v1 : S16x256x3200.Idx → EReal) q := by
  obtain ⟨-, -, -, -, e0, e1, e2, -⟩ := apply_idx_facts t
  show V c main_v1 (((cfg1.win 2).blk t).view.emb (ix3 (0 : Fin 1) k p)) = V c main_v1 q
  refine congrArg (V c main_v1) ?_
  funext a; apply Fin.ext
  match a with
  | ⟨0, _⟩ => show win1_2.index t (0 : Fin 3) * 1 + 1 * (0 : Fin 1).val = (q 0).val; rw [e0, hq0]; simp
  | ⟨1, _⟩ => show win1_2.index t (1 : Fin 3) * 256 + 1 * k.val = (q 1).val; rw [e1, hq1]; omega
  | ⟨2, _⟩ => show win1_2.index t (2 : Fin 3) * 640 + 1 * p.val = (q 2).val; rw [e2, hq2]; omega

/-! ## One point's block is a block of the clamped affine image -/

/-- Over any tile `x` that is image `b`, columns from `640 · mt`, of the activations: the stored block at `y` is the
clamped affine image at the array index `q` that `y` lands on. -/
theorem apply_tile_eq (wf : Vec Ideal S256x256 .f32) (sh : Vec Ideal S256x1 .f32) (xp : Vec Ideal S16x256x3200 .f32)
    (x : Vec Ideal S1x256x640 .f32) (y : S1x256x640.Idx) (q : S16x256x3200.Idx)
    (hx : ∀ k : Fin 256, x (ix3 (0 : Fin 1) k (y 2)) = xp (ix3 (q 0) k (q 2)))
    (hq1 : (q 1).val = (y 1).val) :
    k1_pay1 (F := Ideal) wf x sh y = applyP wf sh xp q := by
  obtain ⟨u, i, p, rfl⟩ : ∃ (u : Fin 1) (i : Fin 256) (p : Fin 640), y = ix3 u i p := ⟨y 0, y 1, y 2, eq_ix3 y⟩
  obtain rfl : u = 0 := Subsingleton.elim _ _
  have hi : q 1 = i := Fin.ext hq1
  refine (k1_pay1_apply wf x sh i p).trans ?_
  unfold applyP
  rw [hi]
  refine congrArg₂ max (congrArg₂ (· + ·) (Finset.sum_congr rfl fun k _ => ?_) rfl) rfl
  exact congrArg (wf (ix2 i k) * ·) (hx k)

/-! ## From the blocks to the array -/

/-- What point `t` writes back is block `t` of the clamped affine image of the arrays the region finds. -/
theorem apply_flushed_eq (c : Dev nD) (t : Fin cfg1.N) :
    (dat1 (F := Ideal) V c).flushed 3 t
      = ((cfg1.win 3).blk t).view.read (Elt Ideal) (applyP (V c main_v27) (V c main_v25) (V c main_v1)) := by
  show (cfg1.win 3).cut (grid1.coords t) ((dat1 (F := Ideal) V c).after 3 t) = _
  rw [after1_3]
  unfold out1_3
  rw [View.canon_unit_zero apply_hz3]
  simp only [View.ld_unit_zero (S := S256x256) apply_hz2, View.ld_unit_zero (S := S256x1) apply_hz2, View.ld_unit_zero (S := S1x256x640) apply_hz3]
  rw [apply_wblk_eq V c t, apply_sblk_eq V c t]
  obtain ⟨-, -, -, -, -, -, -, e0, e1, e2⟩ := apply_idx_facts t
  have hN := apply_lt_N t
  funext y
  show k1_pay1 (F := Ideal) (V c main_v27) (iblk1 (F := Ideal) V c 2 t) (V c main_v25) y
      = applyP (V c main_v27) (V c main_v25) (V c main_v1) (((cfg1.win 3).blk t).view.emb y)
  have h0 : ((((cfg1.win 3).blk t).view.emb y : S16x256x3200.Idx) 0).val = t.val / 5 := by
    show win1_3.index t (0 : Fin 3) * 1 + 1 * (y 0).val = t.val / 5
    have hy : (y 0).val < 1 := (y 0).isLt
    rw [e0]; omega
  have h1 : ((((cfg1.win 3).blk t).view.emb y : S16x256x3200.Idx) 1).val = (y 1).val := by
    show win1_3.index t (1 : Fin 3) * 256 + 1 * (y 1).val = (y 1).val
    rw [e1]; omega
  have h2 : ((((cfg1.win 3).blk t).view.emb y : S16x256x3200.Idx) 2).val = 640 * (t.val % 5) + (y 2).val := by
    show win1_3.index t (2 : Fin 3) * 640 + 1 * (y 2).val = 640 * (t.val % 5) + (y 2).val
    rw [e2]; omega
  refine apply_tile_eq (V c main_v27) (V c main_v25) (V c main_v1) (iblk1 (F := Ideal) V c 2 t) y (((cfg1.win 3).blk t).view.emb y) (fun k => ?_) h1
  exact apply_xblk_apply V c t k (y 2) _ h0 rfl h2

/-- An index of the output array is in point `t`'s block iff each coordinate is in the block's range on its axis. -/
theorem apply_mem_blk (t : Fin cfg1.N) (i : S16x256x3200.Idx) :
    i ∈ ((cfg1.win 3).blk t).view.set ↔ ∀ a : Fin 3, win1_3.index t a * S1x256x640.size a ≤ (i a).val ∧ (i a).val < win1_3.index t a * S1x256x640.size a + S1x256x640.size a := by
  show i ∈ ((View.whole main_v28).slice (win1_3.rect t)).set ↔ _
  rw [View.set_slice_whole, Rect.mem_set_unit]
  exact Iff.rfl

/-- Every index `(b, i, p)` of the output lies in the block of point `5 b + p / 640`, and every point writes back. -/
theorem apply_cover (i : S16x256x3200.Idx) :
    ∃ t : Fin cfg1.N, (cfg1.win 3).flush t = true ∧ i ∈ ((cfg1.win 3).blk t).view.set := by
  have hi0 : (i 0).val < 16 := (i 0).isLt
  have hi1 : (i 1).val < 256 := (i 1).isLt
  have hi2 : (i 2).val < 3200 := (i 2).isLt
  have hlt : 5 * (i 0).val + (i 2).val / 640 < cfg1.N := by rw [show cfg1.N = 80 from N_1]; omega
  refine ⟨⟨5 * (i 0).val + (i 2).val / 640, hlt⟩, flush1_3 _, ?_⟩
  obtain ⟨-, -, -, -, -, -, -, e0, e1, e2⟩ := apply_idx_facts ⟨5 * (i 0).val + (i 2).val / 640, hlt⟩
  rw [apply_mem_blk]
  intro a
  match a with
  | ⟨0, _⟩ =>
    show win1_3.index _ (0 : Fin 3) * 1 ≤ (i 0).val ∧ (i 0).val < win1_3.index _ (0 : Fin 3) * 1 + 1
    rw [e0]; show (5 * (i 0).val + (i 2).val / 640) / 5 * 1 ≤ _ ∧ _ < (5 * (i 0).val + (i 2).val / 640) / 5 * 1 + 1; omega
  | ⟨1, _⟩ =>
    show win1_3.index _ (1 : Fin 3) * 256 ≤ (i 1).val ∧ (i 1).val < win1_3.index _ (1 : Fin 3) * 256 + 256
    rw [e1]; omega
  | ⟨2, _⟩ =>
    show win1_3.index _ (2 : Fin 3) * 640 ≤ (i 2).val ∧ (i 2).val < win1_3.index _ (2 : Fin 3) * 640 + 640
    rw [e2]; show (5 * (i 0).val + (i 2).val / 640) % 5 * 640 ≤ _ ∧ _ < (5 * (i 0).val + (i 2).val / 640) % 5 * 640 + 640; omega

/-- Region 1's output array after the run: the clamped affine image of the padded activations, tile by tile. -/
theorem region1_apply (c : Dev nD) :
    (dat1 (F := Ideal) V c).arrAt 3 cfg1.N = applyP (V c main_v27) (V c main_v25) (V c main_v1) :=
  (dat1 (F := Ideal) V c).arrAt_eq_of_cover 3 (applyP (V c main_v27) (V c main_v25) (V c main_v1))
    (fun t _ => apply_flushed_eq V c t) apply_cover

end Cert.ReferenceIdeal.Hand

end
-- ==== Proof.RHost2.lean ====
import proofs.«147999_g2000502477920874_pallasbulk_293_3_alg».proof.Proof.RDefs
import proofs.«147999_g2000502477920874_pallasbulk_293_3_alg».proof.Proof.RRunNamed
import proofs.«147999_g2000502477920874_pallasbulk_293_3_alg».proof.Proof.R1Value
import proofs.«147999_g2000502477920874_pallasbulk_293_3_alg».proof.Proof.RHost1Defs
import Idealize.ShloMosaic.Lib.StableHlo.Run
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

variable (m : (ℓ : Loc nD τ sig) → Buf (Elt Ideal) ℓ) (ρ : Dev nD → PrngReg)

/-- The apply kernel's output buffer at its exit, at its literal type. -/
abbrev h_v28 (c : Dev nD) : FVec Ideal S16x256x3200 .f32 := W5 m ρ c (Proc.devRef .tc main_v28)
/-- The result buffer at the end of the run, at its literal type. -/
abbrev h_v30 (c : Dev nD) : FVec Ideal S16x256x56x56 .f32 := W6 m ρ c (Proc.devRef .tc main_v30)
/-- The padded activations when the apply kernel is entered, at their literal type. -/
abbrev h_v1 (c : Dev nD) : FVec Ideal S16x256x3200 .f32 := W4 m ρ c (Proc.devRef .tc main_v1)

/-- The result is the apply kernel's array, cut back to the first 3136 columns and restored to four axes. -/
theorem h_v30_eq (c : Dev nD) :
    h_v30 m ρ c = shapeCast S16x256x56x56 (extractStridedSlice S16x256x3136 ![0, 0, 0] (h_v28 m ρ c) slices_S16x256x3200_S16x256x3136_0_0_0)
      shapeCasts_S16x256x3136_S16x256x56x56 := by
  dsimp only [h_v30, h_v28, W6, hostOps2]
  after_results <;> rfl

/-- The apply kernel's output array is the clamped affine image, by the folded weight and the additive term it is
    entered with, of the padded activations. -/
theorem h_v28_eq (c : Dev nD) : h_v28 m ρ c = applyP (h_v27 m ρ c) (h_v25 m ρ c) (h_v1 m ρ c) :=
  (W5_arr m ρ c 3).trans (region1_apply (V4 m ρ) c)

end Cert.ReferenceIdeal.Hand

end
-- ==== Proof.RRun.lean ====
import proofs.«147999_g2000502477920874_pallasbulk_293_3_alg».proof.Proof.Spec
import proofs.«147999_g2000502477920874_pallasbulk_293_3_alg».proof.Proof.RRunNamed
import proofs.«147999_g2000502477920874_pallasbulk_293_3_alg».proof.Proof.RAlg
import proofs.«147999_g2000502477920874_pallasbulk_293_3_alg».proof.Proof.RSlice
import proofs.«147999_g2000502477920874_pallasbulk_293_3_alg».proof.Proof.R0Value
import proofs.«147999_g2000502477920874_pallasbulk_293_3_alg».proof.Proof.RHost0
import proofs.«147999_g2000502477920874_pallasbulk_293_3_alg».proof.Proof.RHost1Val
import proofs.«147999_g2000502477920874_pallasbulk_293_3_alg».proof.Proof.RHost2
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen
open scoped BigOperators

open Cert.Spec

variable (m : (ℓ : Loc nD τ sig) → Buf (Elt Ideal) ℓ) (ρ : Dev nD → PrngReg)

/-! The reference program computes the specification.

    Its result buffer is, through the closing slice and reshape, the apply kernel's array; that kernel is entered with
    the padded activations, and with a folded weight and an additive term the host derived from the statistics
    kernel's two partial accumulators. The accumulators of the padded activations add up to the activations' own
    statistics, the host chain is the specification's formulas operation for operation, and the padding never enters
    the columns the slice keeps. -/

/-- The flattened activations the specification is stated over. -/
abbrev x3of (c : Dev nD) : S3.Idx → EReal := shapeCast S3 (x4of m c)

/-- The statistics kernel leaves, in its first output, partial Gram matrices that add up to the Gram matrix. -/
theorem stats_gram (c : Dev nD) (l k : Fin 256) :
    ∑ s : Fin 2, h_v2_0 m ρ c (ix3 s l k) = gram (x3of m c) l k := by
  have e : h_v2_0 m ρ c = gramP (padX (x3of m c)) := by
    rw [h_v2_0_eq]
    exact ((W3_arr m ρ c 1).trans (region0_gram (V2 m ρ) c)).trans (congrArg gramP (V2_main_v1 m ρ c))
  rw [e]; exact sum_gramP_padX _ l k

/-- The statistics kernel leaves, in its second output, partial row sums that add up to the row sums. -/
theorem stats_rsum (c : Dev nD) (k : Fin 256) :
    ∑ s : Fin 2, h_v2_1 m ρ c (ix3 s k (0 : Fin 1)) = rsum (x3of m c) k := by
  have e : h_v2_1 m ρ c = rsumP (padX (x3of m c)) := by
    rw [h_v2_1_eq]
    exact ((W3_arr m ρ c 2).trans (region0_rsum (V2 m ρ) c)).trans (congrArg rsumP (V2_main_v1 m ρ c))
  rw [e]; exact sum_rsumP_padX _ k

/-- The padded activations are unchanged between the two kernels. -/
theorem h_v1_eq (c : Dev nD) : h_v1 m ρ c = padX (x3of m c) :=
  (W4_main_v1 m ρ c).trans (V2_main_v1 m ρ c)

/-- The result buffer at the end of the run holds the specification's function of the four arguments. -/
theorem result_eq (c : Dev nD) :
    W6 m ρ c (Proc.devRef .tc main_v30)
      = out4 (m ((c.tc : Thread nD τ).loc main_arg0)) (m ((c.tc : Thread nD τ).loc main_arg1))
          (m ((c.tc : Thread nD τ).loc main_arg2)) (m ((c.tc : Thread nD τ).loc main_arg3)) := by
  have key : extractStridedSlice S16x256x3136 ![0, 0, 0] (h_v28 m ρ c) slices_S16x256x3200_S16x256x3136_0_0_0
      = out3 (x3of m c) (m ((c.tc : Thread nD τ).loc main_arg1)) (m ((c.tc : Thread nD τ).loc main_arg2))
          (m ((c.tc : Thread nD τ).loc main_arg3)) := by
    rw [h_v28_eq, h_v1_eq, slice_applyP_padX]
    funext q
    unfold out3
    refine congrArg (fun z => max z 0) ?_
    refine congrArg₂ (· + ·) (Finset.sum_congr rfl fun k _ => ?_) ?_
    · rw [host_wfold m ρ c (x3of m c) (stats_gram m ρ c) (stats_rsum m ρ c) (q 1) k, h_arg1_eq, h_arg2_eq,
        W3_main_arg1, W3_main_arg2]
    · rw [host_shift m ρ c (x3of m c) (stats_gram m ρ c) (stats_rsum m ρ c) (q 1), h_arg1_eq, h_arg2_eq, h_arg3_eq,
        W3_main_arg1, W3_main_arg2, W3_main_arg3]
  show h_v30 m ρ c = _
  rw [h_v30_eq, key]
  rfl

/-- The reference program at the ideal instance: from any memory with zero counters every weakly fair execution of @main
    terminates, nothing faulting, the result buffer holds the specification's function of the four arguments, and the
    arguments are as launched. -/
theorem run_value [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = Cert.Spec.out4 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_named (F := Ideal) m ρ)

end Cert.ReferenceIdeal.Hand

end
-- ==== Proof.lean ====
/-
  The certificate's claim assembled.

  The fused kernel (one pallas_call over a 2 × 16 grid that first accumulates the channels' Gram matrix and sums image by
  image, folds training-mode batch norm into the 1×1 convolution's weight, and then applies the folded affine map and the
  clamp at zero to a resident copy of the input) and the reference (zero-padded pixels, a tiled two-accumulator statistics
  pass, the fold on the host, a tiled application pass, the padding sliced away) both end, at the extended reals, with the
  array `Cert.Spec.out4` of the arguments: the kernel's by its named run and `outArr_eq`, the reference's by `run_value`.
  Each frame is its program's run with the result dropped; the idealization rewrote nothing, so `preserves` is `True`.
-/
import proofs.«147999_g2000502477920874_pallasbulk_293_3_alg».proof.Defs
import proofs.«147999_g2000502477920874_pallasbulk_293_3_alg».proof.Proof.Gen.Kernel
import proofs.«147999_g2000502477920874_pallasbulk_293_3_alg».proof.Proof.Gen.KernelIdeal
import proofs.«147999_g2000502477920874_pallasbulk_293_3_alg».proof.Proof.Gen.ReferenceIdeal
import proofs.«147999_g2000502477920874_pallasbulk_293_3_alg».proof.Proof.Gen.ReferenceIdeal.Frame
import proofs.«147999_g2000502477920874_pallasbulk_293_3_alg».proof.Proof.Gen.Pre_finite_inputs
import proofs.«147999_g2000502477920874_pallasbulk_293_3_alg».proof.Proof.Spec
import proofs.«147999_g2000502477920874_pallasbulk_293_3_alg».proof.Proof.KRun
import proofs.«147999_g2000502477920874_pallasbulk_293_3_alg».proof.Proof.KValue
import proofs.«147999_g2000502477920874_pallasbulk_293_3_alg».proof.Proof.Bits.KRun
import proofs.«147999_g2000502477920874_pallasbulk_293_3_alg».proof.Proof.RRun
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel terminates without a fault and leaves its arguments as launched. -/
theorem frame_k : Cert.frame_Kernel := fun m ρ _ =>
  (θ_run Cert.Kernel.defs _ _).mono (fun _ h c => (h c).2) (Cert.Kernel.Hand.run_named (F := Bits) m ρ)

/-- So does the kernel read at the extended reals. -/
theorem frame_ki : Cert.frame_KernelIdeal := fun m ρ _ =>
  (θ_run Cert.KernelIdeal.defs _ _).mono (fun _ h c => (h c).2) (Cert.KernelIdeal.Hand.run_named (F := Ideal) m ρ)

/-- And the reference. -/
theorem frame_ri : Cert.frame_ReferenceIdeal := fun m ρ _ => Cert.ReferenceIdeal.Gen.frame m ρ

/-- From memories that agree on the four arguments both programs end with the specification's array. -/
theorem algebraic : Cert.algebraic_KernelIdeal_ReferenceIdeal := by
  intro m ρ m' ρ' _ hagree
  refine ⟨fun c => Cert.Spec.out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.outArr_eq _ _ _ _), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Hand.run_value m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
